-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S131072 : Shape := ⟨1, ![131072]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S131072 : S_.BroadcastsInDim S131072 (![] : Fin 0 → Fin S131072.rank)
  reducesTo_S131072_S_d0 : S131072.ReducesTo [0] S_

variable [Facts]

def fn {F : FTy → Type} [FloatOps F] (main_arg0 : FVec F S131072x512 .f32) (main_arg1 : IVec S131072 32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_c_0 : IVec S_ 32 := constantI S_ 32 0#32
  let main_v4 : IVec S131072 32 := broadcastInDim S131072 ![] bcast_S_S131072 main_c_0
  let main_v5 : IVec S131072 1 := cmpi .sge main_arg1 main_v4
  let main_c_1 : IVec S_ 32 := constantI S_ 32 512#32
  let main_v6 : IVec S131072 32 := broadcastInDim S131072 ![] bcast_S_S131072 main_c_1
  let main_v7 : IVec S131072 1 := cmpi .slt main_arg1 main_v6
  let main_v8 : IVec S131072 1 := andi main_v5 main_v7
  let main_c_2 : IVec S_ 1 := constantI S_ 1 1#1
  let main_v9 : IVec S_ 1 := (fun x v => Host.reduce IntOp.andi x v reducesTo_S131072_S_d0 h_S_) main_v8 main_c_2
  let main_v10 : IVec S_ 1 := andi main_v3 main_v9
  main_v10
-- ==== Kernel.lean ====
abbrev S131072x512 : Shape := ⟨2, ![131072, 512]⟩
abbrev S131072 : Shape := ⟨1, ![131072]⟩
abbrev S131072x1 : Shape := ⟨2, ![131072, 1]⟩
abbrev S2x1x128 : Shape := ⟨3, ![2, 1, 128]⟩
abbrev S2048x512 : Shape := ⟨2, ![2048, 512]⟩
abbrev S2048x1 : Shape := ⟨2, ![2048, 1]⟩
abbrev S1x1x128 : Shape := ⟨3, ![1, 1, 128]⟩
abbrev S1x128 : Shape := ⟨2, ![1, 128]⟩
abbrev S2048 : Shape := ⟨1, ![2048]⟩
abbrev S1 : Shape := ⟨1, ![1]⟩
abbrev S1x1 : Shape := ⟨2, ![1, 1]⟩
abbrev S2x128 : Shape := ⟨2, ![2, 128]⟩
abbrev S_ : Shape := ⟨0, ![]⟩
abbrev S128 : Shape := ⟨1, ![128]⟩
abbrev S10 : Shape := ⟨1, ![10]⟩

abbrev nBuf : Space → Nat
  | .hbm => 62
  | .vmem => 8
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S131072x1, .i32⟩
  | .hbm, ⟨3, _⟩ => ⟨S2x1x128, .i32⟩
  | .hbm, ⟨4, _⟩ => ⟨S2x1x128, .f32⟩
  | .hbm, ⟨5, _⟩ => ⟨S2x128, .i32⟩
  | .hbm, ⟨6, _⟩ => ⟨S_, .i32⟩
  | .hbm, ⟨7, _⟩ => ⟨S128, .i32⟩
  | .hbm, ⟨8, _⟩ => ⟨S128, .f32⟩
  | .hbm, ⟨9, _⟩ => ⟨S2x128, .f32⟩
  | .hbm, ⟨10, _⟩ => ⟨S_, .f32⟩
  | .hbm, ⟨11, _⟩ => ⟨S128, .f32⟩
  | .hbm, ⟨12, _⟩ => ⟨S10, .f32⟩
  | .hbm, ⟨13, _⟩ => ⟨S_, .f32⟩
  | .hbm, ⟨14, _⟩ => ⟨S10, .f32⟩
  | .hbm, ⟨15, _⟩ => ⟨S10, .i1⟩
  | .hbm, ⟨16, _⟩ => ⟨S10, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S10, .f32⟩
  | .hbm, ⟨21, _⟩ => ⟨S10, .f32⟩
  | .hbm, ⟨22, _⟩ => ⟨S_, .f32⟩
  | .hbm, ⟨23, _⟩ => ⟨S_, .f32⟩
  | .hbm, ⟨24, _⟩ => ⟨S10, .f32⟩
  | .hbm, ⟨25, _⟩ => ⟨S10, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S10, .f32⟩
  | .hbm, ⟨30, _⟩ => ⟨S10, .i1⟩
  | .hbm, ⟨31, _⟩ => ⟨S_, .f32⟩
  | .hbm, ⟨32, _⟩ => ⟨S_, .f32⟩
  | .hbm, ⟨33, _⟩ => ⟨S10, .f32⟩
  | .hbm, ⟨34, _⟩ => ⟨S10, .f32⟩
  | .hbm, ⟨35, _⟩ => ⟨S10, .f32⟩
  | .hbm, ⟨36, _⟩ => ⟨S10, .f32⟩
  | .hbm, ⟨37, _⟩ => ⟨S_, .f32⟩
  | .hbm, ⟨38, _⟩ => ⟨S10, .f32⟩
  | .hbm, ⟨39, _⟩ => ⟨S10, .i1⟩
  | .hbm, ⟨40, _⟩ => ⟨S_, .f32⟩
  | .hbm, ⟨41, _⟩ => ⟨S10, .f32⟩
  | .hbm, ⟨42, _⟩ => ⟨S10, .f32⟩
  | .hbm, ⟨43, _⟩ => ⟨S_, .f32⟩
  | .hbm, ⟨44, _⟩ => ⟨S_, .f32⟩
  | .hbm, ⟨45, _⟩ => ⟨S10, .f32⟩
  | .hbm, ⟨46, _⟩ => ⟨S10, .f32⟩
  | .hbm, ⟨47, _⟩ => ⟨S_, .f32⟩
  | .hbm, ⟨48, _⟩ => ⟨S_, .i1⟩
  | .hbm, ⟨49, _⟩ => ⟨S_, .f32⟩
  | .hbm, ⟨50, _⟩ => ⟨S_, .f32⟩
  | .hbm, ⟨51, _⟩ => ⟨S10, .f32⟩
  | .hbm, ⟨52, _⟩ => ⟨S10, .f32⟩
  | .hbm, ⟨53, _⟩ => ⟨S_, .f32⟩
  | .hbm, ⟨54, _⟩ => ⟨S10, .f32⟩
  | .hbm, ⟨55, _⟩ => ⟨S10, .f32⟩
  | .hbm, ⟨56, _⟩ => ⟨S10, .f32⟩
  | .hbm, ⟨57, _⟩ => ⟨S10, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x1, .i32⟩
  | .local _ .vmem, ⟨3, _⟩ => ⟨S2048x1, .i32⟩
  | .local _ .vmem, ⟨4, _⟩ => ⟨S1x1x128, .i32⟩
  | .local _ .vmem, ⟨5, _⟩ => ⟨S1x1x128, .i32⟩
  | .local _ .vmem, ⟨6, _⟩ => ⟨S1x1x128, .f32⟩
  | .local _ .vmem, ⟨7, _⟩ => ⟨S1x1x128, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_call1_v0 : Ref sig .tc := ⟨.hbm, 32, rfl⟩
abbrev main_call1_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_v21 : Ref sig .tc := ⟨.hbm, 38, rfl⟩
abbrev main_v22 : Ref sig .tc := ⟨.hbm, 39, rfl⟩
abbrev main_cst_8 : Ref sig .tc := ⟨.hbm, 40, rfl⟩
abbrev main_v23 : Ref sig .tc := ⟨.hbm, 41, rfl⟩
abbrev main_v24 : Ref sig .tc := ⟨.hbm, 42, rfl⟩
abbrev main_cst_9 : Ref sig .tc := ⟨.hbm, 43, rfl⟩
abbrev main_call2_v0 : Ref sig .tc := ⟨.hbm, 44, rfl⟩
abbrev main_call2_v1 : Ref sig .tc := ⟨.hbm, 45, rfl⟩
abbrev main_v25 : Ref sig .tc := ⟨.hbm, 46, rfl⟩
abbrev main_cst_10 : Ref sig .tc := ⟨.hbm, 47, rfl⟩
abbrev main_v26 : Ref sig .tc := ⟨.hbm, 48, rfl⟩
abbrev main_cst_11 : Ref sig .tc := ⟨.hbm, 49, rfl⟩
abbrev main_call3_v0 : Ref sig .tc := ⟨.hbm, 50, rfl⟩
abbrev main_call3_v1 : Ref sig .tc := ⟨.hbm, 51, rfl⟩
abbrev main_v27 : Ref sig .tc := ⟨.hbm, 52, rfl⟩
abbrev main_cst_12 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_13 : Ref sig .tc := ⟨.hbm, 58, rfl⟩
abbrev main_v32 : Ref sig .tc := ⟨.hbm, 59, rfl⟩
abbrev main_cst_14 : Ref sig .tc := ⟨.hbm, 60, rfl⟩
abbrev main_v33 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S131072_S131072x1 : S131072.ShapeCasts S131072x1
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S2048x512_S2048x512_0_0 : ∀ a, (![0, 0] : Fin 2 → Nat) a + S2048x512.size a ≤ S2048x512.size a
  h_S2048x512 : 0 < S2048x512.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x512_d1_w32 : S2048x512.Iotas .tc 32 [1]
  broadcasts_S2048x1_S2048x512 : S2048x1.Broadcasts S2048x512
  natLt_1_32 : 1 < 32
  reduces_S2048x512_S2048 : S2048x512.Reduces [1] S2048
  shapeCasts_S2048_S2048x1 : S2048.ShapeCasts S2048x1
  iota_S1x128_d1_w32 : S1x128.Iotas .tc 32 [1]
  reduces_S2048x1_S1 : S2048x1.Reduces [0] S1
  shapeCasts_S1_S1x1 : S1.ShapeCasts S1x1
  broadcasts_S1x1_S1x128 : S1x1.Broadcasts S1x128
  shapeCasts_S2x1x128_S2x128 : S2x1x128.ShapeCasts S2x128
  reducesTo_S2x128_S128_d0 : S2x128.ReducesTo [0] S128
  h_S_ : 0 < S_.numel
  slices_S128_S10_0 : S128.Slices ![0] S10
  bcast_S_S10 : S_.BroadcastsInDim S10 (![] : Fin 0 → Fin S10.rank)
  reducesTo_S10_S_d0 : S10.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S131072x1.size a
  hwx0_1 : ∀ i : grid0.Coords, EltTy.bits .i32 = 32 ∨ (Rect.block (s := S131072x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .i32 = 32 ∨ (Rect.block (s := S2x1x128) S1x1x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)

variable [Facts₀]

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x512 : Shape := ⟨2, ![131072, 512]⟩
abbrev S131072 : Shape := ⟨1, ![131072]⟩
abbrev S131072x1 : Shape := ⟨2, ![131072, 1]⟩
abbrev S1x512 : Shape := ⟨2, ![1, 512]⟩
abbrev S_ : Shape := ⟨0, ![]⟩
abbrev S10 : Shape := ⟨1, ![10]⟩
abbrev S67108864 : Shape := ⟨1, ![67108864]⟩
abbrev S67108864x1 : Shape := ⟨2, ![67108864, 1]⟩
abbrev S131072x512x1 : Shape := ⟨3, ![131072, 512, 1]⟩
abbrev S131072x1x1 : Shape := ⟨3, ![131072, 1, 1]⟩
abbrev S1 : Shape := ⟨1, ![1]⟩
abbrev S1x1x1 : Shape := ⟨3, ![1, 1, 1]⟩

abbrev nBuf : Space → Nat
  | .hbm => 153
  | .vmem => 0
  | .smem => 0
  | _ => 0

abbrev hbmTy0_0 (i : Nat) : BufTy := match i % 128 with
  | 0 => ⟨S131072x512, .f32⟩
  | 1 => ⟨S131072, .i32⟩
  | 2 => ⟨S131072x1, .i32⟩
  | 3 => ⟨S1x512, .i32⟩
  | 4 => ⟨S131072x512, .i32⟩
  | 5 => ⟨S131072x512, .i32⟩
  | 6 => ⟨S131072x512, .i1⟩
  | 7 => ⟨S131072x512, .f32⟩
  | 8 => ⟨S_, .f32⟩
  | 9 => ⟨S131072, .f32⟩
  | 10 => ⟨S_, .f32⟩
  | 11 => ⟨S131072, .f32⟩
  | 12 => ⟨S131072, .f32⟩
  | 13 => ⟨S131072x1, .f32⟩
  | 14 => ⟨S131072x512, .f32⟩
  | 15 => ⟨S131072x512, .f32⟩
  | 16 => ⟨S131072x512, .f32⟩
  | 17 => ⟨S_, .f32⟩
  | 18 => ⟨S131072, .f32⟩
  | 19 => ⟨S131072x1, .f32⟩
  | 20 => ⟨S131072x512, .f32⟩
  | 21 => ⟨S131072x512, .f32⟩
  | 22 => ⟨S131072x512, .f32⟩
  | 23 => ⟨S131072x512, .f32⟩
  | 24 => ⟨S_, .f32⟩
  | 25 => ⟨S131072x512, .f32⟩
  | 26 => ⟨S131072x512, .f32⟩
  | 27 => ⟨S131072x512, .i32⟩
  | 28 => ⟨S_, .i32⟩
  | 29 => ⟨S_, .i32⟩
  | 30 => ⟨S_, .i32⟩
  | 31 => ⟨S131072x512, .i32⟩
  | 32 => ⟨S131072x512, .i32⟩
  | 33 => ⟨S_, .i32⟩
  | 34 => ⟨S131072x512, .i32⟩
  | 35 => ⟨S131072x512, .i32⟩
  | 36 => ⟨S_, .f32⟩
  | 37 => ⟨S10, .f32⟩
  | 38 => ⟨S67108864, .i32⟩
  | 39 => ⟨S_, .i32⟩
  | 40 => ⟨S67108864, .i32⟩
  | 41 => ⟨S67108864, .i1⟩
  | 42 => ⟨S_, .i32⟩
  | 43 => ⟨S67108864, .i32⟩
  | 44 => ⟨S67108864, .i32⟩
  | 45 => ⟨S67108864, .i32⟩
  | 46 => ⟨S67108864x1, .i32⟩
  | 47 => ⟨S_, .f32⟩
  | 48 => ⟨S67108864, .f32⟩
  | 49 => ⟨S10, .f32⟩
  | 50 => ⟨S_, .f32⟩
  | 51 => ⟨S10, .f32⟩
  | 52 => ⟨S10, .i1⟩
  | 53 => ⟨S10, .i32⟩
  | 54 => ⟨S_, .i32⟩
  | 55 => ⟨S_, .i32⟩
  | 56 => ⟨S_, .f32⟩
  | 57 => ⟨S_, .f32⟩
  | 58 => ⟨S10, .f32⟩
  | 59 => ⟨S10, .f32⟩
  | 60 => ⟨S_, .f32⟩
  | 61 => ⟨S_, .f32⟩
  | 62 => ⟨S10, .f32⟩
  | 63 => ⟨S10, .f32⟩
  | 64 => ⟨S_, .f32⟩
  | 65 => ⟨S_, .f32⟩
  | 66 => ⟨S_, .f32⟩
  | 67 => ⟨S10, .f32⟩
  | 68 => ⟨S10, .i1⟩
  | 69 => ⟨S_, .f32⟩
  | 70 => ⟨S_, .f32⟩
  | 71 => ⟨S10, .f32⟩
  | 72 => ⟨S10, .f32⟩
  | 73 => ⟨S10, .f32⟩
  | 74 => ⟨S10, .f32⟩
  | 75 => ⟨S_, .f32⟩
  | 76 => ⟨S10, .f32⟩
  | 77 => ⟨S10, .i1⟩
  | 78 => ⟨S_, .f32⟩
  | 79 => ⟨S10, .f32⟩
  | 80 => ⟨S10, .f32⟩
  | 81 => ⟨S_, .f32⟩
  | 82 => ⟨S_, .f32⟩
  | 83 => ⟨S10, .f32⟩
  | 84 => ⟨S10, .f32⟩
  | 85 => ⟨S_, .f32⟩
  | 86 => ⟨S_, .i1⟩
  | 87 => ⟨S_, .i32⟩
  | 88 => ⟨S131072x512, .i32⟩
  | 89 => ⟨S131072x512, .i1⟩
  | 90 => ⟨S_, .i32⟩
  | 91 => ⟨S131072x512, .i32⟩
  | 92 => ⟨S131072x512, .i32⟩
  | 93 => ⟨S131072x512, .i32⟩
  | 94 => ⟨S131072x512x1, .i32⟩
  | 95 => ⟨S131072x512, .f32⟩
  | 96 => ⟨S_, .f32⟩
  | 97 => ⟨S_, .f32⟩
  | 98 => ⟨S131072x512, .f32⟩
  | 99 => ⟨S131072x512, .f32⟩
  | 100 => ⟨S_, .f32⟩
  | 101 => ⟨S131072x512, .f32⟩
  | 102 => ⟨S131072x512, .f32⟩
  | 103 => ⟨S_, .f32⟩
  | 104 => ⟨S131072, .f32⟩
  | 105 => ⟨S_, .f32⟩
  | 106 => ⟨S131072, .f32⟩
  | 107 => ⟨S131072, .f32⟩
  | 108 => ⟨S131072x1, .f32⟩
  | 109 => ⟨S131072x512, .f32⟩
  | 110 => ⟨S131072x512, .f32⟩
  | 111 => ⟨S131072x512, .f32⟩
  | 112 => ⟨S_, .f32⟩
  | 113 => ⟨S131072, .f32⟩
  | 114 => ⟨S131072x1, .f32⟩
  | 115 => ⟨S131072x1, .f32⟩
  | 116 => ⟨S131072x512, .f32⟩
  | 117 => ⟨S131072x512, .f32⟩
  | 118 => ⟨S131072x1, .i32⟩
  | 119 => ⟨S_, .i32⟩
  | 120 => ⟨S131072x1, .i32⟩
  | 121 => ⟨S131072x1, .i1⟩
  | 122 => ⟨S_, .i32⟩
  | 123 => ⟨S131072x1, .i32⟩
  | 124 => ⟨S131072x1, .i32⟩
  | 125 => ⟨S131072x1, .i32⟩
  | 126 => ⟨S131072x1x1, .i32⟩
  | 127 => ⟨S1, .i32⟩
  | _ => ⟨S131072x512, .f32⟩

abbrev hbmTy0_1 (i : Nat) : BufTy := match i % 128 with
  | 0 => ⟨S_, .i32⟩
  | 1 => ⟨S131072x1x1, .i32⟩
  | 2 => ⟨S131072x1x1, .i1⟩
  | 3 => ⟨S1x1x1, .i32⟩
  | 4 => ⟨S131072x1x1, .i32⟩
  | 5 => ⟨S131072x1x1, .i1⟩
  | 6 => ⟨S131072x1x1, .i1⟩
  | 7 => ⟨S_, .i1⟩
  | 8 => ⟨S131072x1, .i1⟩
  | 9 => ⟨S131072x1, .f32⟩
  | 10 => ⟨S_, .f32⟩
  | 11 => ⟨S131072x1, .f32⟩
  | 12 => ⟨S131072x1, .f32⟩
  | 13 => ⟨S131072, .f32⟩
  | 14 => ⟨S131072, .f32⟩
  | 15 => ⟨S_, .f32⟩
  | 16 => ⟨S131072, .f32⟩
  | 17 => ⟨S131072, .f32⟩
  | 18 => ⟨S_, .f32⟩
  | 19 => ⟨S131072, .f32⟩
  | 20 => ⟨S131072, .f32⟩
  | 21 => ⟨S_, .f32⟩
  | 22 => ⟨S_, .f32⟩
  | 23 => ⟨S_, .f32⟩
  | 24 => ⟨S_, .f32⟩
  | _ => ⟨S131072x512, .f32⟩

abbrev hbmTy (i : Nat) : BufTy := match i / 128 with
  | 0 => hbmTy0_0 i
  | 1 => hbmTy0_1 i
  | _ => ⟨S131072x512, .f32⟩

abbrev bufTy : (tb : Table) → Fin (tcTables nBuf tb) → BufTy
  | .hbm, ⟨i, _⟩ => hbmTy i
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_c_3 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_c_5 : Ref sig .tc := ⟨.hbm, 39, rfl⟩
abbrev main_v20 : Ref sig .tc := ⟨.hbm, 40, rfl⟩
abbrev main_v21 : Ref sig .tc := ⟨.hbm, 41, rfl⟩
abbrev main_c_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩
abbrev main_cst_8 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_9 : Ref sig .tc := ⟨.hbm, 54, rfl⟩
abbrev main_v31 : Ref sig .tc := ⟨.hbm, 55, rfl⟩
abbrev main_v32 : Ref sig .tc := ⟨.hbm, 56, rfl⟩
abbrev main_cst_10 : Ref sig .tc := ⟨.hbm, 57, rfl⟩
abbrev main_v33 : Ref sig .tc := ⟨.hbm, 58, rfl⟩
abbrev main_v34 : Ref sig .tc := ⟨.hbm, 59, rfl⟩
abbrev main_cst_11 : Ref sig .tc := ⟨.hbm, 60, rfl⟩
abbrev main_call2_v0 : Ref sig .tc := ⟨.hbm, 61, rfl⟩
abbrev main_call2_v1 : Ref sig .tc := ⟨.hbm, 62, rfl⟩
abbrev main_v35 : Ref sig .tc := ⟨.hbm, 63, rfl⟩
abbrev main_cst_12 : Ref sig .tc := ⟨.hbm, 64, rfl⟩
abbrev main_v36 : Ref sig .tc := ⟨.hbm, 65, rfl⟩
abbrev main_cst_13 : Ref sig .tc := ⟨.hbm, 66, rfl⟩
abbrev main_v37 : Ref sig .tc := ⟨.hbm, 67, rfl⟩
abbrev main_v38 : Ref sig .tc := ⟨.hbm, 68, rfl⟩
abbrev main_cst_14 : Ref sig .tc := ⟨.hbm, 69, rfl⟩
abbrev main_call3_v0 : Ref sig .tc := ⟨.hbm, 70, rfl⟩
abbrev main_call3_v1 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_15 : Ref sig .tc := ⟨.hbm, 75, rfl⟩
abbrev main_v42 : Ref sig .tc := ⟨.hbm, 76, rfl⟩
abbrev main_v43 : Ref sig .tc := ⟨.hbm, 77, rfl⟩
abbrev main_cst_16 : Ref sig .tc := ⟨.hbm, 78, rfl⟩
abbrev main_v44 : Ref sig .tc := ⟨.hbm, 79, rfl⟩
abbrev main_v45 : Ref sig .tc := ⟨.hbm, 80, rfl⟩
abbrev main_cst_17 : Ref sig .tc := ⟨.hbm, 81, rfl⟩
abbrev main_call4_v0 : Ref sig .tc := ⟨.hbm, 82, rfl⟩
abbrev main_call4_v1 : Ref sig .tc := ⟨.hbm, 83, rfl⟩
abbrev main_v46 : Ref sig .tc := ⟨.hbm, 84, rfl⟩
abbrev main_cst_18 : Ref sig .tc := ⟨.hbm, 85, rfl⟩
abbrev main_v47 : Ref sig .tc := ⟨.hbm, 86, rfl⟩
abbrev main_c_19 : Ref sig .tc := ⟨.hbm, 87, rfl⟩
abbrev main_v48 : Ref sig .tc := ⟨.hbm, 88, rfl⟩
abbrev main_v49 : Ref sig .tc := ⟨.hbm, 89, rfl⟩
abbrev main_c_20 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_cst_21 : Ref sig .tc := ⟨.hbm, 96, rfl⟩
abbrev main_call5_v0 : Ref sig .tc := ⟨.hbm, 97, rfl⟩
abbrev main_call5_v1 : Ref sig .tc := ⟨.hbm, 98, rfl⟩
abbrev main_v55 : Ref sig .tc := ⟨.hbm, 99, rfl⟩
abbrev main_cst_22 : Ref sig .tc := ⟨.hbm, 100, rfl⟩
abbrev main_v56 : Ref sig .tc := ⟨.hbm, 101, rfl⟩
abbrev main_v57 : Ref sig .tc := ⟨.hbm, 102, rfl⟩
abbrev main_call6_cst : Ref sig .tc := ⟨.hbm, 103, rfl⟩
abbrev main_call6_v0 : Ref sig .tc := ⟨.hbm, 104, rfl⟩
abbrev main_call6_cst_0 : Ref sig .tc := ⟨.hbm, 105, rfl⟩
abbrev main_call6_v1 : Ref sig .tc := ⟨.hbm, 106, rfl⟩
abbrev main_call6_v2 : Ref sig .tc := ⟨.hbm, 107, rfl⟩
abbrev main_call6_v3 : Ref sig .tc := ⟨.hbm, 108, rfl⟩
abbrev main_call6_v4 : Ref sig .tc := ⟨.hbm, 109, rfl⟩
abbrev main_call6_v5 : Ref sig .tc := ⟨.hbm, 110, rfl⟩
abbrev main_call6_v6 : Ref sig .tc := ⟨.hbm, 111, rfl⟩
abbrev main_call6_cst_1 : Ref sig .tc := ⟨.hbm, 112, rfl⟩
abbrev main_call6_v7 : Ref sig .tc := ⟨.hbm, 113, rfl⟩
abbrev main_call6_v8 : Ref sig .tc := ⟨.hbm, 114, rfl⟩
abbrev main_call6_v9 : Ref sig .tc := ⟨.hbm, 115, rfl⟩
abbrev main_call6_v10 : Ref sig .tc := ⟨.hbm, 116, rfl⟩
abbrev main_v58 : Ref sig .tc := ⟨.hbm, 117, rfl⟩
abbrev main_v59 : Ref sig .tc := ⟨.hbm, 118, rfl⟩
abbrev main_call7_c : Ref sig .tc := ⟨.hbm, 119, rfl⟩
abbrev main_call7_v0 : Ref sig .tc := ⟨.hbm, 120, rfl⟩
abbrev main_call7_v1 : Ref sig .tc := ⟨.hbm, 121, rfl⟩
abbrev main_call7_c_0 : Ref sig .tc := ⟨.hbm, 122, rfl⟩
abbrev main_call7_v2 : Ref sig .tc := ⟨.hbm, 123, rfl⟩
abbrev main_call7_v3 : Ref sig .tc := ⟨.hbm, 124, rfl⟩
abbrev main_call7_v4 : Ref sig .tc := ⟨.hbm, 125, rfl⟩
abbrev main_call7_v5 : Ref sig .tc := ⟨.hbm, 126, rfl⟩
abbrev main_call7_c_1 : Ref sig .tc := ⟨.hbm, 127, rfl⟩
abbrev main_call7_c_2 : Ref sig .tc := ⟨.hbm, 128, rfl⟩
abbrev main_call7_v6 : Ref sig .tc := ⟨.hbm, 129, rfl⟩
abbrev main_call7_v7 : Ref sig .tc := ⟨.hbm, 130, rfl⟩
abbrev main_call7_v8 : Ref sig .tc := ⟨.hbm, 131, rfl⟩
abbrev main_call7_v9 : Ref sig .tc := ⟨.hbm, 132, rfl⟩
abbrev main_call7_v10 : Ref sig .tc := ⟨.hbm, 133, rfl⟩
abbrev main_call7_v11 : Ref sig .tc := ⟨.hbm, 134, rfl⟩
abbrev main_call7_c_3 : Ref sig .tc := ⟨.hbm, 135, rfl⟩
abbrev main_call7_v12 : Ref sig .tc := ⟨.hbm, 136, rfl⟩
abbrev main_call7_v13 : Ref sig .tc := ⟨.hbm, 137, rfl⟩
abbrev main_call7_cst : Ref sig .tc := ⟨.hbm, 138, rfl⟩
abbrev main_call7_v14 : Ref sig .tc := ⟨.hbm, 139, rfl⟩
abbrev main_v60 : Ref sig .tc := ⟨.hbm, 140, rfl⟩
abbrev main_v61 : Ref sig .tc := ⟨.hbm, 141, rfl⟩
abbrev main_v62 : Ref sig .tc := ⟨.hbm, 142, rfl⟩
abbrev main_cst_23 : Ref sig .tc := ⟨.hbm, 143, rfl⟩
abbrev main_v63 : Ref sig .tc := ⟨.hbm, 144, rfl⟩
abbrev main_v64 : Ref sig .tc := ⟨.hbm, 145, rfl⟩
abbrev main_cst_24 : Ref sig .tc := ⟨.hbm, 146, rfl⟩
abbrev main_v65 : Ref sig .tc := ⟨.hbm, 147, rfl⟩
abbrev main_v66 : Ref sig .tc := ⟨.hbm, 148, rfl⟩
abbrev main_cst_25 : Ref sig .tc := ⟨.hbm, 149, rfl⟩
abbrev main_v67 : Ref sig .tc := ⟨.hbm, 150, rfl⟩
abbrev main_cst_26 : Ref sig .tc := ⟨.hbm, 151, rfl⟩
abbrev main_v68 : Ref sig .tc := ⟨.hbm, 152, rfl⟩

abbrev nD : Nat := 1
abbrev τ : Topo := Topo.v7x

variable {F : FTy → Type} [FloatOps F]

class Facts₀ : Prop where
  bcast_S131072_S131072x1_0 : S131072.BroadcastsInDim S131072x1 (![0] : Fin 1 → Fin S131072x1.rank)
  bcast_S131072x1_S131072x512_0_1 : S131072x1.BroadcastsInDim S131072x512 (![0, 1] : Fin 2 → Fin S131072x512.rank)
  bcast_S1x512_S131072x512_0_1 : S1x512.BroadcastsInDim S131072x512 (![0, 1] : Fin 2 → Fin S131072x512.rank)
  reducesTo_S131072x512_S131072_d1 : S131072x512.ReducesTo [1] S131072
  h_S_ : 0 < S_.numel
  bcast_S_S131072 : S_.BroadcastsInDim S131072 (![] : Fin 0 → Fin S131072.rank)
  bcast_S_S131072x512 : S_.BroadcastsInDim S131072x512 (![] : Fin 0 → Fin S131072x512.rank)
  bcast_S_S10 : S_.BroadcastsInDim S10 (![] : Fin 0 → Fin S10.rank)
  shapeCasts_S131072x512_S67108864 : S131072x512.ShapeCasts S67108864
  bcast_S_S67108864 : S_.BroadcastsInDim S67108864 (![] : Fin 0 → Fin S67108864.rank)
  bcast_S67108864_S67108864x1_0 : S67108864.BroadcastsInDim S67108864x1 (![0] : Fin 1 → Fin S67108864x1.rank)
  natLt_1_32 : 1 < 32
  reducesTo_S10_S_d0 : S10.ReducesTo [0] S_
  bcast_S131072x512_S131072x512x1_0_1 : S131072x512.BroadcastsInDim S131072x512x1 (![0, 1] : Fin 2 → Fin S131072x512x1.rank)
  bcast_S_S131072x1 : S_.BroadcastsInDim S131072x1 (![] : Fin 0 → Fin S131072x1.rank)
  shapeCasts_S131072x1_S131072x1x1 : S131072x1.ShapeCasts S131072x1x1
  bcast_S_S131072x1x1 : S_.BroadcastsInDim S131072x1x1 (![] : Fin 0 → Fin S131072x1x1.rank)
  bcast_S1_S1x1x1_2 : S1.BroadcastsInDim S1x1x1 (![2] : Fin 1 → Fin S1x1x1.rank)
  bcast_S1x1x1_S131072x1x1_0_1_2 : S1x1x1.BroadcastsInDim S131072x1x1 (![0, 1, 2] : Fin 3 → Fin S131072x1x1.rank)
  reducesTo_S131072x1x1_S131072x1_d2 : S131072x1x1.ReducesTo [2] S131072x1
  shapeCasts_S131072x1_S131072 : S131072x1.ShapeCasts S131072
  reducesTo_S131072_S_d0 : S131072.ReducesTo [0] S_
  scatter_S10_S67108864x1_S67108864_n_0_0_1_wf : ScatterDims.WF S10 S67108864x1 S67108864 [] [0] [0] 1
  gather_S10_S131072x512x1_S131072x512_n_0_n_n_0_2_1_wf : GatherDims.WF S10 S131072x512x1 S131072x512 [] [0] [] [0] [] 2 ![1]
  gather_S131072x512_S131072x1x1_S131072x1_n_1_0_0_1_2_11_wf : GatherDims.WF S131072x512 S131072x1x1 S131072x1 [] [1] [0] [1] [0] 2 ![1, 1]

variable [Facts₀]

def scatter_S10_S67108864x1_S67108864_n_0_0_1 : ScatterDims S10 S67108864x1 S67108864 where
  updateWindowDims := []
  insertedWindowDims := [0]
  scatterDimsToOperandDims := [0]
  indexVectorDim := 1
  wf := scatter_S10_S67108864x1_S67108864_n_0_0_1_wf
def gather_S10_S131072x512x1_S131072x512_n_0_n_n_0_2_1 : GatherDims S10 S131072x512x1 S131072x512 where
  offsetDims := []
  collapsedSliceDims := [0]
  operandBatchingDims := []
  startIndicesBatchingDims := []
  startIndexMap := [0]
  indexVectorDim := 2
  sliceSizes := ![1]
  wf := gather_S10_S131072x512x1_S131072x512_n_0_n_n_0_2_1_wf
def gather_S131072x512_S131072x1x1_S131072x1_n_1_0_0_1_2_11 : GatherDims S131072x512 S131072x1x1 S131072x1 where
  offsetDims := []
  collapsedSliceDims := [1]
  operandBatchingDims := [0]
  startIndicesBatchingDims := [0]
  startIndexMap := [1]
  indexVectorDim := 2
  sliceSizes := ![1, 1]
  wf := gather_S131072x512_S131072x1x1_S131072x1_n_1_0_0_1_2_11_wf

class Facts : Prop extends Facts₀ where

variable [Facts]
-- ==== Proof.RefRunStages.lean ====
/-
  The reference program's run.  Its @main is a straight line of 151 host operations, so every execution terminates
  with every buffer at the fold of the operations' results over the launch contents.  Read stretch by stretch — each
  operation's result is its function of buffers written earlier, and a buffer written once keeps its contents — the
  result buffer ends at the last stage function of the two arguments, and the arguments, which no operation writes,
  are unchanged.

  The line is cut into 26 consecutive stretches.  For each cut there is an invariant: every buffer written before the
  cut that an operation after it reads (and each argument) holds its stage function of the two arguments.  A stretch
  carries the invariant of the cut before it to the invariant of the cut after it: a buffer the stretch writes holds
  its operation's function of its operands, which are buffers of the stretch (unfolded in turn) or buffers of the
  invariant; a buffer it does not write keeps its contents.  An operation inlined from a called function reads and
  writes its buffers through the identity transport between a buffer's type and the type of the tensor value it
  holds; one lemma per buffer removes each transport.  The fold over the whole line is the fold over the stretches
  in a row, so the launch contents, which satisfy the first invariant, end in the last, whose facts are the statement.
-/
import proofs.«428589_j7164005449994_3_alg».proof.Proof.RefRun
import proofs.«428589_j7164005449994_3_alg».proof.Proof.RefRead
import Idealize.ShloMosaic.Lib.StableHlo.Run

noncomputable section

namespace Cert.ReferenceIdeal.HRun

open Cert.ReferenceIdeal Cert.ReferenceIdeal.Gen Cert.ReferenceIdeal.PValue Cert.ReferenceIdeal.PRead
open Idealize.ShloMosaic Idealize.ShloMosaic.TcCoe Idealize.SL.Sem Idealize.ShloMosaic.StableHlo

variable {F : FTy → Type} [FloatOps F]

/-! ## The transports at the buffers of the inlined operations

At a literal buffer the transport of contents between the buffer's type and its tensor value's type is between
equal types, so it is the identity. -/

theorem ofBuf_main_arg1 (v : (Proc.devRef (τ := τ) .tc main_arg1).ty.Contents (Elt F)) : (TRef.of (T := ⟨S131072, .i32⟩) main_arg1).ofBuf v = v := eq_of_heq (cast_heq _ v)
theorem toBuf_main_arg1 (v : (⟨S131072, .i32⟩ : BufTy).Contents (Elt F)) : (TRef.of (T := ⟨S131072, .i32⟩) main_arg1).toBuf v = v := eq_of_heq (cast_heq _ v)
theorem ofBuf_main_call0_v0 (v : (Proc.devRef (τ := τ) .tc main_call0_v0).ty.Contents (Elt F)) : (TRef.of (T := ⟨S131072x1, .i32⟩) main_call0_v0).ofBuf v = v := eq_of_heq (cast_heq _ v)
theorem toBuf_main_call0_v0 (v : (⟨S131072x1, .i32⟩ : BufTy).Contents (Elt F)) : (TRef.of (T := ⟨S131072x1, .i32⟩) main_call0_v0).toBuf v = v := eq_of_heq (cast_heq _ v)
theorem ofBuf_main_call0_v1 (v : (Proc.devRef (τ := τ) .tc main_call0_v1).ty.Contents (Elt F)) : (TRef.of (T := ⟨S1x512, .i32⟩) main_call0_v1).ofBuf v = v := eq_of_heq (cast_heq _ v)
theorem toBuf_main_call0_v1 (v : (⟨S1x512, .i32⟩ : BufTy).Contents (Elt F)) : (TRef.of (T := ⟨S1x512, .i32⟩) main_call0_v1).toBuf v = v := eq_of_heq (cast_heq _ v)
theorem ofBuf_main_call0_v2 (v : (Proc.devRef (τ := τ) .tc main_call0_v2).ty.Contents (Elt F)) : (TRef.of (T := ⟨S131072x512, .i32⟩) main_call0_v2).ofBuf v = v := eq_of_heq (cast_heq _ v)
theorem toBuf_main_call0_v2 (v : (⟨S131072x512, .i32⟩ : BufTy).Contents (Elt F)) : (TRef.of (T := ⟨S131072x512, .i32⟩) main_call0_v2).toBuf v = v := eq_of_heq (cast_heq _ v)
theorem ofBuf_main_call0_v3 (v : (Proc.devRef (τ := τ) .tc main_call0_v3).ty.Contents (Elt F)) : (TRef.of (T := ⟨S131072x512, .i32⟩) main_call0_v3).ofBuf v = v := eq_of_heq (cast_heq _ v)
theorem toBuf_main_call0_v3 (v : (⟨S131072x512, .i32⟩ : BufTy).Contents (Elt F)) : (TRef.of (T := ⟨S131072x512, .i32⟩) main_call0_v3).toBuf v = v := eq_of_heq (cast_heq _ v)
theorem ofBuf_main_call0_v4 (v : (Proc.devRef (τ := τ) .tc main_call0_v4).ty.Contents (Elt F)) : (TRef.of (T := ⟨S131072x512, .i1⟩) main_call0_v4).ofBuf v = v := eq_of_heq (cast_heq _ v)
theorem toBuf_main_call0_v4 (v : (⟨S131072x512, .i1⟩ : BufTy).Contents (Elt F)) : (TRef.of (T := ⟨S131072x512, .i1⟩) main_call0_v4).toBuf v = v := eq_of_heq (cast_heq _ v)
theorem ofBuf_main_v0 (v : (Proc.devRef (τ := τ) .tc main_v0).ty.Contents (Elt F)) : (TRef.of (T := ⟨S131072x512, .f32⟩) main_v0).ofBuf v = v := eq_of_heq (cast_heq _ v)
theorem toBuf_main_v0 (v : (⟨S131072x512, .f32⟩ : BufTy).Contents (Elt F)) : (TRef.of (T := ⟨S131072x512, .f32⟩) main_v0).toBuf v = v := eq_of_heq (cast_heq _ v)
theorem ofBuf_main_c (v : (Proc.devRef (τ := τ) .tc main_c).ty.Contents (Elt F)) : (TRef.of (T := ⟨S_, .i32⟩) main_c).ofBuf v = v := eq_of_heq (cast_heq _ v)
theorem toBuf_main_c (v : (⟨S_, .i32⟩ : BufTy).Contents (Elt F)) : (TRef.of (T := ⟨S_, .i32⟩) main_c).toBuf v = v := eq_of_heq (cast_heq _ v)
theorem ofBuf_main_call1_v0 (v : (Proc.devRef (τ := τ) .tc main_call1_v0).ty.Contents (Elt F)) : (TRef.of (T := ⟨S_, .i32⟩) main_call1_v0).ofBuf v = v := eq_of_heq (cast_heq _ v)
theorem toBuf_main_call1_v0 (v : (⟨S_, .i32⟩ : BufTy).Contents (Elt F)) : (TRef.of (T := ⟨S_, .i32⟩) main_call1_v0).toBuf v = v := eq_of_heq (cast_heq _ v)
theorem ofBuf_main_call1_v1 (v : (Proc.devRef (τ := τ) .tc main_call1_v1).ty.Contents (Elt F)) : (TRef.of (T := ⟨S131072x512, .i32⟩) main_call1_v1).ofBuf v = v := eq_of_heq (cast_heq _ v)
theorem toBuf_main_call1_v1 (v : (⟨S131072x512, .i32⟩ : BufTy).Contents (Elt F)) : (TRef.of (T := ⟨S131072x512, .i32⟩) main_call1_v1).toBuf v = v := eq_of_heq (cast_heq _ v)
theorem ofBuf_main_v16 (v : (Proc.devRef (τ := τ) .tc main_v16).ty.Contents (Elt F)) : (TRef.of (T := ⟨S131072x512, .i32⟩) main_v16).ofBuf v = v := eq_of_heq (cast_heq _ v)
theorem toBuf_main_v16 (v : (⟨S131072x512, .i32⟩ : BufTy).Contents (Elt F)) : (TRef.of (T := ⟨S131072x512, .i32⟩) main_v16).toBuf v = v := eq_of_heq (cast_heq _ v)
theorem ofBuf_main_call1_v2 (v : (Proc.devRef (τ := τ) .tc main_call1_v2).ty.Contents (Elt F)) : (TRef.of (T := ⟨S131072x512, .i32⟩) main_call1_v2).ofBuf v = v := eq_of_heq (cast_heq _ v)
theorem toBuf_main_call1_v2 (v : (⟨S131072x512, .i32⟩ : BufTy).Contents (Elt F)) : (TRef.of (T := ⟨S131072x512, .i32⟩) main_call1_v2).toBuf v = v := eq_of_heq (cast_heq _ v)
theorem ofBuf_main_c_3 (v : (Proc.devRef (τ := τ) .tc main_c_3).ty.Contents (Elt F)) : (TRef.of (T := ⟨S_, .i32⟩) main_c_3).ofBuf v = v := eq_of_heq (cast_heq _ v)
theorem toBuf_main_c_3 (v : (⟨S_, .i32⟩ : BufTy).Contents (Elt F)) : (TRef.of (T := ⟨S_, .i32⟩) main_c_3).toBuf v = v := eq_of_heq (cast_heq _ v)
theorem ofBuf_main_call1_v3 (v : (Proc.devRef (τ := τ) .tc main_call1_v3).ty.Contents (Elt F)) : (TRef.of (T := ⟨S_, .i32⟩) main_call1_v3).ofBuf v = v := eq_of_heq (cast_heq _ v)
theorem toBuf_main_call1_v3 (v : (⟨S_, .i32⟩ : BufTy).Contents (Elt F)) : (TRef.of (T := ⟨S_, .i32⟩) main_call1_v3).toBuf v = v := eq_of_heq (cast_heq _ v)
theorem ofBuf_main_call1_v4 (v : (Proc.devRef (τ := τ) .tc main_call1_v4).ty.Contents (Elt F)) : (TRef.of (T := ⟨S131072x512, .i32⟩) main_call1_v4).ofBuf v = v := eq_of_heq (cast_heq _ v)
theorem toBuf_main_call1_v4 (v : (⟨S131072x512, .i32⟩ : BufTy).Contents (Elt F)) : (TRef.of (T := ⟨S131072x512, .i32⟩) main_call1_v4).toBuf v = v := eq_of_heq (cast_heq _ v)
theorem ofBuf_main_v17 (v : (Proc.devRef (τ := τ) .tc main_v17).ty.Contents (Elt F)) : (TRef.of (T := ⟨S131072x512, .i32⟩) main_v17).ofBuf v = v := eq_of_heq (cast_heq _ v)
theorem toBuf_main_v17 (v : (⟨S131072x512, .i32⟩ : BufTy).Contents (Elt F)) : (TRef.of (T := ⟨S131072x512, .i32⟩) main_v17).toBuf v = v := eq_of_heq (cast_heq _ v)
theorem ofBuf_main_cst_11 (v : (Proc.devRef (τ := τ) .tc main_cst_11).ty.Contents (Elt F)) : (TRef.of (T := ⟨S_, .f32⟩) main_cst_11).ofBuf v = v := eq_of_heq (cast_heq _ v)
theorem toBuf_main_cst_11 (v : (⟨S_, .f32⟩ : BufTy).Contents (Elt F)) : (TRef.of (T := ⟨S_, .f32⟩) main_cst_11).toBuf v = v := eq_of_heq (cast_heq _ v)
theorem ofBuf_main_call2_v0 (v : (Proc.devRef (τ := τ) .tc main_call2_v0).ty.Contents (Elt F)) : (TRef.of (T := ⟨S_, .f32⟩) main_call2_v0).ofBuf v = v := eq_of_heq (cast_heq _ v)
theorem toBuf_main_call2_v0 (v : (⟨S_, .f32⟩ : BufTy).Contents (Elt F)) : (TRef.of (T := ⟨S_, .f32⟩) main_call2_v0).toBuf v = v := eq_of_heq (cast_heq _ v)
theorem ofBuf_main_call2_v1 (v : (Proc.devRef (τ := τ) .tc main_call2_v1).ty.Contents (Elt F)) : (TRef.of (T := ⟨S10, .f32⟩) main_call2_v1).ofBuf v = v := eq_of_heq (cast_heq _ v)
theorem toBuf_main_call2_v1 (v : (⟨S10, .f32⟩ : BufTy).Contents (Elt F)) : (TRef.of (T := ⟨S10, .f32⟩) main_call2_v1).toBuf v = v := eq_of_heq (cast_heq _ v)
theorem ofBuf_main_v29 (v : (Proc.devRef (τ := τ) .tc main_v29).ty.Contents (Elt F)) : (TRef.of (T := ⟨S10, .i1⟩) main_v29).ofBuf v = v := eq_of_heq (cast_heq _ v)
theorem toBuf_main_v29 (v : (⟨S10, .i1⟩ : BufTy).Contents (Elt F)) : (TRef.of (T := ⟨S10, .i1⟩) main_v29).toBuf v = v := eq_of_heq (cast_heq _ v)
theorem ofBuf_main_v34 (v : (Proc.devRef (τ := τ) .tc main_v34).ty.Contents (Elt F)) : (TRef.of (T := ⟨S10, .f32⟩) main_v34).ofBuf v = v := eq_of_heq (cast_heq _ v)
theorem toBuf_main_v34 (v : (⟨S10, .f32⟩ : BufTy).Contents (Elt F)) : (TRef.of (T := ⟨S10, .f32⟩) main_v34).toBuf v = v := eq_of_heq (cast_heq _ v)
theorem ofBuf_main_v35 (v : (Proc.devRef (τ := τ) .tc main_v35).ty.Contents (Elt F)) : (TRef.of (T := ⟨S10, .f32⟩) main_v35).ofBuf v = v := eq_of_heq (cast_heq _ v)
theorem toBuf_main_v35 (v : (⟨S10, .f32⟩ : BufTy).Contents (Elt F)) : (TRef.of (T := ⟨S10, .f32⟩) main_v35).toBuf v = v := eq_of_heq (cast_heq _ v)
theorem ofBuf_main_cst_14 (v : (Proc.devRef (τ := τ) .tc main_cst_14).ty.Contents (Elt F)) : (TRef.of (T := ⟨S_, .f32⟩) main_cst_14).ofBuf v = v := eq_of_heq (cast_heq _ v)
theorem toBuf_main_cst_14 (v : (⟨S_, .f32⟩ : BufTy).Contents (Elt F)) : (TRef.of (T := ⟨S_, .f32⟩) main_cst_14).toBuf v = v := eq_of_heq (cast_heq _ v)
theorem ofBuf_main_call3_v0 (v : (Proc.devRef (τ := τ) .tc main_call3_v0).ty.Contents (Elt F)) : (TRef.of (T := ⟨S_, .f32⟩) main_call3_v0).ofBuf v = v := eq_of_heq (cast_heq _ v)
theorem toBuf_main_call3_v0 (v : (⟨S_, .f32⟩ : BufTy).Contents (Elt F)) : (TRef.of (T := ⟨S_, .f32⟩) main_call3_v0).toBuf v = v := eq_of_heq (cast_heq _ v)
theorem ofBuf_main_call3_v1 (v : (Proc.devRef (τ := τ) .tc main_call3_v1).ty.Contents (Elt F)) : (TRef.of (T := ⟨S10, .f32⟩) main_call3_v1).ofBuf v = v := eq_of_heq (cast_heq _ v)
theorem toBuf_main_call3_v1 (v : (⟨S10, .f32⟩ : BufTy).Contents (Elt F)) : (TRef.of (T := ⟨S10, .f32⟩) main_call3_v1).toBuf v = v := eq_of_heq (cast_heq _ v)
theorem ofBuf_main_v38 (v : (Proc.devRef (τ := τ) .tc main_v38).ty.Contents (Elt F)) : (TRef.of (T := ⟨S10, .i1⟩) main_v38).ofBuf v = v := eq_of_heq (cast_heq _ v)
theorem toBuf_main_v38 (v : (⟨S10, .i1⟩ : BufTy).Contents (Elt F)) : (TRef.of (T := ⟨S10, .i1⟩) main_v38).toBuf v = v := eq_of_heq (cast_heq _ v)
theorem ofBuf_main_v39 (v : (Proc.devRef (τ := τ) .tc main_v39).ty.Contents (Elt F)) : (TRef.of (T := ⟨S10, .f32⟩) main_v39).ofBuf v = v := eq_of_heq (cast_heq _ v)
theorem toBuf_main_v39 (v : (⟨S10, .f32⟩ : BufTy).Contents (Elt F)) : (TRef.of (T := ⟨S10, .f32⟩) main_v39).toBuf v = v := eq_of_heq (cast_heq _ v)
theorem ofBuf_main_cst_17 (v : (Proc.devRef (τ := τ) .tc main_cst_17).ty.Contents (Elt F)) : (TRef.of (T := ⟨S_, .f32⟩) main_cst_17).ofBuf v = v := eq_of_heq (cast_heq _ v)
theorem toBuf_main_cst_17 (v : (⟨S_, .f32⟩ : BufTy).Contents (Elt F)) : (TRef.of (T := ⟨S_, .f32⟩) main_cst_17).toBuf v = v := eq_of_heq (cast_heq _ v)
theorem ofBuf_main_call4_v0 (v : (Proc.devRef (τ := τ) .tc main_call4_v0).ty.Contents (Elt F)) : (TRef.of (T := ⟨S_, .f32⟩) main_call4_v0).ofBuf v = v := eq_of_heq (cast_heq _ v)
theorem toBuf_main_call4_v0 (v : (⟨S_, .f32⟩ : BufTy).Contents (Elt F)) : (TRef.of (T := ⟨S_, .f32⟩) main_call4_v0).toBuf v = v := eq_of_heq (cast_heq _ v)
theorem ofBuf_main_call4_v1 (v : (Proc.devRef (τ := τ) .tc main_call4_v1).ty.Contents (Elt F)) : (TRef.of (T := ⟨S10, .f32⟩) main_call4_v1).ofBuf v = v := eq_of_heq (cast_heq _ v)
theorem toBuf_main_call4_v1 (v : (⟨S10, .f32⟩ : BufTy).Contents (Elt F)) : (TRef.of (T := ⟨S10, .f32⟩) main_call4_v1).toBuf v = v := eq_of_heq (cast_heq _ v)
theorem ofBuf_main_v43 (v : (Proc.devRef (τ := τ) .tc main_v43).ty.Contents (Elt F)) : (TRef.of (T := ⟨S10, .i1⟩) main_v43).ofBuf v = v := eq_of_heq (cast_heq _ v)
theorem toBuf_main_v43 (v : (⟨S10, .i1⟩ : BufTy).Contents (Elt F)) : (TRef.of (T := ⟨S10, .i1⟩) main_v43).toBuf v = v := eq_of_heq (cast_heq _ v)
theorem ofBuf_main_v45 (v : (Proc.devRef (τ := τ) .tc main_v45).ty.Contents (Elt F)) : (TRef.of (T := ⟨S10, .f32⟩) main_v45).ofBuf v = v := eq_of_heq (cast_heq _ v)
theorem toBuf_main_v45 (v : (⟨S10, .f32⟩ : BufTy).Contents (Elt F)) : (TRef.of (T := ⟨S10, .f32⟩) main_v45).toBuf v = v := eq_of_heq (cast_heq _ v)
theorem ofBuf_main_v46 (v : (Proc.devRef (τ := τ) .tc main_v46).ty.Contents (Elt F)) : (TRef.of (T := ⟨S10, .f32⟩) main_v46).ofBuf v = v := eq_of_heq (cast_heq _ v)
theorem toBuf_main_v46 (v : (⟨S10, .f32⟩ : BufTy).Contents (Elt F)) : (TRef.of (T := ⟨S10, .f32⟩) main_v46).toBuf v = v := eq_of_heq (cast_heq _ v)
theorem ofBuf_main_cst_21 (v : (Proc.devRef (τ := τ) .tc main_cst_21).ty.Contents (Elt F)) : (TRef.of (T := ⟨S_, .f32⟩) main_cst_21).ofBuf v = v := eq_of_heq (cast_heq _ v)
theorem toBuf_main_cst_21 (v : (⟨S_, .f32⟩ : BufTy).Contents (Elt F)) : (TRef.of (T := ⟨S_, .f32⟩) main_cst_21).toBuf v = v := eq_of_heq (cast_heq _ v)
theorem ofBuf_main_call5_v0 (v : (Proc.devRef (τ := τ) .tc main_call5_v0).ty.Contents (Elt F)) : (TRef.of (T := ⟨S_, .f32⟩) main_call5_v0).ofBuf v = v := eq_of_heq (cast_heq _ v)
theorem toBuf_main_call5_v0 (v : (⟨S_, .f32⟩ : BufTy).Contents (Elt F)) : (TRef.of (T := ⟨S_, .f32⟩) main_call5_v0).toBuf v = v := eq_of_heq (cast_heq _ v)
theorem ofBuf_main_call5_v1 (v : (Proc.devRef (τ := τ) .tc main_call5_v1).ty.Contents (Elt F)) : (TRef.of (T := ⟨S131072x512, .f32⟩) main_call5_v1).ofBuf v = v := eq_of_heq (cast_heq _ v)
theorem toBuf_main_call5_v1 (v : (⟨S131072x512, .f32⟩ : BufTy).Contents (Elt F)) : (TRef.of (T := ⟨S131072x512, .f32⟩) main_call5_v1).toBuf v = v := eq_of_heq (cast_heq _ v)
theorem ofBuf_main_v47 (v : (Proc.devRef (τ := τ) .tc main_v47).ty.Contents (Elt F)) : (TRef.of (T := ⟨S_, .i1⟩) main_v47).ofBuf v = v := eq_of_heq (cast_heq _ v)
theorem toBuf_main_v47 (v : (⟨S_, .i1⟩ : BufTy).Contents (Elt F)) : (TRef.of (T := ⟨S_, .i1⟩) main_v47).toBuf v = v := eq_of_heq (cast_heq _ v)
theorem ofBuf_main_v54 (v : (Proc.devRef (τ := τ) .tc main_v54).ty.Contents (Elt F)) : (TRef.of (T := ⟨S131072x512, .f32⟩) main_v54).ofBuf v = v := eq_of_heq (cast_heq _ v)
theorem toBuf_main_v54 (v : (⟨S131072x512, .f32⟩ : BufTy).Contents (Elt F)) : (TRef.of (T := ⟨S131072x512, .f32⟩) main_v54).toBuf v = v := eq_of_heq (cast_heq _ v)
theorem ofBuf_main_v55 (v : (Proc.devRef (τ := τ) .tc main_v55).ty.Contents (Elt F)) : (TRef.of (T := ⟨S131072x512, .f32⟩) main_v55).ofBuf v = v := eq_of_heq (cast_heq _ v)
theorem toBuf_main_v55 (v : (⟨S131072x512, .f32⟩ : BufTy).Contents (Elt F)) : (TRef.of (T := ⟨S131072x512, .f32⟩) main_v55).toBuf v = v := eq_of_heq (cast_heq _ v)
theorem ofBuf_main_call6_cst (v : (Proc.devRef (τ := τ) .tc main_call6_cst).ty.Contents (Elt F)) : (TRef.of (T := ⟨S_, .f32⟩) main_call6_cst).ofBuf v = v := eq_of_heq (cast_heq _ v)
theorem toBuf_main_call6_cst (v : (⟨S_, .f32⟩ : BufTy).Contents (Elt F)) : (TRef.of (T := ⟨S_, .f32⟩) main_call6_cst).toBuf v = v := eq_of_heq (cast_heq _ v)
theorem ofBuf_main_v11 (v : (Proc.devRef (τ := τ) .tc main_v11).ty.Contents (Elt F)) : (TRef.of (T := ⟨S131072x512, .f32⟩) main_v11).ofBuf v = v := eq_of_heq (cast_heq _ v)
theorem toBuf_main_v11 (v : (⟨S131072x512, .f32⟩ : BufTy).Contents (Elt F)) : (TRef.of (T := ⟨S131072x512, .f32⟩) main_v11).toBuf v = v := eq_of_heq (cast_heq _ v)
theorem ofBuf_main_call6_v0 (v : (Proc.devRef (τ := τ) .tc main_call6_v0).ty.Contents (Elt F)) : (TRef.of (T := ⟨S131072, .f32⟩) main_call6_v0).ofBuf v = v := eq_of_heq (cast_heq _ v)
theorem toBuf_main_call6_v0 (v : (⟨S131072, .f32⟩ : BufTy).Contents (Elt F)) : (TRef.of (T := ⟨S131072, .f32⟩) main_call6_v0).toBuf v = v := eq_of_heq (cast_heq _ v)
theorem ofBuf_main_call6_cst_0 (v : (Proc.devRef (τ := τ) .tc main_call6_cst_0).ty.Contents (Elt F)) : (TRef.of (T := ⟨S_, .f32⟩) main_call6_cst_0).ofBuf v = v := eq_of_heq (cast_heq _ v)
theorem toBuf_main_call6_cst_0 (v : (⟨S_, .f32⟩ : BufTy).Contents (Elt F)) : (TRef.of (T := ⟨S_, .f32⟩) main_call6_cst_0).toBuf v = v := eq_of_heq (cast_heq _ v)
theorem ofBuf_main_call6_v1 (v : (Proc.devRef (τ := τ) .tc main_call6_v1).ty.Contents (Elt F)) : (TRef.of (T := ⟨S131072, .f32⟩) main_call6_v1).ofBuf v = v := eq_of_heq (cast_heq _ v)
theorem toBuf_main_call6_v1 (v : (⟨S131072, .f32⟩ : BufTy).Contents (Elt F)) : (TRef.of (T := ⟨S131072, .f32⟩) main_call6_v1).toBuf v = v := eq_of_heq (cast_heq _ v)
theorem ofBuf_main_call6_v2 (v : (Proc.devRef (τ := τ) .tc main_call6_v2).ty.Contents (Elt F)) : (TRef.of (T := ⟨S131072, .f32⟩) main_call6_v2).ofBuf v = v := eq_of_heq (cast_heq _ v)
theorem toBuf_main_call6_v2 (v : (⟨S131072, .f32⟩ : BufTy).Contents (Elt F)) : (TRef.of (T := ⟨S131072, .f32⟩) main_call6_v2).toBuf v = v := eq_of_heq (cast_heq _ v)
theorem ofBuf_main_call6_v3 (v : (Proc.devRef (τ := τ) .tc main_call6_v3).ty.Contents (Elt F)) : (TRef.of (T := ⟨S131072x1, .f32⟩) main_call6_v3).ofBuf v = v := eq_of_heq (cast_heq _ v)
theorem toBuf_main_call6_v3 (v : (⟨S131072x1, .f32⟩ : BufTy).Contents (Elt F)) : (TRef.of (T := ⟨S131072x1, .f32⟩) main_call6_v3).toBuf v = v := eq_of_heq (cast_heq _ v)
theorem ofBuf_main_call6_v4 (v : (Proc.devRef (τ := τ) .tc main_call6_v4).ty.Contents (Elt F)) : (TRef.of (T := ⟨S131072x512, .f32⟩) main_call6_v4).ofBuf v = v := eq_of_heq (cast_heq _ v)
theorem toBuf_main_call6_v4 (v : (⟨S131072x512, .f32⟩ : BufTy).Contents (Elt F)) : (TRef.of (T := ⟨S131072x512, .f32⟩) main_call6_v4).toBuf v = v := eq_of_heq (cast_heq _ v)
theorem ofBuf_main_call6_v5 (v : (Proc.devRef (τ := τ) .tc main_call6_v5).ty.Contents (Elt F)) : (TRef.of (T := ⟨S131072x512, .f32⟩) main_call6_v5).ofBuf v = v := eq_of_heq (cast_heq _ v)
theorem toBuf_main_call6_v5 (v : (⟨S131072x512, .f32⟩ : BufTy).Contents (Elt F)) : (TRef.of (T := ⟨S131072x512, .f32⟩) main_call6_v5).toBuf v = v := eq_of_heq (cast_heq _ v)
theorem ofBuf_main_call6_v6 (v : (Proc.devRef (τ := τ) .tc main_call6_v6).ty.Contents (Elt F)) : (TRef.of (T := ⟨S131072x512, .f32⟩) main_call6_v6).ofBuf v = v := eq_of_heq (cast_heq _ v)
theorem toBuf_main_call6_v6 (v : (⟨S131072x512, .f32⟩ : BufTy).Contents (Elt F)) : (TRef.of (T := ⟨S131072x512, .f32⟩) main_call6_v6).toBuf v = v := eq_of_heq (cast_heq _ v)
theorem ofBuf_main_call6_cst_1 (v : (Proc.devRef (τ := τ) .tc main_call6_cst_1).ty.Contents (Elt F)) : (TRef.of (T := ⟨S_, .f32⟩) main_call6_cst_1).ofBuf v = v := eq_of_heq (cast_heq _ v)
theorem toBuf_main_call6_cst_1 (v : (⟨S_, .f32⟩ : BufTy).Contents (Elt F)) : (TRef.of (T := ⟨S_, .f32⟩) main_call6_cst_1).toBuf v = v := eq_of_heq (cast_heq _ v)
theorem ofBuf_main_call6_v7 (v : (Proc.devRef (τ := τ) .tc main_call6_v7).ty.Contents (Elt F)) : (TRef.of (T := ⟨S131072, .f32⟩) main_call6_v7).ofBuf v = v := eq_of_heq (cast_heq _ v)
theorem toBuf_main_call6_v7 (v : (⟨S131072, .f32⟩ : BufTy).Contents (Elt F)) : (TRef.of (T := ⟨S131072, .f32⟩) main_call6_v7).toBuf v = v := eq_of_heq (cast_heq _ v)
theorem ofBuf_main_call6_v8 (v : (Proc.devRef (τ := τ) .tc main_call6_v8).ty.Contents (Elt F)) : (TRef.of (T := ⟨S131072x1, .f32⟩) main_call6_v8).ofBuf v = v := eq_of_heq (cast_heq _ v)
theorem toBuf_main_call6_v8 (v : (⟨S131072x1, .f32⟩ : BufTy).Contents (Elt F)) : (TRef.of (T := ⟨S131072x1, .f32⟩) main_call6_v8).toBuf v = v := eq_of_heq (cast_heq _ v)
theorem ofBuf_main_call6_v9 (v : (Proc.devRef (τ := τ) .tc main_call6_v9).ty.Contents (Elt F)) : (TRef.of (T := ⟨S131072x1, .f32⟩) main_call6_v9).ofBuf v = v := eq_of_heq (cast_heq _ v)
theorem toBuf_main_call6_v9 (v : (⟨S131072x1, .f32⟩ : BufTy).Contents (Elt F)) : (TRef.of (T := ⟨S131072x1, .f32⟩) main_call6_v9).toBuf v = v := eq_of_heq (cast_heq _ v)
theorem ofBuf_main_call6_v10 (v : (Proc.devRef (τ := τ) .tc main_call6_v10).ty.Contents (Elt F)) : (TRef.of (T := ⟨S131072x512, .f32⟩) main_call6_v10).ofBuf v = v := eq_of_heq (cast_heq _ v)
theorem toBuf_main_call6_v10 (v : (⟨S131072x512, .f32⟩ : BufTy).Contents (Elt F)) : (TRef.of (T := ⟨S131072x512, .f32⟩) main_call6_v10).toBuf v = v := eq_of_heq (cast_heq _ v)
theorem ofBuf_main_v58 (v : (Proc.devRef (τ := τ) .tc main_v58).ty.Contents (Elt F)) : (TRef.of (T := ⟨S131072x512, .f32⟩) main_v58).ofBuf v = v := eq_of_heq (cast_heq _ v)
theorem toBuf_main_v58 (v : (⟨S131072x512, .f32⟩ : BufTy).Contents (Elt F)) : (TRef.of (T := ⟨S131072x512, .f32⟩) main_v58).toBuf v = v := eq_of_heq (cast_heq _ v)
theorem ofBuf_main_call7_c (v : (Proc.devRef (τ := τ) .tc main_call7_c).ty.Contents (Elt F)) : (TRef.of (T := ⟨S_, .i32⟩) main_call7_c).ofBuf v = v := eq_of_heq (cast_heq _ v)
theorem toBuf_main_call7_c (v : (⟨S_, .i32⟩ : BufTy).Contents (Elt F)) : (TRef.of (T := ⟨S_, .i32⟩) main_call7_c).toBuf v = v := eq_of_heq (cast_heq _ v)
theorem ofBuf_main_call7_v0 (v : (Proc.devRef (τ := τ) .tc main_call7_v0).ty.Contents (Elt F)) : (TRef.of (T := ⟨S131072x1, .i32⟩) main_call7_v0).ofBuf v = v := eq_of_heq (cast_heq _ v)
theorem toBuf_main_call7_v0 (v : (⟨S131072x1, .i32⟩ : BufTy).Contents (Elt F)) : (TRef.of (T := ⟨S131072x1, .i32⟩) main_call7_v0).toBuf v = v := eq_of_heq (cast_heq _ v)
theorem ofBuf_main_v59 (v : (Proc.devRef (τ := τ) .tc main_v59).ty.Contents (Elt F)) : (TRef.of (T := ⟨S131072x1, .i32⟩) main_v59).ofBuf v = v := eq_of_heq (cast_heq _ v)
theorem toBuf_main_v59 (v : (⟨S131072x1, .i32⟩ : BufTy).Contents (Elt F)) : (TRef.of (T := ⟨S131072x1, .i32⟩) main_v59).toBuf v = v := eq_of_heq (cast_heq _ v)
theorem ofBuf_main_call7_v1 (v : (Proc.devRef (τ := τ) .tc main_call7_v1).ty.Contents (Elt F)) : (TRef.of (T := ⟨S131072x1, .i1⟩) main_call7_v1).ofBuf v = v := eq_of_heq (cast_heq _ v)
theorem toBuf_main_call7_v1 (v : (⟨S131072x1, .i1⟩ : BufTy).Contents (Elt F)) : (TRef.of (T := ⟨S131072x1, .i1⟩) main_call7_v1).toBuf v = v := eq_of_heq (cast_heq _ v)
theorem ofBuf_main_call7_c_0 (v : (Proc.devRef (τ := τ) .tc main_call7_c_0).ty.Contents (Elt F)) : (TRef.of (T := ⟨S_, .i32⟩) main_call7_c_0).ofBuf v = v := eq_of_heq (cast_heq _ v)
theorem toBuf_main_call7_c_0 (v : (⟨S_, .i32⟩ : BufTy).Contents (Elt F)) : (TRef.of (T := ⟨S_, .i32⟩) main_call7_c_0).toBuf v = v := eq_of_heq (cast_heq _ v)
theorem ofBuf_main_call7_v2 (v : (Proc.devRef (τ := τ) .tc main_call7_v2).ty.Contents (Elt F)) : (TRef.of (T := ⟨S131072x1, .i32⟩) main_call7_v2).ofBuf v = v := eq_of_heq (cast_heq _ v)
theorem toBuf_main_call7_v2 (v : (⟨S131072x1, .i32⟩ : BufTy).Contents (Elt F)) : (TRef.of (T := ⟨S131072x1, .i32⟩) main_call7_v2).toBuf v = v := eq_of_heq (cast_heq _ v)
theorem ofBuf_main_call7_v3 (v : (Proc.devRef (τ := τ) .tc main_call7_v3).ty.Contents (Elt F)) : (TRef.of (T := ⟨S131072x1, .i32⟩) main_call7_v3).ofBuf v = v := eq_of_heq (cast_heq _ v)
theorem toBuf_main_call7_v3 (v : (⟨S131072x1, .i32⟩ : BufTy).Contents (Elt F)) : (TRef.of (T := ⟨S131072x1, .i32⟩) main_call7_v3).toBuf v = v := eq_of_heq (cast_heq _ v)
theorem ofBuf_main_call7_v4 (v : (Proc.devRef (τ := τ) .tc main_call7_v4).ty.Contents (Elt F)) : (TRef.of (T := ⟨S131072x1, .i32⟩) main_call7_v4).ofBuf v = v := eq_of_heq (cast_heq _ v)
theorem toBuf_main_call7_v4 (v : (⟨S131072x1, .i32⟩ : BufTy).Contents (Elt F)) : (TRef.of (T := ⟨S131072x1, .i32⟩) main_call7_v4).toBuf v = v := eq_of_heq (cast_heq _ v)
theorem ofBuf_main_call7_v5 (v : (Proc.devRef (τ := τ) .tc main_call7_v5).ty.Contents (Elt F)) : (TRef.of (T := ⟨S131072x1x1, .i32⟩) main_call7_v5).ofBuf v = v := eq_of_heq (cast_heq _ v)
theorem toBuf_main_call7_v5 (v : (⟨S131072x1x1, .i32⟩ : BufTy).Contents (Elt F)) : (TRef.of (T := ⟨S131072x1x1, .i32⟩) main_call7_v5).toBuf v = v := eq_of_heq (cast_heq _ v)
theorem ofBuf_main_call7_c_1 (v : (Proc.devRef (τ := τ) .tc main_call7_c_1).ty.Contents (Elt F)) : (TRef.of (T := ⟨S1, .i32⟩) main_call7_c_1).ofBuf v = v := eq_of_heq (cast_heq _ v)
theorem toBuf_main_call7_c_1 (v : (⟨S1, .i32⟩ : BufTy).Contents (Elt F)) : (TRef.of (T := ⟨S1, .i32⟩) main_call7_c_1).toBuf v = v := eq_of_heq (cast_heq _ v)
theorem ofBuf_main_call7_c_2 (v : (Proc.devRef (τ := τ) .tc main_call7_c_2).ty.Contents (Elt F)) : (TRef.of (T := ⟨S_, .i32⟩) main_call7_c_2).ofBuf v = v := eq_of_heq (cast_heq _ v)
theorem toBuf_main_call7_c_2 (v : (⟨S_, .i32⟩ : BufTy).Contents (Elt F)) : (TRef.of (T := ⟨S_, .i32⟩) main_call7_c_2).toBuf v = v := eq_of_heq (cast_heq _ v)
theorem ofBuf_main_call7_v6 (v : (Proc.devRef (τ := τ) .tc main_call7_v6).ty.Contents (Elt F)) : (TRef.of (T := ⟨S131072x1x1, .i32⟩) main_call7_v6).ofBuf v = v := eq_of_heq (cast_heq _ v)
theorem toBuf_main_call7_v6 (v : (⟨S131072x1x1, .i32⟩ : BufTy).Contents (Elt F)) : (TRef.of (T := ⟨S131072x1x1, .i32⟩) main_call7_v6).toBuf v = v := eq_of_heq (cast_heq _ v)
theorem ofBuf_main_call7_v7 (v : (Proc.devRef (τ := τ) .tc main_call7_v7).ty.Contents (Elt F)) : (TRef.of (T := ⟨S131072x1x1, .i1⟩) main_call7_v7).ofBuf v = v := eq_of_heq (cast_heq _ v)
theorem toBuf_main_call7_v7 (v : (⟨S131072x1x1, .i1⟩ : BufTy).Contents (Elt F)) : (TRef.of (T := ⟨S131072x1x1, .i1⟩) main_call7_v7).toBuf v = v := eq_of_heq (cast_heq _ v)
theorem ofBuf_main_call7_v8 (v : (Proc.devRef (τ := τ) .tc main_call7_v8).ty.Contents (Elt F)) : (TRef.of (T := ⟨S1x1x1, .i32⟩) main_call7_v8).ofBuf v = v := eq_of_heq (cast_heq _ v)
theorem toBuf_main_call7_v8 (v : (⟨S1x1x1, .i32⟩ : BufTy).Contents (Elt F)) : (TRef.of (T := ⟨S1x1x1, .i32⟩) main_call7_v8).toBuf v = v := eq_of_heq (cast_heq _ v)
theorem ofBuf_main_call7_v9 (v : (Proc.devRef (τ := τ) .tc main_call7_v9).ty.Contents (Elt F)) : (TRef.of (T := ⟨S131072x1x1, .i32⟩) main_call7_v9).ofBuf v = v := eq_of_heq (cast_heq _ v)
theorem toBuf_main_call7_v9 (v : (⟨S131072x1x1, .i32⟩ : BufTy).Contents (Elt F)) : (TRef.of (T := ⟨S131072x1x1, .i32⟩) main_call7_v9).toBuf v = v := eq_of_heq (cast_heq _ v)
theorem ofBuf_main_call7_v10 (v : (Proc.devRef (τ := τ) .tc main_call7_v10).ty.Contents (Elt F)) : (TRef.of (T := ⟨S131072x1x1, .i1⟩) main_call7_v10).ofBuf v = v := eq_of_heq (cast_heq _ v)
theorem toBuf_main_call7_v10 (v : (⟨S131072x1x1, .i1⟩ : BufTy).Contents (Elt F)) : (TRef.of (T := ⟨S131072x1x1, .i1⟩) main_call7_v10).toBuf v = v := eq_of_heq (cast_heq _ v)
theorem ofBuf_main_call7_v11 (v : (Proc.devRef (τ := τ) .tc main_call7_v11).ty.Contents (Elt F)) : (TRef.of (T := ⟨S131072x1x1, .i1⟩) main_call7_v11).ofBuf v = v := eq_of_heq (cast_heq _ v)
theorem toBuf_main_call7_v11 (v : (⟨S131072x1x1, .i1⟩ : BufTy).Contents (Elt F)) : (TRef.of (T := ⟨S131072x1x1, .i1⟩) main_call7_v11).toBuf v = v := eq_of_heq (cast_heq _ v)
theorem ofBuf_main_call7_c_3 (v : (Proc.devRef (τ := τ) .tc main_call7_c_3).ty.Contents (Elt F)) : (TRef.of (T := ⟨S_, .i1⟩) main_call7_c_3).ofBuf v = v := eq_of_heq (cast_heq _ v)
theorem toBuf_main_call7_c_3 (v : (⟨S_, .i1⟩ : BufTy).Contents (Elt F)) : (TRef.of (T := ⟨S_, .i1⟩) main_call7_c_3).toBuf v = v := eq_of_heq (cast_heq _ v)
theorem ofBuf_main_call7_v12 (v : (Proc.devRef (τ := τ) .tc main_call7_v12).ty.Contents (Elt F)) : (TRef.of (T := ⟨S131072x1, .i1⟩) main_call7_v12).ofBuf v = v := eq_of_heq (cast_heq _ v)
theorem toBuf_main_call7_v12 (v : (⟨S131072x1, .i1⟩ : BufTy).Contents (Elt F)) : (TRef.of (T := ⟨S131072x1, .i1⟩) main_call7_v12).toBuf v = v := eq_of_heq (cast_heq _ v)
theorem ofBuf_main_call7_v13 (v : (Proc.devRef (τ := τ) .tc main_call7_v13).ty.Contents (Elt F)) : (TRef.of (T := ⟨S131072x1, .f32⟩) main_call7_v13).ofBuf v = v := eq_of_heq (cast_heq _ v)
theorem toBuf_main_call7_v13 (v : (⟨S131072x1, .f32⟩ : BufTy).Contents (Elt F)) : (TRef.of (T := ⟨S131072x1, .f32⟩) main_call7_v13).toBuf v = v := eq_of_heq (cast_heq _ v)
theorem ofBuf_main_call7_cst (v : (Proc.devRef (τ := τ) .tc main_call7_cst).ty.Contents (Elt F)) : (TRef.of (T := ⟨S_, .f32⟩) main_call7_cst).ofBuf v = v := eq_of_heq (cast_heq _ v)
theorem toBuf_main_call7_cst (v : (⟨S_, .f32⟩ : BufTy).Contents (Elt F)) : (TRef.of (T := ⟨S_, .f32⟩) main_call7_cst).toBuf v = v := eq_of_heq (cast_heq _ v)
theorem ofBuf_main_call7_v14 (v : (Proc.devRef (τ := τ) .tc main_call7_v14).ty.Contents (Elt F)) : (TRef.of (T := ⟨S131072x1, .f32⟩) main_call7_v14).ofBuf v = v := eq_of_heq (cast_heq _ v)
theorem toBuf_main_call7_v14 (v : (⟨S131072x1, .f32⟩ : BufTy).Contents (Elt F)) : (TRef.of (T := ⟨S131072x1, .f32⟩) main_call7_v14).toBuf v = v := eq_of_heq (cast_heq _ v)
theorem ofBuf_main_v60 (v : (Proc.devRef (τ := τ) .tc main_v60).ty.Contents (Elt F)) : (TRef.of (T := ⟨S131072x1, .f32⟩) main_v60).ofBuf v = v := eq_of_heq (cast_heq _ v)
theorem toBuf_main_v60 (v : (⟨S131072x1, .f32⟩ : BufTy).Contents (Elt F)) : (TRef.of (T := ⟨S131072x1, .f32⟩) main_v60).toBuf v = v := eq_of_heq (cast_heq _ v)

/-- The fold over a literal stretch, one operation at a time; then each operation's result read at its own buffer
    (its function of its operands' contents) and at any other buffer (what was there before). -/
local macro "after_line" : tactic =>
  `(tactic| ((repeat rw [after_cons]); rw [after_nil]
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-! ## The stretches -/

/-- Operations 1 to 6 of the line. -/
abbrev ops1 : List (HloOp τ sig (Elt F)) :=
  [ TRef.unary (TRef.of (T := ⟨S131072, .i32⟩) main_arg1) (TRef.of (T := ⟨S131072x1, .i32⟩) main_call0_v0) (broadcastInDim S131072x1 ![0] bcast_S131072_S131072x1_0),
    TRef.nullary (TRef.of (T := ⟨S1x512, .i32⟩) main_call0_v1) (iotaInDim S1x512 32 1),
    TRef.unary (TRef.of (T := ⟨S131072x1, .i32⟩) main_call0_v0) (TRef.of (T := ⟨S131072x512, .i32⟩) main_call0_v2) (broadcastInDim S131072x512 ![0, 1] bcast_S131072x1_S131072x512_0_1),
    TRef.unary (TRef.of (T := ⟨S1x512, .i32⟩) main_call0_v1) (TRef.of (T := ⟨S131072x512, .i32⟩) main_call0_v3) (broadcastInDim S131072x512 ![0, 1] bcast_S1x512_S131072x512_0_1),
    TRef.binary (TRef.of (T := ⟨S131072x512, .i32⟩) main_call0_v2) (TRef.of (T := ⟨S131072x512, .i32⟩) main_call0_v3) (TRef.of (T := ⟨S131072x512, .i1⟩) main_call0_v4) (cmpi .eq),
    TRef.unary (TRef.of (T := ⟨S131072x512, .i1⟩) main_call0_v4) (TRef.of (T := ⟨S131072x512, .f32⟩) main_v0) (uitofp (F := F) .f32) ]

/-- Operations 7 to 12 of the line. -/
abbrev ops2 : List (HloOp τ sig (Elt F)) :=
  [ nullary main_cst (constant S_ .f32 0xFF800000#32),
    binary main_arg0 main_cst main_v1 ((fun x v => Host.reduce FloatOps.maximumf x v reducesTo_S131072x512_S131072_d1 h_S_) : (⟨S131072x512, .f32⟩ : BufTy).Contents (Elt F) → (⟨S_, .f32⟩ : BufTy).Contents (Elt F) → (⟨S131072, .f32⟩ : BufTy).Contents (Elt F)),
    nullary main_cst_0 (constant S_ .f32 0xFF800000#32),
    unary main_cst_0 main_v2 (broadcastInDim S131072 ![] bcast_S_S131072 : (⟨S_, .f32⟩ : BufTy).Contents (Elt F) → (⟨S131072, .f32⟩ : BufTy).Contents (Elt F)),
    binary main_v2 main_v1 main_v3 (maximumf : (⟨S131072, .f32⟩ : BufTy).Contents (Elt F) → (⟨S131072, .f32⟩ : BufTy).Contents (Elt F) → (⟨S131072, .f32⟩ : BufTy).Contents (Elt F)),
    unary main_v3 main_v4 (broadcastInDim S131072x1 ![0] bcast_S131072_S131072x1_0 : (⟨S131072, .f32⟩ : BufTy).Contents (Elt F) → (⟨S131072x1, .f32⟩ : BufTy).Contents (Elt F)) ]

/-- Operations 13 to 18 of the line. -/
abbrev ops3 : List (HloOp τ sig (Elt F)) :=
  [ unary main_v4 main_v5 (broadcastInDim S131072x512 ![0, 1] bcast_S131072x1_S131072x512_0_1 : (⟨S131072x1, .f32⟩ : BufTy).Contents (Elt F) → (⟨S131072x512, .f32⟩ : BufTy).Contents (Elt F)),
    binary main_arg0 main_v5 main_v6 (subf : (⟨S131072x512, .f32⟩ : BufTy).Contents (Elt F) → (⟨S131072x512, .f32⟩ : BufTy).Contents (Elt F) → (⟨S131072x512, .f32⟩ : BufTy).Contents (Elt F)),
    unary main_v6 main_v7 (Host.exp : (⟨S131072x512, .f32⟩ : BufTy).Contents (Elt F) → (⟨S131072x512, .f32⟩ : BufTy).Contents (Elt F)),
    nullary main_cst_1 (constant S_ .f32 0x00000000#32),
    binary main_v7 main_cst_1 main_v8 ((fun x v => Host.reduceAdd x v reducesTo_S131072x512_S131072_d1 h_S_) : (⟨S131072x512, .f32⟩ : BufTy).Contents (Elt F) → (⟨S_, .f32⟩ : BufTy).Contents (Elt F) → (⟨S131072, .f32⟩ : BufTy).Contents (Elt F)),
    unary main_v8 main_v9 (broadcastInDim S131072x1 ![0] bcast_S131072_S131072x1_0 : (⟨S131072, .f32⟩ : BufTy).Contents (Elt F) → (⟨S131072x1, .f32⟩ : BufTy).Contents (Elt F)) ]

/-- Operations 19 to 24 of the line. -/
abbrev ops4 : List (HloOp τ sig (Elt F)) :=
  [ unary main_v9 main_v10 (broadcastInDim S131072x512 ![0, 1] bcast_S131072x1_S131072x512_0_1 : (⟨S131072x1, .f32⟩ : BufTy).Contents (Elt F) → (⟨S131072x512, .f32⟩ : BufTy).Contents (Elt F)),
    binary main_v7 main_v10 main_v11 (Host.divf : (⟨S131072x512, .f32⟩ : BufTy).Contents (Elt F) → (⟨S131072x512, .f32⟩ : BufTy).Contents (Elt F) → (⟨S131072x512, .f32⟩ : BufTy).Contents (Elt F)),
    binary main_v11 main_v0 main_v12 (subf : (⟨S131072x512, .f32⟩ : BufTy).Contents (Elt F) → (⟨S131072x512, .f32⟩ : BufTy).Contents (Elt F) → (⟨S131072x512, .f32⟩ : BufTy).Contents (Elt F)),
    unary main_v12 main_v13 (Host.absf : (⟨S131072x512, .f32⟩ : BufTy).Contents (Elt F) → (⟨S131072x512, .f32⟩ : BufTy).Contents (Elt F)),
    nullary main_cst_2 (constant S_ .f32 0x41200000#32),
    unary main_cst_2 main_v14 (broadcastInDim S131072x512 ![] bcast_S_S131072x512 : (⟨S_, .f32⟩ : BufTy).Contents (Elt F) → (⟨S131072x512, .f32⟩ : BufTy).Contents (Elt F)) ]

/-- Operations 25 to 30 of the line. -/
abbrev ops5 : List (HloOp τ sig (Elt F)) :=
  [ binary main_v13 main_v14 main_v15 (mulf : (⟨S131072x512, .f32⟩ : BufTy).Contents (Elt F) → (⟨S131072x512, .f32⟩ : BufTy).Contents (Elt F) → (⟨S131072x512, .f32⟩ : BufTy).Contents (Elt F)),
    unary main_v15 main_v16 (fptosi 32 : (⟨S131072x512, .f32⟩ : BufTy).Contents (Elt F) → (⟨S131072x512, .i32⟩ : BufTy).Contents (Elt F)),
    nullary main_c (constantI S_ 32 0#32),
    nullary main_c_3 (constantI S_ 32 9#32),
    TRef.unary (TRef.of (T := ⟨S_, .i32⟩) main_c) (TRef.of (T := ⟨S_, .i32⟩) main_call1_v0) id,
    TRef.unary (TRef.of (T := ⟨S_, .i32⟩) main_call1_v0) (TRef.of (T := ⟨S131072x512, .i32⟩) main_call1_v1) (broadcastInDim S131072x512 ![] bcast_S_S131072x512) ]

/-- Operations 31 to 36 of the line. -/
abbrev ops6 : List (HloOp τ sig (Elt F)) :=
  [ TRef.binary (TRef.of (T := ⟨S131072x512, .i32⟩) main_call1_v1) (TRef.of (T := ⟨S131072x512, .i32⟩) main_v16) (TRef.of (T := ⟨S131072x512, .i32⟩) main_call1_v2) maxsi,
    TRef.unary (TRef.of (T := ⟨S_, .i32⟩) main_c_3) (TRef.of (T := ⟨S_, .i32⟩) main_call1_v3) id,
    TRef.unary (TRef.of (T := ⟨S_, .i32⟩) main_call1_v3) (TRef.of (T := ⟨S131072x512, .i32⟩) main_call1_v4) (broadcastInDim S131072x512 ![] bcast_S_S131072x512),
    TRef.binary (TRef.of (T := ⟨S131072x512, .i32⟩) main_call1_v4) (TRef.of (T := ⟨S131072x512, .i32⟩) main_call1_v2) (TRef.of (T := ⟨S131072x512, .i32⟩) main_v17) minsi,
    nullary main_cst_4 (constant S_ .f32 0x00000000#32),
    unary main_cst_4 main_v18 (broadcastInDim S10 ![] bcast_S_S10 : (⟨S_, .f32⟩ : BufTy).Contents (Elt F) → (⟨S10, .f32⟩ : BufTy).Contents (Elt F)) ]

/-- Operations 37 to 42 of the line. -/
abbrev ops7 : List (HloOp τ sig (Elt F)) :=
  [ reshape main_v17 main_v19 rfl shapeCasts_S131072x512_S67108864,
    nullary main_c_5 (constantI S_ 32 0#32),
    unary main_c_5 main_v20 (broadcastInDim S67108864 ![] bcast_S_S67108864 : (⟨S_, .i32⟩ : BufTy).Contents (Elt F) → (⟨S67108864, .i32⟩ : BufTy).Contents (Elt F)),
    binary main_v19 main_v20 main_v21 (cmpi .slt : (⟨S67108864, .i32⟩ : BufTy).Contents (Elt F) → (⟨S67108864, .i32⟩ : BufTy).Contents (Elt F) → (⟨S67108864, .i1⟩ : BufTy).Contents (Elt F)),
    nullary main_c_6 (constantI S_ 32 10#32),
    unary main_c_6 main_v22 (broadcastInDim S67108864 ![] bcast_S_S67108864 : (⟨S_, .i32⟩ : BufTy).Contents (Elt F) → (⟨S67108864, .i32⟩ : BufTy).Contents (Elt F)) ]

/-- Operations 43 to 48 of the line. -/
abbrev ops8 : List (HloOp τ sig (Elt F)) :=
  [ binary main_v19 main_v22 main_v23 (addi : (⟨S67108864, .i32⟩ : BufTy).Contents (Elt F) → (⟨S67108864, .i32⟩ : BufTy).Contents (Elt F) → (⟨S67108864, .i32⟩ : BufTy).Contents (Elt F)),
    ternary main_v21 main_v23 main_v19 main_v24 (select : (⟨S67108864, .i1⟩ : BufTy).Contents (Elt F) → (⟨S67108864, .i32⟩ : BufTy).Contents (Elt F) → (⟨S67108864, .i32⟩ : BufTy).Contents (Elt F) → (⟨S67108864, .i32⟩ : BufTy).Contents (Elt F)),
    unary main_v24 main_v25 (broadcastInDim S67108864x1 ![0] bcast_S67108864_S67108864x1_0 : (⟨S67108864, .i32⟩ : BufTy).Contents (Elt F) → (⟨S67108864x1, .i32⟩ : BufTy).Contents (Elt F)),
    nullary main_cst_7 (constant S_ .f32 0x3F800000#32),
    unary main_cst_7 main_v26 (broadcastInDim S67108864 ![] bcast_S_S67108864 : (⟨S_, .f32⟩ : BufTy).Contents (Elt F) → (⟨S67108864, .f32⟩ : BufTy).Contents (Elt F)),
    ternary main_v18 main_v25 main_v26 main_v27 ((fun x i u => Host.scatterAdd scatter_S10_S67108864x1_S67108864_n_0_0_1 x i u) : (⟨S10, .f32⟩ : BufTy).Contents (Elt F) → (⟨S67108864x1, .i32⟩ : BufTy).Contents (Elt F) → (⟨S67108864, .f32⟩ : BufTy).Contents (Elt F) → (⟨S10, .f32⟩ : BufTy).Contents (Elt F)) ]

/-- Operations 49 to 54 of the line. -/
abbrev ops9 : List (HloOp τ sig (Elt F)) :=
  [ nullary main_cst_8 (constant S_ .f32 0x00000000#32),
    unary main_cst_8 main_v28 (broadcastInDim S10 ![] bcast_S_S10 : (⟨S_, .f32⟩ : BufTy).Contents (Elt F) → (⟨S10, .f32⟩ : BufTy).Contents (Elt F)),
    binary main_v27 main_v28 main_v29 (cmpf (F := F) .ogt : (⟨S10, .f32⟩ : BufTy).Contents (Elt F) → (⟨S10, .f32⟩ : BufTy).Contents (Elt F) → (⟨S10, .i1⟩ : BufTy).Contents (Elt F)),
    unary main_v29 main_v30 ((extui 32 · natLt_1_32) : (⟨S10, .i1⟩ : BufTy).Contents (Elt F) → (⟨S10, .i32⟩ : BufTy).Contents (Elt F)),
    nullary main_c_9 (constantI S_ 32 0#32),
    binary main_v30 main_c_9 main_v31 ((fun x v => Host.reduce IntOp.addi x v reducesTo_S10_S_d0 h_S_) : (⟨S10, .i32⟩ : BufTy).Contents (Elt F) → (⟨S_, .i32⟩ : BufTy).Contents (Elt F) → (⟨S_, .i32⟩ : BufTy).Contents (Elt F)) ]

/-- Operations 55 to 60 of the line. -/
abbrev ops10 : List (HloOp τ sig (Elt F)) :=
  [ unary main_v31 main_v32 (sitofp (F := F) .f32 : (⟨S_, .i32⟩ : BufTy).Contents (Elt F) → (⟨S_, .f32⟩ : BufTy).Contents (Elt F)),
    nullary main_cst_10 (constant S_ .f32 0x3DCCCCCD#32),
    unary main_cst_10 main_v33 (broadcastInDim S10 ![] bcast_S_S10 : (⟨S_, .f32⟩ : BufTy).Contents (Elt F) → (⟨S10, .f32⟩ : BufTy).Contents (Elt F)),
    binary main_v33 main_v27 main_v34 (mulf : (⟨S10, .f32⟩ : BufTy).Contents (Elt F) → (⟨S10, .f32⟩ : BufTy).Contents (Elt F) → (⟨S10, .f32⟩ : BufTy).Contents (Elt F)),
    nullary main_cst_11 (constant S_ .f32 0x00000000#32),
    TRef.unary (TRef.of (T := ⟨S_, .f32⟩) main_cst_11) (TRef.of (T := ⟨S_, .f32⟩) main_call2_v0) id ]

/-- Operations 61 to 66 of the line. -/
abbrev ops11 : List (HloOp τ sig (Elt F)) :=
  [ TRef.unary (TRef.of (T := ⟨S_, .f32⟩) main_call2_v0) (TRef.of (T := ⟨S10, .f32⟩) main_call2_v1) (broadcastInDim S10 ![] bcast_S_S10),
    TRef.ternary (TRef.of (T := ⟨S10, .i1⟩) main_v29) (TRef.of (T := ⟨S10, .f32⟩) main_v34) (TRef.of (T := ⟨S10, .f32⟩) main_call2_v1) (TRef.of (T := ⟨S10, .f32⟩) main_v35) select,
    nullary main_cst_12 (constant S_ .f32 0x3F800000#32),
    binary main_v32 main_cst_12 main_v36 (maximumf : (⟨S_, .f32⟩ : BufTy).Contents (Elt F) → (⟨S_, .f32⟩ : BufTy).Contents (Elt F) → (⟨S_, .f32⟩ : BufTy).Contents (Elt F)),
    nullary main_cst_13 (constant S_ .f32 0x00000000#32),
    unary main_cst_13 main_v37 (broadcastInDim S10 ![] bcast_S_S10 : (⟨S_, .f32⟩ : BufTy).Contents (Elt F) → (⟨S10, .f32⟩ : BufTy).Contents (Elt F)) ]

/-- Operations 67 to 72 of the line. -/
abbrev ops12 : List (HloOp τ sig (Elt F)) :=
  [ binary main_v35 main_v37 main_v38 (cmpf (F := F) .ogt : (⟨S10, .f32⟩ : BufTy).Contents (Elt F) → (⟨S10, .f32⟩ : BufTy).Contents (Elt F) → (⟨S10, .i1⟩ : BufTy).Contents (Elt F)),
    nullary main_cst_14 (constant S_ .f32 0x3F800000#32),
    TRef.unary (TRef.of (T := ⟨S_, .f32⟩) main_cst_14) (TRef.of (T := ⟨S_, .f32⟩) main_call3_v0) id,
    TRef.unary (TRef.of (T := ⟨S_, .f32⟩) main_call3_v0) (TRef.of (T := ⟨S10, .f32⟩) main_call3_v1) (broadcastInDim S10 ![] bcast_S_S10),
    TRef.ternary (TRef.of (T := ⟨S10, .i1⟩) main_v38) (TRef.of (T := ⟨S10, .f32⟩) main_v35) (TRef.of (T := ⟨S10, .f32⟩) main_call3_v1) (TRef.of (T := ⟨S10, .f32⟩) main_v39) select,
    unary main_v36 main_v40 (broadcastInDim S10 ![] bcast_S_S10 : (⟨S_, .f32⟩ : BufTy).Contents (Elt F) → (⟨S10, .f32⟩ : BufTy).Contents (Elt F)) ]

/-- Operations 73 to 78 of the line. -/
abbrev ops13 : List (HloOp τ sig (Elt F)) :=
  [ binary main_v40 main_v39 main_v41 (mulf : (⟨S10, .f32⟩ : BufTy).Contents (Elt F) → (⟨S10, .f32⟩ : BufTy).Contents (Elt F) → (⟨S10, .f32⟩ : BufTy).Contents (Elt F)),
    nullary main_cst_15 (constant S_ .f32 0x00000000#32),
    unary main_cst_15 main_v42 (broadcastInDim S10 ![] bcast_S_S10 : (⟨S_, .f32⟩ : BufTy).Contents (Elt F) → (⟨S10, .f32⟩ : BufTy).Contents (Elt F)),
    binary main_v35 main_v42 main_v43 (cmpf (F := F) .ogt : (⟨S10, .f32⟩ : BufTy).Contents (Elt F) → (⟨S10, .f32⟩ : BufTy).Contents (Elt F) → (⟨S10, .i1⟩ : BufTy).Contents (Elt F)),
    nullary main_cst_16 (constant S_ .f32 0x4C800000#32),
    unary main_cst_16 main_v44 (broadcastInDim S10 ![] bcast_S_S10 : (⟨S_, .f32⟩ : BufTy).Contents (Elt F) → (⟨S10, .f32⟩ : BufTy).Contents (Elt F)) ]

/-- Operations 79 to 84 of the line. -/
abbrev ops14 : List (HloOp τ sig (Elt F)) :=
  [ binary main_v44 main_v41 main_v45 (Host.divf : (⟨S10, .f32⟩ : BufTy).Contents (Elt F) → (⟨S10, .f32⟩ : BufTy).Contents (Elt F) → (⟨S10, .f32⟩ : BufTy).Contents (Elt F)),
    nullary main_cst_17 (constant S_ .f32 0x00000000#32),
    TRef.unary (TRef.of (T := ⟨S_, .f32⟩) main_cst_17) (TRef.of (T := ⟨S_, .f32⟩) main_call4_v0) id,
    TRef.unary (TRef.of (T := ⟨S_, .f32⟩) main_call4_v0) (TRef.of (T := ⟨S10, .f32⟩) main_call4_v1) (broadcastInDim S10 ![] bcast_S_S10),
    TRef.ternary (TRef.of (T := ⟨S10, .i1⟩) main_v43) (TRef.of (T := ⟨S10, .f32⟩) main_v45) (TRef.of (T := ⟨S10, .f32⟩) main_call4_v1) (TRef.of (T := ⟨S10, .f32⟩) main_v46) select,
    nullary main_cst_18 (constant S_ .f32 0x00000000#32) ]

/-- Operations 85 to 90 of the line. -/
abbrev ops15 : List (HloOp τ sig (Elt F)) :=
  [ binary main_v32 main_cst_18 main_v47 (cmpf (F := F) .ogt : (⟨S_, .f32⟩ : BufTy).Contents (Elt F) → (⟨S_, .f32⟩ : BufTy).Contents (Elt F) → (⟨S_, .i1⟩ : BufTy).Contents (Elt F)),
    nullary main_c_19 (constantI S_ 32 0#32),
    unary main_c_19 main_v48 (broadcastInDim S131072x512 ![] bcast_S_S131072x512 : (⟨S_, .i32⟩ : BufTy).Contents (Elt F) → (⟨S131072x512, .i32⟩ : BufTy).Contents (Elt F)),
    binary main_v17 main_v48 main_v49 (cmpi .slt : (⟨S131072x512, .i32⟩ : BufTy).Contents (Elt F) → (⟨S131072x512, .i32⟩ : BufTy).Contents (Elt F) → (⟨S131072x512, .i1⟩ : BufTy).Contents (Elt F)),
    nullary main_c_20 (constantI S_ 32 10#32),
    unary main_c_20 main_v50 (broadcastInDim S131072x512 ![] bcast_S_S131072x512 : (⟨S_, .i32⟩ : BufTy).Contents (Elt F) → (⟨S131072x512, .i32⟩ : BufTy).Contents (Elt F)) ]

/-- Operations 91 to 96 of the line. -/
abbrev ops16 : List (HloOp τ sig (Elt F)) :=
  [ binary main_v17 main_v50 main_v51 (addi : (⟨S131072x512, .i32⟩ : BufTy).Contents (Elt F) → (⟨S131072x512, .i32⟩ : BufTy).Contents (Elt F) → (⟨S131072x512, .i32⟩ : BufTy).Contents (Elt F)),
    ternary main_v49 main_v51 main_v17 main_v52 (select : (⟨S131072x512, .i1⟩ : BufTy).Contents (Elt F) → (⟨S131072x512, .i32⟩ : BufTy).Contents (Elt F) → (⟨S131072x512, .i32⟩ : BufTy).Contents (Elt F) → (⟨S131072x512, .i32⟩ : BufTy).Contents (Elt F)),
    unary main_v52 main_v53 (broadcastInDim S131072x512x1 ![0, 1] bcast_S131072x512_S131072x512x1_0_1 : (⟨S131072x512, .i32⟩ : BufTy).Contents (Elt F) → (⟨S131072x512x1, .i32⟩ : BufTy).Contents (Elt F)),
    binary main_v46 main_v53 main_v54 ((fun x i => Host.gather gather_S10_S131072x512x1_S131072x512_n_0_n_n_0_2_1 x i) : (⟨S10, .f32⟩ : BufTy).Contents (Elt F) → (⟨S131072x512x1, .i32⟩ : BufTy).Contents (Elt F) → (⟨S131072x512, .f32⟩ : BufTy).Contents (Elt F)),
    nullary main_cst_21 (constant S_ .f32 0x3F800000#32),
    TRef.unary (TRef.of (T := ⟨S_, .f32⟩) main_cst_21) (TRef.of (T := ⟨S_, .f32⟩) main_call5_v0) id ]

/-- Operations 97 to 102 of the line. -/
abbrev ops17 : List (HloOp τ sig (Elt F)) :=
  [ TRef.unary (TRef.of (T := ⟨S_, .f32⟩) main_call5_v0) (TRef.of (T := ⟨S131072x512, .f32⟩) main_call5_v1) (broadcastInDim S131072x512 ![] bcast_S_S131072x512),
    TRef.ternary (TRef.of (T := ⟨S_, .i1⟩) main_v47) (TRef.of (T := ⟨S131072x512, .f32⟩) main_v54) (TRef.of (T := ⟨S131072x512, .f32⟩) main_call5_v1) (TRef.of (T := ⟨S131072x512, .f32⟩) main_v55) (fun p a b => select (broadcastInDim S131072x512 ![] bcast_S_S131072x512 p) a b),
    nullary main_cst_22 (constant S_ .f32 0x3F400000#32),
    unary main_cst_22 main_v56 (broadcastInDim S131072x512 ![] bcast_S_S131072x512 : (⟨S_, .f32⟩ : BufTy).Contents (Elt F) → (⟨S131072x512, .f32⟩ : BufTy).Contents (Elt F)),
    binary main_v55 main_v56 main_v57 (Host.powf : (⟨S131072x512, .f32⟩ : BufTy).Contents (Elt F) → (⟨S131072x512, .f32⟩ : BufTy).Contents (Elt F) → (⟨S131072x512, .f32⟩ : BufTy).Contents (Elt F)),
    TRef.nullary (TRef.of (T := ⟨S_, .f32⟩) main_call6_cst) (constant S_ .f32 0xFF800000#32) ]

/-- Operations 103 to 108 of the line. -/
abbrev ops18 : List (HloOp τ sig (Elt F)) :=
  [ TRef.binary (TRef.of (T := ⟨S131072x512, .f32⟩) main_v11) (TRef.of (T := ⟨S_, .f32⟩) main_call6_cst) (TRef.of (T := ⟨S131072, .f32⟩) main_call6_v0) (fun x v => Host.reduce FloatOps.maximumf x v reducesTo_S131072x512_S131072_d1 h_S_),
    TRef.nullary (TRef.of (T := ⟨S_, .f32⟩) main_call6_cst_0) (constant S_ .f32 0xFF800000#32),
    TRef.unary (TRef.of (T := ⟨S_, .f32⟩) main_call6_cst_0) (TRef.of (T := ⟨S131072, .f32⟩) main_call6_v1) (broadcastInDim S131072 ![] bcast_S_S131072),
    TRef.binary (TRef.of (T := ⟨S131072, .f32⟩) main_call6_v1) (TRef.of (T := ⟨S131072, .f32⟩) main_call6_v0) (TRef.of (T := ⟨S131072, .f32⟩) main_call6_v2) maximumf,
    TRef.unary (TRef.of (T := ⟨S131072, .f32⟩) main_call6_v2) (TRef.of (T := ⟨S131072x1, .f32⟩) main_call6_v3) (broadcastInDim S131072x1 ![0] bcast_S131072_S131072x1_0),
    TRef.unary (TRef.of (T := ⟨S131072x1, .f32⟩) main_call6_v3) (TRef.of (T := ⟨S131072x512, .f32⟩) main_call6_v4) (broadcastInDim S131072x512 ![0, 1] bcast_S131072x1_S131072x512_0_1) ]

/-- Operations 109 to 114 of the line. -/
abbrev ops19 : List (HloOp τ sig (Elt F)) :=
  [ TRef.binary (TRef.of (T := ⟨S131072x512, .f32⟩) main_v11) (TRef.of (T := ⟨S131072x512, .f32⟩) main_call6_v4) (TRef.of (T := ⟨S131072x512, .f32⟩) main_call6_v5) subf,
    TRef.unary (TRef.of (T := ⟨S131072x512, .f32⟩) main_call6_v5) (TRef.of (T := ⟨S131072x512, .f32⟩) main_call6_v6) Host.exp,
    TRef.nullary (TRef.of (T := ⟨S_, .f32⟩) main_call6_cst_1) (constant S_ .f32 0x00000000#32),
    TRef.binary (TRef.of (T := ⟨S131072x512, .f32⟩) main_call6_v6) (TRef.of (T := ⟨S_, .f32⟩) main_call6_cst_1) (TRef.of (T := ⟨S131072, .f32⟩) main_call6_v7) (fun x v => Host.reduceAdd x v reducesTo_S131072x512_S131072_d1 h_S_),
    TRef.unary (TRef.of (T := ⟨S131072, .f32⟩) main_call6_v7) (TRef.of (T := ⟨S131072x1, .f32⟩) main_call6_v8) (broadcastInDim S131072x1 ![0] bcast_S131072_S131072x1_0),
    TRef.unary (TRef.of (T := ⟨S131072x1, .f32⟩) main_call6_v8) (TRef.of (T := ⟨S131072x1, .f32⟩) main_call6_v9) Host.log ]

/-- Operations 115 to 120 of the line. -/
abbrev ops20 : List (HloOp τ sig (Elt F)) :=
  [ TRef.unary (TRef.of (T := ⟨S131072x1, .f32⟩) main_call6_v9) (TRef.of (T := ⟨S131072x512, .f32⟩) main_call6_v10) (broadcastInDim S131072x512 ![0, 1] bcast_S131072x1_S131072x512_0_1),
    TRef.binary (TRef.of (T := ⟨S131072x512, .f32⟩) main_call6_v5) (TRef.of (T := ⟨S131072x512, .f32⟩) main_call6_v10) (TRef.of (T := ⟨S131072x512, .f32⟩) main_v58) subf,
    unary main_arg1 main_v59 (broadcastInDim S131072x1 ![0] bcast_S131072_S131072x1_0 : (⟨S131072, .i32⟩ : BufTy).Contents (Elt F) → (⟨S131072x1, .i32⟩ : BufTy).Contents (Elt F)),
    TRef.nullary (TRef.of (T := ⟨S_, .i32⟩) main_call7_c) (constantI S_ 32 0#32),
    TRef.unary (TRef.of (T := ⟨S_, .i32⟩) main_call7_c) (TRef.of (T := ⟨S131072x1, .i32⟩) main_call7_v0) (broadcastInDim S131072x1 ![] bcast_S_S131072x1),
    TRef.binary (TRef.of (T := ⟨S131072x1, .i32⟩) main_v59) (TRef.of (T := ⟨S131072x1, .i32⟩) main_call7_v0) (TRef.of (T := ⟨S131072x1, .i1⟩) main_call7_v1) (cmpi .slt) ]

/-- Operations 121 to 126 of the line. -/
abbrev ops21 : List (HloOp τ sig (Elt F)) :=
  [ TRef.nullary (TRef.of (T := ⟨S_, .i32⟩) main_call7_c_0) (constantI S_ 32 512#32),
    TRef.unary (TRef.of (T := ⟨S_, .i32⟩) main_call7_c_0) (TRef.of (T := ⟨S131072x1, .i32⟩) main_call7_v2) (broadcastInDim S131072x1 ![] bcast_S_S131072x1),
    TRef.binary (TRef.of (T := ⟨S131072x1, .i32⟩) main_v59) (TRef.of (T := ⟨S131072x1, .i32⟩) main_call7_v2) (TRef.of (T := ⟨S131072x1, .i32⟩) main_call7_v3) addi,
    TRef.ternary (TRef.of (T := ⟨S131072x1, .i1⟩) main_call7_v1) (TRef.of (T := ⟨S131072x1, .i32⟩) main_call7_v3) (TRef.of (T := ⟨S131072x1, .i32⟩) main_v59) (TRef.of (T := ⟨S131072x1, .i32⟩) main_call7_v4) select,
    TRef.reshape (TRef.of (T := ⟨S131072x1, .i32⟩) main_call7_v4) (TRef.of (T := ⟨S131072x1x1, .i32⟩) main_call7_v5) rfl shapeCasts_S131072x1_S131072x1x1,
    TRef.nullary (TRef.of (T := ⟨S1, .i32⟩) main_call7_c_1) (constantI S1 32 511#32) ]

/-- Operations 127 to 132 of the line. -/
abbrev ops22 : List (HloOp τ sig (Elt F)) :=
  [ TRef.nullary (TRef.of (T := ⟨S_, .i32⟩) main_call7_c_2) (constantI S_ 32 0#32),
    TRef.unary (TRef.of (T := ⟨S_, .i32⟩) main_call7_c_2) (TRef.of (T := ⟨S131072x1x1, .i32⟩) main_call7_v6) (broadcastInDim S131072x1x1 ![] bcast_S_S131072x1x1),
    TRef.binary (TRef.of (T := ⟨S131072x1x1, .i32⟩) main_call7_v5) (TRef.of (T := ⟨S131072x1x1, .i32⟩) main_call7_v6) (TRef.of (T := ⟨S131072x1x1, .i1⟩) main_call7_v7) (cmpi .sge),
    TRef.unary (TRef.of (T := ⟨S1, .i32⟩) main_call7_c_1) (TRef.of (T := ⟨S1x1x1, .i32⟩) main_call7_v8) (broadcastInDim S1x1x1 ![2] bcast_S1_S1x1x1_2),
    TRef.unary (TRef.of (T := ⟨S1x1x1, .i32⟩) main_call7_v8) (TRef.of (T := ⟨S131072x1x1, .i32⟩) main_call7_v9) (broadcastInDim S131072x1x1 ![0, 1, 2] bcast_S1x1x1_S131072x1x1_0_1_2),
    TRef.binary (TRef.of (T := ⟨S131072x1x1, .i32⟩) main_call7_v5) (TRef.of (T := ⟨S131072x1x1, .i32⟩) main_call7_v9) (TRef.of (T := ⟨S131072x1x1, .i1⟩) main_call7_v10) (cmpi .sle) ]

/-- Operations 133 to 138 of the line. -/
abbrev ops23 : List (HloOp τ sig (Elt F)) :=
  [ TRef.binary (TRef.of (T := ⟨S131072x1x1, .i1⟩) main_call7_v7) (TRef.of (T := ⟨S131072x1x1, .i1⟩) main_call7_v10) (TRef.of (T := ⟨S131072x1x1, .i1⟩) main_call7_v11) andi,
    TRef.nullary (TRef.of (T := ⟨S_, .i1⟩) main_call7_c_3) (constantI S_ 1 1#1),
    TRef.binary (TRef.of (T := ⟨S131072x1x1, .i1⟩) main_call7_v11) (TRef.of (T := ⟨S_, .i1⟩) main_call7_c_3) (TRef.of (T := ⟨S131072x1, .i1⟩) main_call7_v12) (fun x v => Host.reduce IntOp.andi x v reducesTo_S131072x1x1_S131072x1_d2 h_S_),
    TRef.binary (TRef.of (T := ⟨S131072x512, .f32⟩) main_v58) (TRef.of (T := ⟨S131072x1x1, .i32⟩) main_call7_v5) (TRef.of (T := ⟨S131072x1, .f32⟩) main_call7_v13) (fun x i => Host.gather gather_S131072x512_S131072x1x1_S131072x1_n_1_0_0_1_2_11 x i),
    TRef.nullary (TRef.of (T := ⟨S_, .f32⟩) main_call7_cst) (constant S_ .f32 0x7FC00000#32),
    TRef.unary (TRef.of (T := ⟨S_, .f32⟩) main_call7_cst) (TRef.of (T := ⟨S131072x1, .f32⟩) main_call7_v14) (broadcastInDim S131072x1 ![] bcast_S_S131072x1) ]

/-- Operations 139 to 144 of the line. -/
abbrev ops24 : List (HloOp τ sig (Elt F)) :=
  [ TRef.ternary (TRef.of (T := ⟨S131072x1, .i1⟩) main_call7_v12) (TRef.of (T := ⟨S131072x1, .f32⟩) main_call7_v13) (TRef.of (T := ⟨S131072x1, .f32⟩) main_call7_v14) (TRef.of (T := ⟨S131072x1, .f32⟩) main_v60) select,
    reshape main_v60 main_v61 rfl shapeCasts_S131072x1_S131072,
    unary main_v61 main_v62 (Host.negf : (⟨S131072, .f32⟩ : BufTy).Contents (Elt F) → (⟨S131072, .f32⟩ : BufTy).Contents (Elt F)),
    nullary main_cst_23 (constant S_ .f32 0x00000000#32),
    binary main_v57 main_cst_23 main_v63 ((fun x v => Host.reduceAdd x v reducesTo_S131072x512_S131072_d1 h_S_) : (⟨S131072x512, .f32⟩ : BufTy).Contents (Elt F) → (⟨S_, .f32⟩ : BufTy).Contents (Elt F) → (⟨S131072, .f32⟩ : BufTy).Contents (Elt F)),
    binary main_v62 main_v63 main_v64 (mulf : (⟨S131072, .f32⟩ : BufTy).Contents (Elt F) → (⟨S131072, .f32⟩ : BufTy).Contents (Elt F) → (⟨S131072, .f32⟩ : BufTy).Contents (Elt F)) ]

/-- Operations 145 to 150 of the line. -/
abbrev ops25 : List (HloOp τ sig (Elt F)) :=
  [ nullary main_cst_24 (constant S_ .f32 0x44000000#32),
    unary main_cst_24 main_v65 (broadcastInDim S131072 ![] bcast_S_S131072 : (⟨S_, .f32⟩ : BufTy).Contents (Elt F) → (⟨S131072, .f32⟩ : BufTy).Contents (Elt F)),
    binary main_v64 main_v65 main_v66 (Host.divf : (⟨S131072, .f32⟩ : BufTy).Contents (Elt F) → (⟨S131072, .f32⟩ : BufTy).Contents (Elt F) → (⟨S131072, .f32⟩ : BufTy).Contents (Elt F)),
    nullary main_cst_25 (constant S_ .f32 0x00000000#32),
    binary main_v66 main_cst_25 main_v67 ((fun x v => Host.reduceAdd x v reducesTo_S131072_S_d0 h_S_) : (⟨S131072, .f32⟩ : BufTy).Contents (Elt F) → (⟨S_, .f32⟩ : BufTy).Contents (Elt F) → (⟨S_, .f32⟩ : BufTy).Contents (Elt F)),
    nullary main_cst_26 (constant S_ .f32 0x48000000#32) ]

/-- Operations 151 to 151 of the line. -/
abbrev ops26 : List (HloOp τ sig (Elt F)) :=
  [ binary main_v67 main_cst_26 main_v68 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- The line is its stretches in a row. -/
theorem ops_split : (ops : List (HloOp τ sig (Elt F))) = ops1 ++ (ops2 ++ (ops3 ++ (ops4 ++ (ops5 ++ (ops6 ++ (ops7 ++ (ops8 ++ (ops9 ++ (ops10 ++ (ops11 ++ (ops12 ++ (ops13 ++ (ops14 ++ (ops15 ++ (ops16 ++ (ops17 ++ (ops18 ++ (ops19 ++ (ops20 ++ (ops21 ++ (ops22 ++ (ops23 ++ (ops24 ++ (ops25 ++ (ops26))))))))))))))))))))))))) := rfl

/-! ## The invariants at the cuts -/

/-- What the buffers still to be read hold at the start: each its stage function of the two arguments. -/
structure Inv0 (W : Valuation τ sig (Elt F)) (x0 : (⟨S131072x512, .f32⟩ : BufTy).Contents (Elt F)) (x1 : (⟨S131072, .i32⟩ : BufTy).Contents (Elt F)) : Prop where
  h_main_arg0 : W (Proc.devRef .tc main_arg0) = x0
  h_main_arg1 : W (Proc.devRef .tc main_arg1) = x1

/-- What the buffers still to be read hold after operation 6: each its stage function of the two arguments. -/
structure Inv1 (W : Valuation τ sig (Elt F)) (x0 : (⟨S131072x512, .f32⟩ : BufTy).Contents (Elt F)) (x1 : (⟨S131072, .i32⟩ : BufTy).Contents (Elt F)) : Prop where
  h_main_arg0 : W (Proc.devRef .tc main_arg0) = x0
  h_main_arg1 : W (Proc.devRef .tc main_arg1) = x1
  h_main_v0 : W (Proc.devRef .tc main_v0) = val_main_v0 (F := F) x1

/-- What the buffers still to be read hold after operation 12: each its stage function of the two arguments. -/
structure Inv2 (W : Valuation τ sig (Elt F)) (x0 : (⟨S131072x512, .f32⟩ : BufTy).Contents (Elt F)) (x1 : (⟨S131072, .i32⟩ : BufTy).Contents (Elt F)) : Prop where
  h_main_arg0 : W (Proc.devRef .tc main_arg0) = x0
  h_main_arg1 : W (Proc.devRef .tc main_arg1) = x1
  h_main_v0 : W (Proc.devRef .tc main_v0) = val_main_v0 (F := F) x1
  h_main_v4 : W (Proc.devRef .tc main_v4) = val_main_v4 (F := F) x0

/-- What the buffers still to be read hold after operation 18: each its stage function of the two arguments. -/
structure Inv3 (W : Valuation τ sig (Elt F)) (x0 : (⟨S131072x512, .f32⟩ : BufTy).Contents (Elt F)) (x1 : (⟨S131072, .i32⟩ : BufTy).Contents (Elt F)) : Prop where
  h_main_arg0 : W (Proc.devRef .tc main_arg0) = x0
  h_main_arg1 : W (Proc.devRef .tc main_arg1) = x1
  h_main_v0 : W (Proc.devRef .tc main_v0) = val_main_v0 (F := F) x1
  h_main_v7 : W (Proc.devRef .tc main_v7) = val_main_v7 (F := F) x0
  h_main_v9 : W (Proc.devRef .tc main_v9) = val_main_v9 (F := F) x0

/-- What the buffers still to be read hold after operation 24: each its stage function of the two arguments. -/
structure Inv4 (W : Valuation τ sig (Elt F)) (x0 : (⟨S131072x512, .f32⟩ : BufTy).Contents (Elt F)) (x1 : (⟨S131072, .i32⟩ : BufTy).Contents (Elt F)) : Prop where
  h_main_arg0 : W (Proc.devRef .tc main_arg0) = x0
  h_main_arg1 : W (Proc.devRef .tc main_arg1) = x1
  h_main_v11 : W (Proc.devRef .tc main_v11) = val_main_v11 (F := F) x0
  h_main_v13 : W (Proc.devRef .tc main_v13) = val_main_v13 (F := F) x0 x1
  h_main_v14 : W (Proc.devRef .tc main_v14) = val_main_v14 (F := F)

/-- What the buffers still to be read hold after operation 30: each its stage function of the two arguments. -/
structure Inv5 (W : Valuation τ sig (Elt F)) (x0 : (⟨S131072x512, .f32⟩ : BufTy).Contents (Elt F)) (x1 : (⟨S131072, .i32⟩ : BufTy).Contents (Elt F)) : Prop where
  h_main_arg0 : W (Proc.devRef .tc main_arg0) = x0
  h_main_arg1 : W (Proc.devRef .tc main_arg1) = x1
  h_main_v11 : W (Proc.devRef .tc main_v11) = val_main_v11 (F := F) x0
  h_main_v16 : W (Proc.devRef .tc main_v16) = val_main_v16 (F := F) x0 x1
  h_main_c_3 : W (Proc.devRef .tc main_c_3) = val_main_c_3 (F := F)
  h_main_call1_v1 : W (Proc.devRef .tc main_call1_v1) = val_main_call1_v1 (F := F)

/-- What the buffers still to be read hold after operation 36: each its stage function of the two arguments. -/
structure Inv6 (W : Valuation τ sig (Elt F)) (x0 : (⟨S131072x512, .f32⟩ : BufTy).Contents (Elt F)) (x1 : (⟨S131072, .i32⟩ : BufTy).Contents (Elt F)) : Prop where
  h_main_arg0 : W (Proc.devRef .tc main_arg0) = x0
  h_main_arg1 : W (Proc.devRef .tc main_arg1) = x1
  h_main_v11 : W (Proc.devRef .tc main_v11) = val_main_v11 (F := F) x0
  h_main_v17 : W (Proc.devRef .tc main_v17) = val_main_v17 (F := F) x0 x1
  h_main_v18 : W (Proc.devRef .tc main_v18) = val_main_v18 (F := F)

/-- What the buffers still to be read hold after operation 42: each its stage function of the two arguments. -/
structure Inv7 (W : Valuation τ sig (Elt F)) (x0 : (⟨S131072x512, .f32⟩ : BufTy).Contents (Elt F)) (x1 : (⟨S131072, .i32⟩ : BufTy).Contents (Elt F)) : Prop where
  h_main_arg0 : W (Proc.devRef .tc main_arg0) = x0
  h_main_arg1 : W (Proc.devRef .tc main_arg1) = x1
  h_main_v11 : W (Proc.devRef .tc main_v11) = val_main_v11 (F := F) x0
  h_main_v17 : W (Proc.devRef .tc main_v17) = val_main_v17 (F := F) x0 x1
  h_main_v18 : W (Proc.devRef .tc main_v18) = val_main_v18 (F := F)
  h_main_v19 : W (Proc.devRef .tc main_v19) = val_main_v19 (F := F) x0 x1
  h_main_v21 : W (Proc.devRef .tc main_v21) = val_main_v21 (F := F) x0 x1
  h_main_v22 : W (Proc.devRef .tc main_v22) = val_main_v22 (F := F)

/-- What the buffers still to be read hold after operation 48: each its stage function of the two arguments. -/
structure Inv8 (W : Valuation τ sig (Elt F)) (x0 : (⟨S131072x512, .f32⟩ : BufTy).Contents (Elt F)) (x1 : (⟨S131072, .i32⟩ : BufTy).Contents (Elt F)) : Prop where
  h_main_arg0 : W (Proc.devRef .tc main_arg0) = x0
  h_main_arg1 : W (Proc.devRef .tc main_arg1) = x1
  h_main_v11 : W (Proc.devRef .tc main_v11) = val_main_v11 (F := F) x0
  h_main_v17 : W (Proc.devRef .tc main_v17) = val_main_v17 (F := F) x0 x1
  h_main_v27 : W (Proc.devRef .tc main_v27) = val_main_v27 (F := F) x0 x1

/-- What the buffers still to be read hold after operation 54: each its stage function of the two arguments. -/
structure Inv9 (W : Valuation τ sig (Elt F)) (x0 : (⟨S131072x512, .f32⟩ : BufTy).Contents (Elt F)) (x1 : (⟨S131072, .i32⟩ : BufTy).Contents (Elt F)) : Prop where
  h_main_arg0 : W (Proc.devRef .tc main_arg0) = x0
  h_main_arg1 : W (Proc.devRef .tc main_arg1) = x1
  h_main_v11 : W (Proc.devRef .tc main_v11) = val_main_v11 (F := F) x0
  h_main_v17 : W (Proc.devRef .tc main_v17) = val_main_v17 (F := F) x0 x1
  h_main_v27 : W (Proc.devRef .tc main_v27) = val_main_v27 (F := F) x0 x1
  h_main_v29 : W (Proc.devRef .tc main_v29) = val_main_v29 (F := F) x0 x1
  h_main_v31 : W (Proc.devRef .tc main_v31) = val_main_v31 (F := F) x0 x1

/-- What the buffers still to be read hold after operation 60: each its stage function of the two arguments. -/
structure Inv10 (W : Valuation τ sig (Elt F)) (x0 : (⟨S131072x512, .f32⟩ : BufTy).Contents (Elt F)) (x1 : (⟨S131072, .i32⟩ : BufTy).Contents (Elt F)) : Prop where
  h_main_arg0 : W (Proc.devRef .tc main_arg0) = x0
  h_main_arg1 : W (Proc.devRef .tc main_arg1) = x1
  h_main_v11 : W (Proc.devRef .tc main_v11) = val_main_v11 (F := F) x0
  h_main_v17 : W (Proc.devRef .tc main_v17) = val_main_v17 (F := F) x0 x1
  h_main_v29 : W (Proc.devRef .tc main_v29) = val_main_v29 (F := F) x0 x1
  h_main_v32 : W (Proc.devRef .tc main_v32) = val_main_v32 (F := F) x0 x1
  h_main_v34 : W (Proc.devRef .tc main_v34) = val_main_v34 (F := F) x0 x1
  h_main_call2_v0 : W (Proc.devRef .tc main_call2_v0) = val_main_call2_v0 (F := F)

/-- What the buffers still to be read hold after operation 66: each its stage function of the two arguments. -/
structure Inv11 (W : Valuation τ sig (Elt F)) (x0 : (⟨S131072x512, .f32⟩ : BufTy).Contents (Elt F)) (x1 : (⟨S131072, .i32⟩ : BufTy).Contents (Elt F)) : Prop where
  h_main_arg0 : W (Proc.devRef .tc main_arg0) = x0
  h_main_arg1 : W (Proc.devRef .tc main_arg1) = x1
  h_main_v11 : W (Proc.devRef .tc main_v11) = val_main_v11 (F := F) x0
  h_main_v17 : W (Proc.devRef .tc main_v17) = val_main_v17 (F := F) x0 x1
  h_main_v32 : W (Proc.devRef .tc main_v32) = val_main_v32 (F := F) x0 x1
  h_main_v35 : W (Proc.devRef .tc main_v35) = val_main_v35 (F := F) x0 x1
  h_main_v36 : W (Proc.devRef .tc main_v36) = val_main_v36 (F := F) x0 x1
  h_main_v37 : W (Proc.devRef .tc main_v37) = val_main_v37 (F := F)

/-- What the buffers still to be read hold after operation 72: each its stage function of the two arguments. -/
structure Inv12 (W : Valuation τ sig (Elt F)) (x0 : (⟨S131072x512, .f32⟩ : BufTy).Contents (Elt F)) (x1 : (⟨S131072, .i32⟩ : BufTy).Contents (Elt F)) : Prop where
  h_main_arg0 : W (Proc.devRef .tc main_arg0) = x0
  h_main_arg1 : W (Proc.devRef .tc main_arg1) = x1
  h_main_v11 : W (Proc.devRef .tc main_v11) = val_main_v11 (F := F) x0
  h_main_v17 : W (Proc.devRef .tc main_v17) = val_main_v17 (F := F) x0 x1
  h_main_v32 : W (Proc.devRef .tc main_v32) = val_main_v32 (F := F) x0 x1
  h_main_v35 : W (Proc.devRef .tc main_v35) = val_main_v35 (F := F) x0 x1
  h_main_v39 : W (Proc.devRef .tc main_v39) = val_main_v39 (F := F) x0 x1
  h_main_v40 : W (Proc.devRef .tc main_v40) = val_main_v40 (F := F) x0 x1

/-- What the buffers still to be read hold after operation 78: each its stage function of the two arguments. -/
structure Inv13 (W : Valuation τ sig (Elt F)) (x0 : (⟨S131072x512, .f32⟩ : BufTy).Contents (Elt F)) (x1 : (⟨S131072, .i32⟩ : BufTy).Contents (Elt F)) : Prop where
  h_main_arg0 : W (Proc.devRef .tc main_arg0) = x0
  h_main_arg1 : W (Proc.devRef .tc main_arg1) = x1
  h_main_v11 : W (Proc.devRef .tc main_v11) = val_main_v11 (F := F) x0
  h_main_v17 : W (Proc.devRef .tc main_v17) = val_main_v17 (F := F) x0 x1
  h_main_v32 : W (Proc.devRef .tc main_v32) = val_main_v32 (F := F) x0 x1
  h_main_v41 : W (Proc.devRef .tc main_v41) = val_main_v41 (F := F) x0 x1
  h_main_v43 : W (Proc.devRef .tc main_v43) = val_main_v43 (F := F) x0 x1
  h_main_v44 : W (Proc.devRef .tc main_v44) = val_main_v44 (F := F)

/-- What the buffers still to be read hold after operation 84: each its stage function of the two arguments. -/
structure Inv14 (W : Valuation τ sig (Elt F)) (x0 : (⟨S131072x512, .f32⟩ : BufTy).Contents (Elt F)) (x1 : (⟨S131072, .i32⟩ : BufTy).Contents (Elt F)) : Prop where
  h_main_arg0 : W (Proc.devRef .tc main_arg0) = x0
  h_main_arg1 : W (Proc.devRef .tc main_arg1) = x1
  h_main_v11 : W (Proc.devRef .tc main_v11) = val_main_v11 (F := F) x0
  h_main_v17 : W (Proc.devRef .tc main_v17) = val_main_v17 (F := F) x0 x1
  h_main_v32 : W (Proc.devRef .tc main_v32) = val_main_v32 (F := F) x0 x1
  h_main_v46 : W (Proc.devRef .tc main_v46) = val_main_v46 (F := F) x0 x1
  h_main_cst_18 : W (Proc.devRef .tc main_cst_18) = val_main_cst_18 (F := F)

/-- What the buffers still to be read hold after operation 90: each its stage function of the two arguments. -/
structure Inv15 (W : Valuation τ sig (Elt F)) (x0 : (⟨S131072x512, .f32⟩ : BufTy).Contents (Elt F)) (x1 : (⟨S131072, .i32⟩ : BufTy).Contents (Elt F)) : Prop where
  h_main_arg0 : W (Proc.devRef .tc main_arg0) = x0
  h_main_arg1 : W (Proc.devRef .tc main_arg1) = x1
  h_main_v11 : W (Proc.devRef .tc main_v11) = val_main_v11 (F := F) x0
  h_main_v17 : W (Proc.devRef .tc main_v17) = val_main_v17 (F := F) x0 x1
  h_main_v46 : W (Proc.devRef .tc main_v46) = val_main_v46 (F := F) x0 x1
  h_main_v47 : W (Proc.devRef .tc main_v47) = val_main_v47 (F := F) x0 x1
  h_main_v49 : W (Proc.devRef .tc main_v49) = val_main_v49 (F := F) x0 x1
  h_main_v50 : W (Proc.devRef .tc main_v50) = val_main_v50 (F := F)

/-- What the buffers still to be read hold after operation 96: each its stage function of the two arguments. -/
structure Inv16 (W : Valuation τ sig (Elt F)) (x0 : (⟨S131072x512, .f32⟩ : BufTy).Contents (Elt F)) (x1 : (⟨S131072, .i32⟩ : BufTy).Contents (Elt F)) : Prop where
  h_main_arg0 : W (Proc.devRef .tc main_arg0) = x0
  h_main_arg1 : W (Proc.devRef .tc main_arg1) = x1
  h_main_v11 : W (Proc.devRef .tc main_v11) = val_main_v11 (F := F) x0
  h_main_v47 : W (Proc.devRef .tc main_v47) = val_main_v47 (F := F) x0 x1
  h_main_v54 : W (Proc.devRef .tc main_v54) = val_main_v54 (F := F) x0 x1
  h_main_call5_v0 : W (Proc.devRef .tc main_call5_v0) = val_main_call5_v0 (F := F)

/-- What the buffers still to be read hold after operation 102: each its stage function of the two arguments. -/
structure Inv17 (W : Valuation τ sig (Elt F)) (x0 : (⟨S131072x512, .f32⟩ : BufTy).Contents (Elt F)) (x1 : (⟨S131072, .i32⟩ : BufTy).Contents (Elt F)) : Prop where
  h_main_arg0 : W (Proc.devRef .tc main_arg0) = x0
  h_main_arg1 : W (Proc.devRef .tc main_arg1) = x1
  h_main_v11 : W (Proc.devRef .tc main_v11) = val_main_v11 (F := F) x0
  h_main_v57 : W (Proc.devRef .tc main_v57) = val_main_v57 (F := F) x0 x1
  h_main_call6_cst : W (Proc.devRef .tc main_call6_cst) = val_main_call6_cst (F := F)

/-- What the buffers still to be read hold after operation 108: each its stage function of the two arguments. -/
structure Inv18 (W : Valuation τ sig (Elt F)) (x0 : (⟨S131072x512, .f32⟩ : BufTy).Contents (Elt F)) (x1 : (⟨S131072, .i32⟩ : BufTy).Contents (Elt F)) : Prop where
  h_main_arg0 : W (Proc.devRef .tc main_arg0) = x0
  h_main_arg1 : W (Proc.devRef .tc main_arg1) = x1
  h_main_v11 : W (Proc.devRef .tc main_v11) = val_main_v11 (F := F) x0
  h_main_v57 : W (Proc.devRef .tc main_v57) = val_main_v57 (F := F) x0 x1
  h_main_call6_v4 : W (Proc.devRef .tc main_call6_v4) = val_main_call6_v4 (F := F) x0

/-- What the buffers still to be read hold after operation 114: each its stage function of the two arguments. -/
structure Inv19 (W : Valuation τ sig (Elt F)) (x0 : (⟨S131072x512, .f32⟩ : BufTy).Contents (Elt F)) (x1 : (⟨S131072, .i32⟩ : BufTy).Contents (Elt F)) : Prop where
  h_main_arg0 : W (Proc.devRef .tc main_arg0) = x0
  h_main_arg1 : W (Proc.devRef .tc main_arg1) = x1
  h_main_v57 : W (Proc.devRef .tc main_v57) = val_main_v57 (F := F) x0 x1
  h_main_call6_v5 : W (Proc.devRef .tc main_call6_v5) = val_main_call6_v5 (F := F) x0
  h_main_call6_v9 : W (Proc.devRef .tc main_call6_v9) = val_main_call6_v9 (F := F) x0

/-- What the buffers still to be read hold after operation 120: each its stage function of the two arguments. -/
structure Inv20 (W : Valuation τ sig (Elt F)) (x0 : (⟨S131072x512, .f32⟩ : BufTy).Contents (Elt F)) (x1 : (⟨S131072, .i32⟩ : BufTy).Contents (Elt F)) : Prop where
  h_main_arg0 : W (Proc.devRef .tc main_arg0) = x0
  h_main_arg1 : W (Proc.devRef .tc main_arg1) = x1
  h_main_v57 : W (Proc.devRef .tc main_v57) = val_main_v57 (F := F) x0 x1
  h_main_v58 : W (Proc.devRef .tc main_v58) = val_main_v58 (F := F) x0
  h_main_v59 : W (Proc.devRef .tc main_v59) = val_main_v59 (F := F) x1
  h_main_call7_v1 : W (Proc.devRef .tc main_call7_v1) = val_main_call7_v1 (F := F) x1

/-- What the buffers still to be read hold after operation 126: each its stage function of the two arguments. -/
structure Inv21 (W : Valuation τ sig (Elt F)) (x0 : (⟨S131072x512, .f32⟩ : BufTy).Contents (Elt F)) (x1 : (⟨S131072, .i32⟩ : BufTy).Contents (Elt F)) : Prop where
  h_main_arg0 : W (Proc.devRef .tc main_arg0) = x0
  h_main_arg1 : W (Proc.devRef .tc main_arg1) = x1
  h_main_v57 : W (Proc.devRef .tc main_v57) = val_main_v57 (F := F) x0 x1
  h_main_v58 : W (Proc.devRef .tc main_v58) = val_main_v58 (F := F) x0
  h_main_call7_v5 : W (Proc.devRef .tc main_call7_v5) = val_main_call7_v5 (F := F) x1
  h_main_call7_c_1 : W (Proc.devRef .tc main_call7_c_1) = val_main_call7_c_1 (F := F)

/-- What the buffers still to be read hold after operation 132: each its stage function of the two arguments. -/
structure Inv22 (W : Valuation τ sig (Elt F)) (x0 : (⟨S131072x512, .f32⟩ : BufTy).Contents (Elt F)) (x1 : (⟨S131072, .i32⟩ : BufTy).Contents (Elt F)) : Prop where
  h_main_arg0 : W (Proc.devRef .tc main_arg0) = x0
  h_main_arg1 : W (Proc.devRef .tc main_arg1) = x1
  h_main_v57 : W (Proc.devRef .tc main_v57) = val_main_v57 (F := F) x0 x1
  h_main_v58 : W (Proc.devRef .tc main_v58) = val_main_v58 (F := F) x0
  h_main_call7_v5 : W (Proc.devRef .tc main_call7_v5) = val_main_call7_v5 (F := F) x1
  h_main_call7_v7 : W (Proc.devRef .tc main_call7_v7) = val_main_call7_v7 (F := F) x1
  h_main_call7_v10 : W (Proc.devRef .tc main_call7_v10) = val_main_call7_v10 (F := F) x1

/-- What the buffers still to be read hold after operation 138: each its stage function of the two arguments. -/
structure Inv23 (W : Valuation τ sig (Elt F)) (x0 : (⟨S131072x512, .f32⟩ : BufTy).Contents (Elt F)) (x1 : (⟨S131072, .i32⟩ : BufTy).Contents (Elt F)) : Prop where
  h_main_arg0 : W (Proc.devRef .tc main_arg0) = x0
  h_main_arg1 : W (Proc.devRef .tc main_arg1) = x1
  h_main_v57 : W (Proc.devRef .tc main_v57) = val_main_v57 (F := F) x0 x1
  h_main_call7_v12 : W (Proc.devRef .tc main_call7_v12) = val_main_call7_v12 (F := F) x1
  h_main_call7_v13 : W (Proc.devRef .tc main_call7_v13) = val_main_call7_v13 (F := F) x0 x1
  h_main_call7_v14 : W (Proc.devRef .tc main_call7_v14) = val_main_call7_v14 (F := F)

/-- What the buffers still to be read hold after operation 144: each its stage function of the two arguments. -/
structure Inv24 (W : Valuation τ sig (Elt F)) (x0 : (⟨S131072x512, .f32⟩ : BufTy).Contents (Elt F)) (x1 : (⟨S131072, .i32⟩ : BufTy).Contents (Elt F)) : Prop where
  h_main_arg0 : W (Proc.devRef .tc main_arg0) = x0
  h_main_arg1 : W (Proc.devRef .tc main_arg1) = x1
  h_main_v64 : W (Proc.devRef .tc main_v64) = val_main_v64 (F := F) x0 x1

/-- What the buffers still to be read hold after operation 150: each its stage function of the two arguments. -/
structure Inv25 (W : Valuation τ sig (Elt F)) (x0 : (⟨S131072x512, .f32⟩ : BufTy).Contents (Elt F)) (x1 : (⟨S131072, .i32⟩ : BufTy).Contents (Elt F)) : Prop where
  h_main_arg0 : W (Proc.devRef .tc main_arg0) = x0
  h_main_arg1 : W (Proc.devRef .tc main_arg1) = x1
  h_main_v67 : W (Proc.devRef .tc main_v67) = val_main_v67 (F := F) x0 x1
  h_main_cst_26 : W (Proc.devRef .tc main_cst_26) = val_main_cst_26 (F := F)

/-- What the buffers still to be read hold after operation 151: each its stage function of the two arguments. -/
structure Inv26 (W : Valuation τ sig (Elt F)) (x0 : (⟨S131072x512, .f32⟩ : BufTy).Contents (Elt F)) (x1 : (⟨S131072, .i32⟩ : BufTy).Contents (Elt F)) : Prop where
  h_main_arg0 : W (Proc.devRef .tc main_arg0) = x0
  h_main_arg1 : W (Proc.devRef .tc main_arg1) = x1
  h_main_v68 : W (Proc.devRef .tc main_v68) = val_main_v68 (F := F) x0 x1

/-! ## Each stretch carries its invariant on -/

set_option maxRecDepth 8192 in
/-- Stretch 1: each buffer it writes takes its operation's value of buffers that hold their stage functions; the others keep theirs. -/
theorem stage1 (W : Valuation τ sig (Elt F)) (x0 : (⟨S131072x512, .f32⟩ : BufTy).Contents (Elt F)) (x1 : (⟨S131072, .i32⟩ : BufTy).Contents (Elt F)) (h : Inv0 W x0 x1) :
    Inv1 (after ops1 W) x0 x1 where
  h_main_arg0 := by after_line; exact h.h_main_arg0
  h_main_arg1 := by after_line; exact h.h_main_arg1
  h_main_v0 := by after_line; rw [h.h_main_arg1]; rw [toBuf_main_v0, ofBuf_main_call0_v4, toBuf_main_call0_v4, ofBuf_main_call0_v2, ofBuf_main_call0_v3, toBuf_main_call0_v2, ofBuf_main_call0_v0, toBuf_main_call0_v0, ofBuf_main_arg1, toBuf_main_call0_v3, ofBuf_main_call0_v1, toBuf_main_call0_v1]; rfl

set_option maxRecDepth 8192 in
/-- Stretch 2: each buffer it writes takes its operation's value of buffers that hold their stage functions; the others keep theirs. -/
theorem stage2 (W : Valuation τ sig (Elt F)) (x0 : (⟨S131072x512, .f32⟩ : BufTy).Contents (Elt F)) (x1 : (⟨S131072, .i32⟩ : BufTy).Contents (Elt F)) (h : Inv1 W x0 x1) :
    Inv2 (after ops2 W) x0 x1 where
  h_main_arg0 := by after_line; exact h.h_main_arg0
  h_main_arg1 := by after_line; exact h.h_main_arg1
  h_main_v0 := by after_line; exact h.h_main_v0
  h_main_v4 := by after_line; rw [h.h_main_arg0]; rfl

set_option maxRecDepth 8192 in
/-- Stretch 3: each buffer it writes takes its operation's value of buffers that hold their stage functions; the others keep theirs. -/
theorem stage3 (W : Valuation τ sig (Elt F)) (x0 : (⟨S131072x512, .f32⟩ : BufTy).Contents (Elt F)) (x1 : (⟨S131072, .i32⟩ : BufTy).Contents (Elt F)) (h : Inv2 W x0 x1) :
    Inv3 (after ops3 W) x0 x1 where
  h_main_arg0 := by after_line; exact h.h_main_arg0
  h_main_arg1 := by after_line; exact h.h_main_arg1
  h_main_v0 := by after_line; exact h.h_main_v0
  h_main_v7 := by after_line; rw [h.h_main_arg0, h.h_main_v4]; rfl
  h_main_v9 := by after_line; rw [h.h_main_arg0, h.h_main_v4]; rfl

set_option maxRecDepth 8192 in
/-- Stretch 4: each buffer it writes takes its operation's value of buffers that hold their stage functions; the others keep theirs. -/
theorem stage4 (W : Valuation τ sig (Elt F)) (x0 : (⟨S131072x512, .f32⟩ : BufTy).Contents (Elt F)) (x1 : (⟨S131072, .i32⟩ : BufTy).Contents (Elt F)) (h : Inv3 W x0 x1) :
    Inv4 (after ops4 W) x0 x1 where
  h_main_arg0 := by after_line; exact h.h_main_arg0
  h_main_arg1 := by after_line; exact h.h_main_arg1
  h_main_v11 := by after_line; rw [h.h_main_v7, h.h_main_v9]; rfl
  h_main_v13 := by after_line; rw [h.h_main_v7, h.h_main_v9, h.h_main_v0]; rfl
  h_main_v14 := by after_line; rfl

set_option maxRecDepth 8192 in
/-- Stretch 5: each buffer it writes takes its operation's value of buffers that hold their stage functions; the others keep theirs. -/
theorem stage5 (W : Valuation τ sig (Elt F)) (x0 : (⟨S131072x512, .f32⟩ : BufTy).Contents (Elt F)) (x1 : (⟨S131072, .i32⟩ : BufTy).Contents (Elt F)) (h : Inv4 W x0 x1) :
    Inv5 (after ops5 W) x0 x1 where
  h_main_arg0 := by after_line; exact h.h_main_arg0
  h_main_arg1 := by after_line; exact h.h_main_arg1
  h_main_v11 := by after_line; exact h.h_main_v11
  h_main_v16 := by after_line; rw [h.h_main_v13, h.h_main_v14]; rfl
  h_main_c_3 := by after_line; rfl
  h_main_call1_v1 := by after_line; rw [toBuf_main_call1_v1, ofBuf_main_call1_v0, toBuf_main_call1_v0, ofBuf_main_c]; rfl

set_option maxRecDepth 8192 in
/-- Stretch 6: each buffer it writes takes its operation's value of buffers that hold their stage functions; the others keep theirs. -/
theorem stage6 (W : Valuation τ sig (Elt F)) (x0 : (⟨S131072x512, .f32⟩ : BufTy).Contents (Elt F)) (x1 : (⟨S131072, .i32⟩ : BufTy).Contents (Elt F)) (h : Inv5 W x0 x1) :
    Inv6 (after ops6 W) x0 x1 where
  h_main_arg0 := by after_line; exact h.h_main_arg0
  h_main_arg1 := by after_line; exact h.h_main_arg1
  h_main_v11 := by after_line; exact h.h_main_v11
  h_main_v17 := by after_line; rw [h.h_main_c_3, h.h_main_call1_v1, h.h_main_v16]; rw [toBuf_main_v17, ofBuf_main_call1_v4, ofBuf_main_call1_v2, toBuf_main_call1_v4, ofBuf_main_call1_v3, toBuf_main_call1_v3, ofBuf_main_c_3, toBuf_main_call1_v2, ofBuf_main_call1_v1, ofBuf_main_v16]; rfl
  h_main_v18 := by after_line; rfl

set_option maxRecDepth 8192 in
/-- Stretch 7: each buffer it writes takes its operation's value of buffers that hold their stage functions; the others keep theirs. -/
theorem stage7 (W : Valuation τ sig (Elt F)) (x0 : (⟨S131072x512, .f32⟩ : BufTy).Contents (Elt F)) (x1 : (⟨S131072, .i32⟩ : BufTy).Contents (Elt F)) (h : Inv6 W x0 x1) :
    Inv7 (after ops7 W) x0 x1 where
  h_main_arg0 := by after_line; exact h.h_main_arg0
  h_main_arg1 := by after_line; exact h.h_main_arg1
  h_main_v11 := by after_line; exact h.h_main_v11
  h_main_v17 := by after_line; exact h.h_main_v17
  h_main_v18 := by after_line; exact h.h_main_v18
  h_main_v19 := by after_line; rw [h.h_main_v17]; rfl
  h_main_v21 := by after_line; rw [h.h_main_v17]; rfl
  h_main_v22 := by after_line; rfl

set_option maxRecDepth 8192 in
/-- Stretch 8: each buffer it writes takes its operation's value of buffers that hold their stage functions; the others keep theirs. -/
theorem stage8 (W : Valuation τ sig (Elt F)) (x0 : (⟨S131072x512, .f32⟩ : BufTy).Contents (Elt F)) (x1 : (⟨S131072, .i32⟩ : BufTy).Contents (Elt F)) (h : Inv7 W x0 x1) :
    Inv8 (after ops8 W) x0 x1 where
  h_main_arg0 := by after_line; exact h.h_main_arg0
  h_main_arg1 := by after_line; exact h.h_main_arg1
  h_main_v11 := by after_line; exact h.h_main_v11
  h_main_v17 := by after_line; exact h.h_main_v17
  h_main_v27 := by after_line; rw [h.h_main_v18, h.h_main_v21, h.h_main_v19, h.h_main_v22]; rfl

set_option maxRecDepth 8192 in
/-- Stretch 9: each buffer it writes takes its operation's value of buffers that hold their stage functions; the others keep theirs. -/
theorem stage9 (W : Valuation τ sig (Elt F)) (x0 : (⟨S131072x512, .f32⟩ : BufTy).Contents (Elt F)) (x1 : (⟨S131072, .i32⟩ : BufTy).Contents (Elt F)) (h : Inv8 W x0 x1) :
    Inv9 (after ops9 W) x0 x1 where
  h_main_arg0 := by after_line; exact h.h_main_arg0
  h_main_arg1 := by after_line; exact h.h_main_arg1
  h_main_v11 := by after_line; exact h.h_main_v11
  h_main_v17 := by after_line; exact h.h_main_v17
  h_main_v27 := by after_line; exact h.h_main_v27
  h_main_v29 := by after_line; rw [h.h_main_v27]; rfl
  h_main_v31 := by after_line; rw [h.h_main_v27]; rfl

set_option maxRecDepth 8192 in
/-- Stretch 10: each buffer it writes takes its operation's value of buffers that hold their stage functions; the others keep theirs. -/
theorem stage10 (W : Valuation τ sig (Elt F)) (x0 : (⟨S131072x512, .f32⟩ : BufTy).Contents (Elt F)) (x1 : (⟨S131072, .i32⟩ : BufTy).Contents (Elt F)) (h : Inv9 W x0 x1) :
    Inv10 (after ops10 W) x0 x1 where
  h_main_arg0 := by after_line; exact h.h_main_arg0
  h_main_arg1 := by after_line; exact h.h_main_arg1
  h_main_v11 := by after_line; exact h.h_main_v11
  h_main_v17 := by after_line; exact h.h_main_v17
  h_main_v29 := by after_line; exact h.h_main_v29
  h_main_v32 := by after_line; rw [h.h_main_v31]; rfl
  h_main_v34 := by after_line; rw [h.h_main_v27]; rfl
  h_main_call2_v0 := by after_line; rw [toBuf_main_call2_v0, ofBuf_main_cst_11]; rfl

set_option maxRecDepth 8192 in
/-- Stretch 11: each buffer it writes takes its operation's value of buffers that hold their stage functions; the others keep theirs. -/
theorem stage11 (W : Valuation τ sig (Elt F)) (x0 : (⟨S131072x512, .f32⟩ : BufTy).Contents (Elt F)) (x1 : (⟨S131072, .i32⟩ : BufTy).Contents (Elt F)) (h : Inv10 W x0 x1) :
    Inv11 (after ops11 W) x0 x1 where
  h_main_arg0 := by after_line; exact h.h_main_arg0
  h_main_arg1 := by after_line; exact h.h_main_arg1
  h_main_v11 := by after_line; exact h.h_main_v11
  h_main_v17 := by after_line; exact h.h_main_v17
  h_main_v32 := by after_line; exact h.h_main_v32
  h_main_v35 := by after_line; rw [h.h_main_v29, h.h_main_v34, h.h_main_call2_v0]; rw [toBuf_main_v35, ofBuf_main_v29, ofBuf_main_v34, ofBuf_main_call2_v1, toBuf_main_call2_v1, ofBuf_main_call2_v0]; rfl
  h_main_v36 := by after_line; rw [h.h_main_v32]; rfl
  h_main_v37 := by after_line; rfl

set_option maxRecDepth 8192 in
/-- Stretch 12: each buffer it writes takes its operation's value of buffers that hold their stage functions; the others keep theirs. -/
theorem stage12 (W : Valuation τ sig (Elt F)) (x0 : (⟨S131072x512, .f32⟩ : BufTy).Contents (Elt F)) (x1 : (⟨S131072, .i32⟩ : BufTy).Contents (Elt F)) (h : Inv11 W x0 x1) :
    Inv12 (after ops12 W) x0 x1 where
  h_main_arg0 := by after_line; exact h.h_main_arg0
  h_main_arg1 := by after_line; exact h.h_main_arg1
  h_main_v11 := by after_line; exact h.h_main_v11
  h_main_v17 := by after_line; exact h.h_main_v17
  h_main_v32 := by after_line; exact h.h_main_v32
  h_main_v35 := by after_line; exact h.h_main_v35
  h_main_v39 := by after_line; rw [h.h_main_v35, h.h_main_v37]; rw [toBuf_main_v39, ofBuf_main_v38, ofBuf_main_v35, ofBuf_main_call3_v1, toBuf_main_call3_v1, ofBuf_main_call3_v0, toBuf_main_call3_v0, ofBuf_main_cst_14]; rfl
  h_main_v40 := by after_line; rw [h.h_main_v36]; rfl

set_option maxRecDepth 8192 in
/-- Stretch 13: each buffer it writes takes its operation's value of buffers that hold their stage functions; the others keep theirs. -/
theorem stage13 (W : Valuation τ sig (Elt F)) (x0 : (⟨S131072x512, .f32⟩ : BufTy).Contents (Elt F)) (x1 : (⟨S131072, .i32⟩ : BufTy).Contents (Elt F)) (h : Inv12 W x0 x1) :
    Inv13 (after ops13 W) x0 x1 where
  h_main_arg0 := by after_line; exact h.h_main_arg0
  h_main_arg1 := by after_line; exact h.h_main_arg1
  h_main_v11 := by after_line; exact h.h_main_v11
  h_main_v17 := by after_line; exact h.h_main_v17
  h_main_v32 := by after_line; exact h.h_main_v32
  h_main_v41 := by after_line; rw [h.h_main_v40, h.h_main_v39]; rfl
  h_main_v43 := by after_line; rw [h.h_main_v35]; rfl
  h_main_v44 := by after_line; rfl

set_option maxRecDepth 8192 in
/-- Stretch 14: each buffer it writes takes its operation's value of buffers that hold their stage functions; the others keep theirs. -/
theorem stage14 (W : Valuation τ sig (Elt F)) (x0 : (⟨S131072x512, .f32⟩ : BufTy).Contents (Elt F)) (x1 : (⟨S131072, .i32⟩ : BufTy).Contents (Elt F)) (h : Inv13 W x0 x1) :
    Inv14 (after ops14 W) x0 x1 where
  h_main_arg0 := by after_line; exact h.h_main_arg0
  h_main_arg1 := by after_line; exact h.h_main_arg1
  h_main_v11 := by after_line; exact h.h_main_v11
  h_main_v17 := by after_line; exact h.h_main_v17
  h_main_v32 := by after_line; exact h.h_main_v32
  h_main_v46 := by after_line; rw [h.h_main_v43, h.h_main_v44, h.h_main_v41]; rw [toBuf_main_v46, ofBuf_main_v43, ofBuf_main_v45, ofBuf_main_call4_v1, toBuf_main_call4_v1, ofBuf_main_call4_v0, toBuf_main_call4_v0, ofBuf_main_cst_17]; rfl
  h_main_cst_18 := by after_line; rfl

set_option maxRecDepth 8192 in
/-- Stretch 15: each buffer it writes takes its operation's value of buffers that hold their stage functions; the others keep theirs. -/
theorem stage15 (W : Valuation τ sig (Elt F)) (x0 : (⟨S131072x512, .f32⟩ : BufTy).Contents (Elt F)) (x1 : (⟨S131072, .i32⟩ : BufTy).Contents (Elt F)) (h : Inv14 W x0 x1) :
    Inv15 (after ops15 W) x0 x1 where
  h_main_arg0 := by after_line; exact h.h_main_arg0
  h_main_arg1 := by after_line; exact h.h_main_arg1
  h_main_v11 := by after_line; exact h.h_main_v11
  h_main_v17 := by after_line; exact h.h_main_v17
  h_main_v46 := by after_line; exact h.h_main_v46
  h_main_v47 := by after_line; rw [h.h_main_v32, h.h_main_cst_18]; rfl
  h_main_v49 := by after_line; rw [h.h_main_v17]; rfl
  h_main_v50 := by after_line; rfl

set_option maxRecDepth 8192 in
/-- Stretch 16: each buffer it writes takes its operation's value of buffers that hold their stage functions; the others keep theirs. -/
theorem stage16 (W : Valuation τ sig (Elt F)) (x0 : (⟨S131072x512, .f32⟩ : BufTy).Contents (Elt F)) (x1 : (⟨S131072, .i32⟩ : BufTy).Contents (Elt F)) (h : Inv15 W x0 x1) :
    Inv16 (after ops16 W) x0 x1 where
  h_main_arg0 := by after_line; exact h.h_main_arg0
  h_main_arg1 := by after_line; exact h.h_main_arg1
  h_main_v11 := by after_line; exact h.h_main_v11
  h_main_v47 := by after_line; exact h.h_main_v47
  h_main_v54 := by after_line; rw [h.h_main_v46, h.h_main_v49, h.h_main_v17, h.h_main_v50]; rfl
  h_main_call5_v0 := by after_line; rw [toBuf_main_call5_v0, ofBuf_main_cst_21]; rfl

set_option maxRecDepth 8192 in
/-- Stretch 17: each buffer it writes takes its operation's value of buffers that hold their stage functions; the others keep theirs. -/
theorem stage17 (W : Valuation τ sig (Elt F)) (x0 : (⟨S131072x512, .f32⟩ : BufTy).Contents (Elt F)) (x1 : (⟨S131072, .i32⟩ : BufTy).Contents (Elt F)) (h : Inv16 W x0 x1) :
    Inv17 (after ops17 W) x0 x1 where
  h_main_arg0 := by after_line; exact h.h_main_arg0
  h_main_arg1 := by after_line; exact h.h_main_arg1
  h_main_v11 := by after_line; exact h.h_main_v11
  h_main_v57 := by after_line; rw [h.h_main_v47, h.h_main_v54, h.h_main_call5_v0]; rw [toBuf_main_v55, ofBuf_main_v47, ofBuf_main_v54, ofBuf_main_call5_v1, toBuf_main_call5_v1, ofBuf_main_call5_v0]; rfl
  h_main_call6_cst := by after_line; rw [toBuf_main_call6_cst]; rfl

set_option maxRecDepth 8192 in
/-- Stretch 18: each buffer it writes takes its operation's value of buffers that hold their stage functions; the others keep theirs. -/
theorem stage18 (W : Valuation τ sig (Elt F)) (x0 : (⟨S131072x512, .f32⟩ : BufTy).Contents (Elt F)) (x1 : (⟨S131072, .i32⟩ : BufTy).Contents (Elt F)) (h : Inv17 W x0 x1) :
    Inv18 (after ops18 W) x0 x1 where
  h_main_arg0 := by after_line; exact h.h_main_arg0
  h_main_arg1 := by after_line; exact h.h_main_arg1
  h_main_v11 := by after_line; exact h.h_main_v11
  h_main_v57 := by after_line; exact h.h_main_v57
  h_main_call6_v4 := by after_line; rw [h.h_main_v11, h.h_main_call6_cst]; rw [toBuf_main_call6_v4, ofBuf_main_call6_v3, toBuf_main_call6_v3, ofBuf_main_call6_v2, toBuf_main_call6_v2, ofBuf_main_call6_v1, ofBuf_main_call6_v0, toBuf_main_call6_v1, ofBuf_main_call6_cst_0, toBuf_main_call6_cst_0, toBuf_main_call6_v0, ofBuf_main_v11, ofBuf_main_call6_cst]; rfl

set_option maxRecDepth 8192 in
/-- Stretch 19: each buffer it writes takes its operation's value of buffers that hold their stage functions; the others keep theirs. -/
theorem stage19 (W : Valuation τ sig (Elt F)) (x0 : (⟨S131072x512, .f32⟩ : BufTy).Contents (Elt F)) (x1 : (⟨S131072, .i32⟩ : BufTy).Contents (Elt F)) (h : Inv18 W x0 x1) :
    Inv19 (after ops19 W) x0 x1 where
  h_main_arg0 := by after_line; exact h.h_main_arg0
  h_main_arg1 := by after_line; exact h.h_main_arg1
  h_main_v57 := by after_line; exact h.h_main_v57
  h_main_call6_v5 := by after_line; rw [h.h_main_v11, h.h_main_call6_v4]; rw [toBuf_main_call6_v5, ofBuf_main_v11, ofBuf_main_call6_v4]; rfl
  h_main_call6_v9 := by after_line; rw [h.h_main_v11, h.h_main_call6_v4]; rw [toBuf_main_call6_v9, ofBuf_main_call6_v8, toBuf_main_call6_v8, ofBuf_main_call6_v7, toBuf_main_call6_v7, ofBuf_main_call6_v6, ofBuf_main_call6_cst_1, toBuf_main_call6_v6, ofBuf_main_call6_v5, toBuf_main_call6_v5, ofBuf_main_v11, ofBuf_main_call6_v4, toBuf_main_call6_cst_1]; rfl

set_option maxRecDepth 8192 in
/-- Stretch 20: each buffer it writes takes its operation's value of buffers that hold their stage functions; the others keep theirs. -/
theorem stage20 (W : Valuation τ sig (Elt F)) (x0 : (⟨S131072x512, .f32⟩ : BufTy).Contents (Elt F)) (x1 : (⟨S131072, .i32⟩ : BufTy).Contents (Elt F)) (h : Inv19 W x0 x1) :
    Inv20 (after ops20 W) x0 x1 where
  h_main_arg0 := by after_line; exact h.h_main_arg0
  h_main_arg1 := by after_line; exact h.h_main_arg1
  h_main_v57 := by after_line; exact h.h_main_v57
  h_main_v58 := by after_line; rw [h.h_main_call6_v5, h.h_main_call6_v9]; rw [toBuf_main_v58, ofBuf_main_call6_v5, ofBuf_main_call6_v10, toBuf_main_call6_v10, ofBuf_main_call6_v9]; rfl
  h_main_v59 := by after_line; rw [h.h_main_arg1]; rfl
  h_main_call7_v1 := by after_line; rw [h.h_main_arg1]; rw [toBuf_main_call7_v1, ofBuf_main_v59, ofBuf_main_call7_v0, toBuf_main_call7_v0, ofBuf_main_call7_c, toBuf_main_call7_c]; rfl

set_option maxRecDepth 8192 in
/-- Stretch 21: each buffer it writes takes its operation's value of buffers that hold their stage functions; the others keep theirs. -/
theorem stage21 (W : Valuation τ sig (Elt F)) (x0 : (⟨S131072x512, .f32⟩ : BufTy).Contents (Elt F)) (x1 : (⟨S131072, .i32⟩ : BufTy).Contents (Elt F)) (h : Inv20 W x0 x1) :
    Inv21 (after ops21 W) x0 x1 where
  h_main_arg0 := by after_line; exact h.h_main_arg0
  h_main_arg1 := by after_line; exact h.h_main_arg1
  h_main_v57 := by after_line; exact h.h_main_v57
  h_main_v58 := by after_line; exact h.h_main_v58
  h_main_call7_v5 := by after_line; rw [h.h_main_call7_v1, h.h_main_v59]; rw [toBuf_main_call7_v4, ofBuf_main_call7_v1, ofBuf_main_call7_v3, ofBuf_main_v59, toBuf_main_call7_v3, ofBuf_main_call7_v2, toBuf_main_call7_v2, ofBuf_main_call7_c_0, toBuf_main_call7_c_0]; rfl
  h_main_call7_c_1 := by after_line; rw [toBuf_main_call7_c_1]; rfl

set_option maxRecDepth 8192 in
/-- Stretch 22: each buffer it writes takes its operation's value of buffers that hold their stage functions; the others keep theirs. -/
theorem stage22 (W : Valuation τ sig (Elt F)) (x0 : (⟨S131072x512, .f32⟩ : BufTy).Contents (Elt F)) (x1 : (⟨S131072, .i32⟩ : BufTy).Contents (Elt F)) (h : Inv21 W x0 x1) :
    Inv22 (after ops22 W) x0 x1 where
  h_main_arg0 := by after_line; exact h.h_main_arg0
  h_main_arg1 := by after_line; exact h.h_main_arg1
  h_main_v57 := by after_line; exact h.h_main_v57
  h_main_v58 := by after_line; exact h.h_main_v58
  h_main_call7_v5 := by after_line; exact h.h_main_call7_v5
  h_main_call7_v7 := by after_line; rw [h.h_main_call7_v5]; rw [toBuf_main_call7_v7, ofBuf_main_call7_v5, ofBuf_main_call7_v6, toBuf_main_call7_v6, ofBuf_main_call7_c_2, toBuf_main_call7_c_2]; rfl
  h_main_call7_v10 := by after_line; rw [h.h_main_call7_v5, h.h_main_call7_c_1]; rw [toBuf_main_call7_v10, ofBuf_main_call7_v5, ofBuf_main_call7_v9, toBuf_main_call7_v9, ofBuf_main_call7_v8, toBuf_main_call7_v8, ofBuf_main_call7_c_1]; rfl

set_option maxRecDepth 8192 in
/-- Stretch 23: each buffer it writes takes its operation's value of buffers that hold their stage functions; the others keep theirs. -/
theorem stage23 (W : Valuation τ sig (Elt F)) (x0 : (⟨S131072x512, .f32⟩ : BufTy).Contents (Elt F)) (x1 : (⟨S131072, .i32⟩ : BufTy).Contents (Elt F)) (h : Inv22 W x0 x1) :
    Inv23 (after ops23 W) x0 x1 where
  h_main_arg0 := by after_line; exact h.h_main_arg0
  h_main_arg1 := by after_line; exact h.h_main_arg1
  h_main_v57 := by after_line; exact h.h_main_v57
  h_main_call7_v12 := by after_line; rw [h.h_main_call7_v7, h.h_main_call7_v10]; rw [toBuf_main_call7_v12, ofBuf_main_call7_v11, ofBuf_main_call7_c_3, toBuf_main_call7_v11, ofBuf_main_call7_v7, ofBuf_main_call7_v10, toBuf_main_call7_c_3]; rfl
  h_main_call7_v13 := by after_line; rw [h.h_main_v58, h.h_main_call7_v5]; rw [toBuf_main_call7_v13, ofBuf_main_v58, ofBuf_main_call7_v5]; rfl
  h_main_call7_v14 := by after_line; rw [toBuf_main_call7_v14, ofBuf_main_call7_cst, toBuf_main_call7_cst]; rfl

set_option maxRecDepth 8192 in
/-- Stretch 24: each buffer it writes takes its operation's value of buffers that hold their stage functions; the others keep theirs. -/
theorem stage24 (W : Valuation τ sig (Elt F)) (x0 : (⟨S131072x512, .f32⟩ : BufTy).Contents (Elt F)) (x1 : (⟨S131072, .i32⟩ : BufTy).Contents (Elt F)) (h : Inv23 W x0 x1) :
    Inv24 (after ops24 W) x0 x1 where
  h_main_arg0 := by after_line; exact h.h_main_arg0
  h_main_arg1 := by after_line; exact h.h_main_arg1
  h_main_v64 := by after_line; rw [h.h_main_call7_v12, h.h_main_call7_v13, h.h_main_call7_v14, h.h_main_v57]; rw [toBuf_main_v60, ofBuf_main_call7_v12, ofBuf_main_call7_v13, ofBuf_main_call7_v14]; rfl

set_option maxRecDepth 8192 in
/-- Stretch 25: each buffer it writes takes its operation's value of buffers that hold their stage functions; the others keep theirs. -/
theorem stage25 (W : Valuation τ sig (Elt F)) (x0 : (⟨S131072x512, .f32⟩ : BufTy).Contents (Elt F)) (x1 : (⟨S131072, .i32⟩ : BufTy).Contents (Elt F)) (h : Inv24 W x0 x1) :
    Inv25 (after ops25 W) x0 x1 where
  h_main_arg0 := by after_line; exact h.h_main_arg0
  h_main_arg1 := by after_line; exact h.h_main_arg1
  h_main_v67 := by after_line; rw [h.h_main_v64]; rfl
  h_main_cst_26 := by after_line; rfl

set_option maxRecDepth 8192 in
/-- Stretch 26: each buffer it writes takes its operation's value of buffers that hold their stage functions; the others keep theirs. -/
theorem stage26 (W : Valuation τ sig (Elt F)) (x0 : (⟨S131072x512, .f32⟩ : BufTy).Contents (Elt F)) (x1 : (⟨S131072, .i32⟩ : BufTy).Contents (Elt F)) (h : Inv25 W x0 x1) :
    Inv26 (after ops26 W) x0 x1 where
  h_main_arg0 := by after_line; exact h.h_main_arg0
  h_main_arg1 := by after_line; exact h.h_main_arg1
  h_main_v68 := by after_line; rw [h.h_main_v67, h.h_main_cst_26]; rfl

/-! ## The whole line -/

/-- The fold over the whole line from contents that hold the arguments: the last invariant. -/
theorem after_ops (V : Valuation τ sig (Elt F)) (x0 : (⟨S131072x512, .f32⟩ : BufTy).Contents (Elt F)) (x1 : (⟨S131072, .i32⟩ : BufTy).Contents (Elt F))
    (h0 : V (Proc.devRef .tc main_arg0) = x0) (h1 : V (Proc.devRef .tc main_arg1) = x1) :
    Inv26 (after (ops : List (HloOp τ sig (Elt F))) V) x0 x1 := by
  rw [ops_split]
  repeat rw [after_append]
  exact (stage26 _ _ _ (stage25 _ _ _ (stage24 _ _ _ (stage23 _ _ _ (stage22 _ _ _ (stage21 _ _ _ (stage20 _ _ _ (stage19 _ _ _ (stage18 _ _ _ (stage17 _ _ _ (stage16 _ _ _ (stage15 _ _ _ (stage14 _ _ _ (stage13 _ _ _ (stage12 _ _ _ (stage11 _ _ _ (stage10 _ _ _ (stage9 _ _ _ (stage8 _ _ _ (stage7 _ _ _ (stage6 _ _ _ (stage5 _ _ _ (stage4 _ _ _ (stage3 _ _ _ (stage2 _ _ _ (stage1 _ _ _ (Inv0.mk h0 h1)))))))))))))))))))))))))))

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v68)
          = val_main_v68 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      have hI := after_ops (F := F) (launchContents m c) (m ((c.tc : Thread nD τ).loc main_arg0))
        (m ((c.tc : Thread nD τ).loc main_arg1)) rfl rfl
      ⟨(h c main_v68).trans hI.h_main_v68, (h c main_arg0).trans hI.h_main_arg0, (h c main_arg1).trans hI.h_main_arg1⟩)
    (run_seq scopedRefs_eq scopedSems_eq defs main (fun _ => ops) main_eq (fun _ => ops_sub) m ρ)

end Cert.ReferenceIdeal.HRun

end
-- ==== Proof.Body.lean ====
/-
  The body of the pipelined call as two pure functions of a block.  The body's arithmetic is printed as a chain of
  small terms; composed along the chain they give, for a block of 2048 rows (the 2048 × 512 values and the 2048 × 1
  labels) and the previous contents of an accumulator row, the accumulator row the body leaves: `outC` for the
  128 integer lanes (bin populations), `outS` for the 128 float lanes (count-weighted cross-entropies).  At the
  first step of each half the accumulator is zeroed first, so the previous contents there are the zero row.
  The four lemmas say that what each of the two control cases leaves in each output's buffer is that function.
-/
import proofs.«428589_j7164005449994_3_alg».proof.Proof.Gen.KernelIdeal.Frame
import Idealize.ShloMosaic.Lib.Pipeline.Value

noncomputable section

namespace Cert.KernelIdeal.Body

open Cert.KernelIdeal Cert.KernelIdeal.Gen Idealize.ShloMosaic Idealize.ShloMosaic.TcCoe

variable {F : FTy → Type} [FloatOps F]

section Comp
variable (x0 : Vec F S2048x512 .f32) (x1 : Vec F S2048x1 .i32)

/-- ten times the distance of each soft-max entry to the one-hot label -/
def tt : FVec F S2048x512 .f32 := k0_pay6 x0 x1
/-- each row's cross-entropy -/
def ce : FVec F S2048x1 .f32 := k0_pay7 x0 x1
/-- each row's number of entries reaching thresholds 1 … 9 -/
def r1 : FVec F S2048x1 .f32 := k0_pay8 x0 x1
def r2 : FVec F S2048x1 .f32 := k0_pay10 (F := F) (k0_pay9 x0 x1)
def r3 : FVec F S2048x1 .f32 := k0_pay11 (tt x0 x1)
def r4 : FVec F S2048x1 .f32 := k0_pay12 (tt x0 x1)
def r5 : FVec F S2048x1 .f32 := k0_pay13 (tt x0 x1)
def r6 : FVec F S2048x1 .f32 := k0_pay14 (tt x0 x1)
def r7 : FVec F S2048x1 .f32 := k0_pay15 (tt x0 x1)
def r8 : FVec F S2048x1 .f32 := k0_pay16 (tt x0 x1)
def r9 : FVec F S2048x1 .f32 := k0_pay18 (k0_pay17 (tt x0 x1))
/-- the lane numbers 0 … 127 -/
def lanes : IVec S1x128 32 := iota .tc S1x128 32 [1] iota_S1x128_d1_w32
/-- the integer lanes after bins 0–1, 0–4, 0–7 -/
def c122 : IVec S1x128 32 := k0_pay23 (r1 x0 x1) (r2 x0 x1)
def c176 : IVec S1x128 32 :=
  k0_pay34 (r3 x0 x1) (r4 x0 x1) (r5 x0 x1) lanes (c122 x0 x1) (k0_pay26 (r2 x0 x1) (r3 x0 x1)) k0_pay28
def c230 : IVec S1x128 32 :=
  k0_pay44 (r6 x0 x1) (r7 x0 x1) (r8 x0 x1) lanes (c176 x0 x1) (k0_pay37 (r5 x0 x1) (r6 x0 x1))
/-- the float lanes after bins 0–1, 0–4, 0–7 -/
def s127 : FVec F S1x128 .f32 := k0_pay24 (ce x0 x1) (r1 x0 x1) (r2 x0 x1)
def s181 : FVec F S1x128 .f32 :=
  k0_pay35 (ce x0 x1) (r3 x0 x1) (r4 x0 x1) (r5 x0 x1) lanes (s127 x0 x1) (k0_pay27 (ce x0 x1) (r2 x0 x1) (r3 x0 x1)) k0_pay28
def s235 : FVec F S1x128 .f32 :=
  k0_pay45 (ce x0 x1) (r6 x0 x1) (r7 x0 x1) (r8 x0 x1) lanes (s181 x0 x1) (k0_pay38 (ce x0 x1) (r5 x0 x1) (r6 x0 x1))

/-- the integer accumulator row the body leaves over `prev` -/
def outC (prev : Vec F S1x1x128 .i32) : IVec S1x1x128 32 :=
  k0_pay51 (r9 x0 x1) lanes (c230 x0 x1) (k0_pay47 (r8 x0 x1) (r9 x0 x1)) prev
/-- the float accumulator row the body leaves over `prev` -/
def outS (prev : Vec F S1x1x128 .f32) : FVec F S1x1x128 .f32 :=
  k0_pay1 (k0_pay52 (ce x0 x1) (r9 x0 x1) lanes (s235 x0 x1) (k0_pay46 (r8 x0 x1) (r9 x0 x1)) prev)

end Comp

/-- The all-zero offsets of a whole-row access, in rank three and in rank two. -/
theorem hz3 : (![0, 0, 0] : Fin 3 → Nat) = fun _ => 0 := funext fun a => by fin_cases a <;> rfl
theorem hz2 : (![0, 0] : Fin 2 → Nat) = fun _ => 0 := funext fun a => by fin_cases a <;> rfl

/-- first step of a half: the integer row is zeroed, then the block's row is added -/
theorem out0_A_2_eq (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1x128 .i32) (harg4 : arg4.IsWhole) (arg5 : Memref sig .tc .vmem S1x1x128 .f32) (harg5 : arg5.IsWhole) (hc0 : cond0_0 i)
    (x0 : Vec F S2048x512 .f32) (x1 : Vec F S2048x1 .i32) :
    out0_A_2 c i arg2 harg2 arg3 harg3 arg4 harg4 arg5 harg5 hc0 x0 x1 = outC x0 x1 k0_pay2 := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S1x1x128) hz3]
  simp only [View.readAt_eq_ld, harg2.read_unread, harg3.read_unread, View.readCov_unit_zero (S := S1x1x128) _ hz3,
    View.ld_unit_zero (S := S2048x512) hz2, View.ld_unit_zero (S := S2048x1) hz2]
  rfl

/-- first step of a half: the float row is zeroed, then the block's row is added -/
theorem out0_A_3_eq (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1x128 .i32) (harg4 : arg4.IsWhole) (arg5 : Memref sig .tc .vmem S1x1x128 .f32) (harg5 : arg5.IsWhole) (hc0 : cond0_0 i)
    (x0 : Vec F S2048x512 .f32) (x1 : Vec F S2048x1 .i32) :
    out0_A_3 c i arg2 harg2 arg3 harg3 arg4 harg4 arg5 harg5 hc0 x0 x1 = outS x0 x1 (k0_pay3 (F := F)) := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x1x128) hz3]
  simp only [View.readAt_eq_ld, harg2.read_unread, harg3.read_unread, View.readCov_unit_zero (S := S1x1x128) _ hz3,
    View.ld_unit_zero (S := S2048x512) hz2, View.ld_unit_zero (S := S2048x1) hz2]
  rfl

/-- a later step: the block's integer row is added to what the step before left -/
theorem out0_B_2_eq (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1x128 .i32) (harg4 : arg4.IsWhole) (arg5 : Memref sig .tc .vmem S1x1x128 .f32) (harg5 : arg5.IsWhole) (hc0 : ¬cond0_0 i)
    (x0 : Vec F S2048x512 .f32) (x1 : Vec F S2048x1 .i32) (xo2 : Vec F S1x1x128 .i32) (xo3 : Vec F S1x1x128 .f32) :
    out0_B_2 c i arg2 harg2 arg3 harg3 arg4 harg4 arg5 harg5 hc0 x0 x1 xo2 xo3 = outC x0 x1 xo2 := by
  unfold out0_B_2
  rw [View.read_writes_eq_canon _ _ _ (cover0_B_2 c i arg2 harg2 arg3 harg3 arg4 harg4 arg5 harg5 hc0 x0 x1 xo2 xo3)]
  unfold kernelRun0_B
  dsimp only
  sl_unfold_words
  rw [View.canon_unit_zero hz3]
  simp only [View.readAt_eq_ld, harg2.read_unread, harg3.read_unread, harg4.read_unread,
    View.ld_unit_zero (S := S1x1x128) hz3, View.ld_unit_zero (S := S2048x512) hz2, View.ld_unit_zero (S := S2048x1) hz2]
  rfl

/-- a later step: the block's float row is added to what the step before left -/
theorem out0_B_3_eq (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1x128 .i32) (harg4 : arg4.IsWhole) (arg5 : Memref sig .tc .vmem S1x1x128 .f32) (harg5 : arg5.IsWhole) (hc0 : ¬cond0_0 i)
    (x0 : Vec F S2048x512 .f32) (x1 : Vec F S2048x1 .i32) (xo2 : Vec F S1x1x128 .i32) (xo3 : Vec F S1x1x128 .f32) :
    out0_B_3 c i arg2 harg2 arg3 harg3 arg4 harg4 arg5 harg5 hc0 x0 x1 xo2 xo3 = outS x0 x1 xo3 := by
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_words
  rw [View.canon_unit_zero hz3]
  simp only [View.readAt_eq_ld, harg2.read_unread, harg3.read_unread, harg5.read_unread,
    View.ld_unit_zero (S := S1x1x128) hz3, View.ld_unit_zero (S := S2048x512) hz2, View.ld_unit_zero (S := S2048x1) hz2]
  rfl

end Cert.KernelIdeal.Body

end
-- ==== Proof.Spec.lean ====
/-
  The two computations as plain mathematics over the extended reals and 32-bit words: no shapes, no memory.
  A row of the input is a function `Fin 512 → EReal`, a label a 32-bit word.  Every definition follows the
  operations of one of the two programs, so that reading a program's term back is a matter of rewriting, and
  the comparison of the two is a statement about these definitions alone.

  The loss: each row is soft-maxed, the distance of every probability to the row's one-hot label is binned into
  ten bins, the bins' populations give ten weights, and the result is the mean over the rows of the row's
  cross-entropy (of the soft-maxed row, soft-maxed again) times the row's mean weight to the power 3/4.
  One computation (the "K" side) counts a row's bins by nine cumulative thresholds, sums counts and
  count-weighted cross-entropies block by block, and applies the weights at the end; the other (the "R" side)
  bins each entry by truncation, counts by a scatter, gathers each entry's weight and sums.
-/
import Idealize.ShloMosaic.PureOps.Ideal
import Idealize.ShloMosaic.PureOps.Ideal.Laws
import Mathlib.Data.BitVec

noncomputable section

namespace Cert.Ghmc

open Idealize.ShloMosaic

/-! ## The float words both programs carry, at their exact values -/

def kZero : EReal := Ideal.ofBits .f32 0x00000000#32
def kOne : EReal := Ideal.ofBits .f32 0x3F800000#32
def kTen : EReal := Ideal.ofBits .f32 0x41200000#32
def k512 : EReal := Ideal.ofBits .f32 0x44000000#32
/-- 131072 · 512 = 2²⁶ -/
def kTot : EReal := Ideal.ofBits .f32 0x4C800000#32
/-- 131072 -/
def kRows : EReal := Ideal.ofBits .f32 0x48000000#32
/-- the word of 1 − 0.9 -/
def kTenth : EReal := Ideal.ofBits .f32 0x3DCCCCCD#32
/-- 3/4 -/
def kAlpha : EReal := Ideal.ofBits .f32 0x3F400000#32
def kNegInf : EReal := Ideal.ofBits .f32 0xFF800000#32
def kNaN : EReal := Ideal.ofBits .f32 0x7FC00000#32

/-- The words of 1.0, …, 9.0 (entry 0 is unused). -/
def thrBits : Fin 10 → BitVec 32 :=
  ![0x00000000#32, 0x3F800000#32, 0x40000000#32, 0x40400000#32, 0x40800000#32, 0x40A00000#32, 0x40C00000#32,
    0x40E00000#32, 0x41000000#32, 0x41100000#32]
def thr (b : Fin 10) : EReal := Ideal.ofBits .f32 (thrBits b)

/-- |a| as the maximum of a and −a. -/
def absE (a : EReal) : EReal := max a (-a)

/-- A negative index counted from the end of an axis of length `n`. -/
def nrm (n k : BitVec 32) : BitVec 32 := Scalar.select (IntOp.cmpi .slt k 0#32) (IntOp.addi k n) k

/-! ## One row, the K side -/

section RowK
variable (v : Fin 512 → EReal) (g : BitVec 32)

/-- the row's maximum, from −∞ -/
def rmax : EReal := (Finset.univ : Finset (Fin 512)).fold max kNegInf v
def exK (j : Fin 512) : EReal := Ideal.exp (v j - rmax v)
def smK : EReal := ∑ j, exK v j
/-- soft-max as a product with the reciprocal of the sum -/
def pK (j : Fin 512) : EReal := exK v j * Ideal.div kOne (smK v)
/-- one-hot of the label: the comparison widened to a word and read as a signed integer -/
def ohK (j : Fin 512) : EReal := ((((IntOp.cmpi .eq (BitVec.ofNat 32 j.val) g).setWidth 32).toInt : ℝ) : EReal)
/-- ten times the distance to the one-hot -/
def tK (j : Fin 512) : EReal := absE (pK v j - ohK g j) * kTen
/-- cross-entropy of the soft-maxed row against the label, without a shift -/
def ceK : EReal := Ideal.log (∑ j, Ideal.exp (pK v j)) - ∑ j, pK v j * ohK g j
/-- 1 where the scaled distance reaches threshold `b` -/
def geK (b : Fin 10) (j : Fin 512) : EReal :=
  ((((Ideal.cmp .oge (tK v g j) (thr b)).setWidth 32).toInt : ℝ) : EReal)
/-- how many entries of the row reach threshold `b` -/
def rK (b : Fin 10) : EReal := ∑ j, geK v g b j
/-- the row's population of bin `b`: a difference of consecutive cumulative counts (512 before the first, 0 after the last) -/
def cntRowK (b : Fin 10) : EReal :=
  (if b.val = 0 then k512 else rK v g b) - (if h : b.val = 9 then kZero else rK v g ⟨b.val + 1, by omega⟩)

end RowK

/-! ## One block of 2048 rows, the K side -/

section BlockK
variable (V : Fin 2048 → Fin 512 → EReal) (Gb : Fin 2048 → BitVec 32)

def totBlk (b : Fin 10) : EReal := ∑ r, cntRowK (V r) (Gb r) b
/-- the block's population of bin `b`, as a word -/
def cBlk (b : Fin 10) : BitVec 32 := Ideal.fptosi 32 (totBlk V Gb b)
/-- the block's count-weighted cross-entropy of bin `b` -/
def sBlk (b : Fin 10) : EReal := ∑ r, cntRowK (V r) (Gb r) b * ceK (V r) (Gb r)

end BlockK

/-! ## The ten weights from the ten populations (both sides) -/

section Weights
variable (cnt : Fin 10 → EReal) (nv : EReal)

def popd (b : Fin 10) : BitVec 1 := Ideal.cmp .ogt (cnt b) kZero
def accW (b : Fin 10) : EReal := Scalar.select (popd cnt b) (kTenth * cnt b) kZero
def posW (b : Fin 10) : BitVec 1 := Ideal.cmp .ogt (accW cnt b) kZero
def denW (b : Fin 10) : EReal := max nv kOne * Scalar.select (posW cnt b) (accW cnt b) kOne
def binW (b : Fin 10) : EReal := Scalar.select (posW cnt b) (Ideal.div kTot (denW cnt nv b)) kZero

end Weights

/-! ## The whole input, the K side: two halves of 32 blocks -/

section WholeK
variable (X : Fin 131072 → Fin 512 → EReal) (G : Fin 131072 → BitVec 32)

/-- row `r` of block `k` of half `c` -/
def rowOf (c : Fin 2) (k : Fin 32) (r : Fin 2048) : Fin 131072 :=
  ⟨(c.val * 32 + k.val) * 2048 + r.val, by have := c.isLt; have := k.isLt; have := r.isLt; omega⟩

def cntCore (c : Fin 2) (b : Fin 10) : BitVec 32 :=
  ∑ k : Fin 32, cBlk (fun r => X (rowOf c k r)) (fun r => G (rowOf c k r)) b
def sCore (c : Fin 2) (b : Fin 10) : EReal :=
  ∑ k : Fin 32, sBlk (fun r => X (rowOf c k r)) (fun r => G (rowOf c k r)) b
/-- the population of bin `b`: the word sum over both halves, read as a signed integer -/
def cntK (b : Fin 10) : EReal := ((((∑ c : Fin 2, cntCore X G c b : BitVec 32)).toInt : ℝ) : EReal)
def sK (b : Fin 10) : EReal := kZero + ∑ c : Fin 2, sCore X G c b
/-- how many bins are populated: the comparisons read as unsigned integers and summed -/
def nvK : EReal := kZero + ∑ b : Fin 10, ((((popd (cntK X G) b).toNat : ℝ)) : EReal)
def wK (b : Fin 10) : EReal :=
  Ideal.pow (Scalar.select (Ideal.cmp .ogt (nvK X G) kZero) (binW (cntK X G) (nvK X G) b) kOne) kAlpha
def lossK : EReal := Ideal.div (kZero + ∑ b : Fin 10, wK X G b * sK X G b) kTot

end WholeK

/-! ## One row, the R side -/

section RowR
variable (v : Fin 512 → EReal) (g : BitVec 32)

def shR : EReal := max kNegInf (rmax v)
def exR (j : Fin 512) : EReal := Ideal.exp (v j - shR v)
def smR : EReal := kZero + ∑ j, exR v j
/-- soft-max as a quotient -/
def pR (j : Fin 512) : EReal := Ideal.div (exR v j) (smR v)
/-- one-hot of the label: the comparison read as an unsigned integer -/
def ohR (j : Fin 512) : EReal := ((((IntOp.cmpi .eq g (BitVec.ofNat 32 j.val)).toNat : ℝ)) : EReal)
def tR (j : Fin 512) : EReal := absE (pR v j - ohR g j) * kTen
/-- the entry's bin: the scaled distance truncated to a word and clipped to 0 … 9 -/
def binR (j : Fin 512) : BitVec 32 := IntOp.minsi 9#32 (IntOp.maxsi 0#32 (Ideal.fptosi 32 (tR v g j)))
/-- log-soft-max of the soft-maxed row -/
def lsmR (j : Fin 512) : EReal :=
  (pR v j - max kNegInf (rmax (pR v))) - Ideal.log (kZero + ∑ k, Ideal.exp (pR v k - max kNegInf (rmax (pR v))))
/-- the label's column is inside the row -/
def okR : BitVec 1 := IntOp.andi (IntOp.cmpi .sge (nrm 512#32 g) 0#32) (IntOp.cmpi .sle (nrm 512#32 g) 511#32)
/-- the column the gather reads: the label counted from the end if negative, read signed and clamped into the row -/
def colR : Fin 512 := ⟨min (nrm 512#32 g).toInt.toNat 511, by omega⟩
def ceR : EReal := -(Scalar.select (okR g) (lsmR v (colR g)) kNaN)

end RowR

/-! ## The whole input, the R side -/

section WholeR
variable (X : Fin 131072 → Fin 512 → EReal) (G : Fin 131072 → BitVec 32)

/-- the slot of the ten-entry table an entry's bin addresses -/
def slotR (i : Fin 131072) (j : Fin 512) : BitVec 32 := nrm 10#32 (binR (X i) (G i) j)
/-- the population of bin `b`: one for every entry whose slot, read signed, is `b` -/
def cntR (b : Fin 10) : EReal :=
  kZero + ∑ i : Fin 131072, ∑ j : Fin 512, if (slotR X G i j).toInt = (b.val : ℤ) then kOne else 0
/-- how many bins are populated: the comparisons widened to words, summed as words, read as a signed integer -/
def nvR : EReal := (((((∑ b : Fin 10, (popd (cntR X G) b).setWidth 32 : BitVec 32)).toInt : ℝ)) : EReal)
/-- the weight an entry gathers: its slot read signed and clamped into the table -/
def wR (i : Fin 131072) (j : Fin 512) : EReal :=
  Ideal.pow (Scalar.select (Ideal.cmp .ogt (nvR X G) kZero)
    (binW (cntR X G) (nvR X G) ⟨min (slotR X G i j).toInt.toNat 9, by omega⟩) kOne) kAlpha
def lossRow (i : Fin 131072) : EReal := Ideal.div (ceR (X i) (G i) * (kZero + ∑ j, wR X G i j)) k512
def lossR : EReal := Ideal.div (kZero + ∑ i, lossRow X G i) kRows

end WholeR

end Cert.Ghmc

end
-- ==== Proof.Args.lean ====
/-
  Reading the programs' arrays as rows: entry (i, j) of the 131072 × 512 input, the label of row i, and the same
  for one 2048-row block as a body of the pipelined call sees it (the labels there are a 2048 × 1 column).
-/
import Idealize.ShloMosaic.Lib.ValueIdx
import proofs.«428589_j7164005449994_3_alg».proof.Proof.Spec

noncomputable section

namespace Cert.Ghmc

open Idealize.ShloMosaic Idealize.ShloMosaic.ValueIdx

def matOf (x : (⟨2, ![131072, 512]⟩ : Shape).Idx → EReal) (i : Fin 131072) (j : Fin 512) : EReal := x (ix2 i j)
def labOf (t : (⟨1, ![131072]⟩ : Shape).Idx → BitVec 32) (i : Fin 131072) : BitVec 32 := t (ix1 i)
def blkMat (x : (⟨2, ![2048, 512]⟩ : Shape).Idx → EReal) (r : Fin 2048) (j : Fin 512) : EReal := x (ix2 r j)
def blkLab (t : (⟨2, ![2048, 1]⟩ : Shape).Idx → BitVec 32) (r : Fin 2048) : BitVec 32 := t (ix2 r (0 : Fin 1))

end Cert.Ghmc

end
-- ==== Proof.BodyRow.lean ====
/-
  The body's row quantities read at an index, at the extended reals: entry (r, j) of the scaled distance is the row's
  `tK` at column j; row r's cross-entropy is `ceK` of the row; row r's count of entries reaching threshold b is `rK`.
  A row of the block is `blkMat x0 r`, its label `blkLab x1 r`.
-/
import proofs.«428589_j7164005449994_3_alg».proof.Proof.Body
import proofs.«428589_j7164005449994_3_alg».proof.Proof.Args
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyRow

open Cert.KernelIdeal Cert.KernelIdeal.Gen Cert.KernelIdeal.Body Idealize.ShloMosaic Idealize.ShloMosaic.TcCoe
open Idealize.ShloMosaic.ValueIdx Cert.Ghmc

section Layout
variable {α : Type}

/-- A vector `[a]` viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The lane sum of a block's row, kept as a column. -/
theorem rowSum_apply (src : FVec Ideal S2048x512 .f32) (r : Fin 2048) :
    multiReduction .add [1] S2048 src 0x00000000#32 reduces_S2048x512_S2048 (.inl rfl) rfl (ix1 r)
      = ∑ k : Fin 512, src (ix2 r k) := by
  refine (Ideal.multiReduction_add_single src 0x00000000#32 reduces_S2048x512_S2048 (.inl rfl) rfl (ix1 r)).trans ?_
  refine Finset.sum_congr rfl fun k _ => congrArg src ?_
  funext a
  match a with
  | ⟨0, _⟩ => exact Fin.ext rfl
  | ⟨1, _⟩ => exact Fin.ext rfl

theorem rowMax_apply (src : FVec Ideal S2048x512 .f32) (r : Fin 2048) :
    multiReduction .maximumf [1] S2048 src 0xFF800000#32 reduces_S2048x512_S2048 (.inl rfl) rfl (ix1 r)
      = rmax (fun k => src (ix2 r k)) := by
  refine (Ideal.multiReduction_maximumf_single src 0xFF800000#32 reduces_S2048x512_S2048 (.inl rfl) rfl (ix1 r)).trans ?_
  unfold rmax kNegInf
  refine congrArg (fun f => (Finset.univ : Finset (Fin 512)).fold max (Ideal.ofBits .f32 0xFF800000#32) f) ?_
  funext k
  refine congrArg src ?_
  funext a
  match a with
  | ⟨0, _⟩ => exact Fin.ext rfl
  | ⟨1, _⟩ => exact Fin.ext rfl

/-! ## Pointwise operations read at an index (all by definition) -/

section Pointwise
variable {s : Shape}

theorem exp_apply (a : FVec Ideal s .f32) (i : s.Idx) : exp a i = Ideal.exp (a i) := rfl
theorem log_apply (a : FVec Ideal s .f32) (i : s.Idx) : log a i = Ideal.log (a i) := rfl
theorem absf_apply (a : FVec Ideal s .f32) (i : s.Idx) : absf a i = absE (a i) := rfl
theorem cmpi_apply {w : ℕ} (p : CmpIPredicate) (a b : IVec s w) (i : s.Idx) : cmpi p a b i = IntOp.cmpi p (a i) (b i) := rfl

end Pointwise

/-- A row's maximum, kept as a column and spread over the row again. -/
theorem rowMaxB_apply (src : FVec Ideal S2048x512 .f32) (r : Fin 2048) (j : Fin 512) :
    broadcastTo S2048x512 (shapeCast S2048x1
        (multiReduction .maximumf [1] S2048 src 0xFF800000#32 reduces_S2048x512_S2048 (.inl rfl) rfl)
        shapeCasts_S2048_S2048x1) broadcasts_S2048x1_S2048x512 (ix2 r j)
      = rmax (fun k => src (ix2 r k)) :=
  (broadcastTo_a1_ab_apply _ _ r j).trans ((shapeCast_a_a1_apply _ _ r 0).trans (rowMax_apply src r))

/-- A row's sum, kept as a column. -/
theorem rowSumC_apply (src : FVec Ideal S2048x512 .f32) (r : Fin 2048) (u : Fin 1) :
    shapeCast S2048x1 (multiReduction .add [1] S2048 src 0x00000000#32 reduces_S2048x512_S2048 (.inl rfl) rfl)
        shapeCasts_S2048_S2048x1 (ix2 r u)
      = ∑ k : Fin 512, src (ix2 r k) :=
  (shapeCast_a_a1_apply _ _ r u).trans (rowSum_apply src r)

/-- The column number along a row. -/
theorem iota1_apply (r : Fin 2048) (j : Fin 512) :
    iota .tc S2048x512 32 [1] iota_S2048x512_d1_w32 (ix2 r j) = BitVec.ofNat 32 j.val :=
  iota_single_apply .tc S2048x512 32 1 iota_S2048x512_d1_w32 (ix2 r j)

/-- The exponentials of a row's entries shifted by the row's maximum. -/
theorem exB_apply (x0 : FVec Ideal S2048x512 .f32) (r : Fin 2048) (k : Fin 512) :
    exp (subf x0 (broadcastTo S2048x512 (shapeCast S2048x1
        (multiReduction .maximumf [1] S2048 x0 0xFF800000#32 reduces_S2048x512_S2048 (.inl rfl) rfl)
        shapeCasts_S2048_S2048x1) broadcasts_S2048x1_S2048x512)) (ix2 r k)
      = exK (blkMat x0 r) k := by
  rw [exp_apply, subf_apply, rowMaxB_apply]
  rfl

/-- The soft-max of a block, entry by entry. -/
theorem pay5_apply (x0 : FVec Ideal S2048x512 .f32) (r : Fin 2048) (j : Fin 512) :
    k0_pay5 (F := Ideal) x0 (ix2 r j) = pK (blkMat x0 r) j := by
  unfold k0_pay5
  rw [mulf_apply, exB_apply, broadcastTo_a1_ab_apply, divf_apply, broadcast_apply, rowSumC_apply,
    Finset.sum_congr rfl fun k _ => exB_apply x0 r k]
  rfl

/-- The one-hot of a block's labels, entry by entry. -/
theorem pay4_apply (x1 : Vec Ideal S2048x1 .i32) (r : Fin 2048) (j : Fin 512) :
    k0_pay4 (F := Ideal) x1 (ix2 r j) = ohK (blkLab x1 r) j := by
  unfold k0_pay4
  rw [sitofp_apply, extui_apply, cmpi_apply, iota1_apply, broadcastTo_a1_ab_apply, shapeCast_self]
  rfl

/-- Ten times the distance to the one-hot, entry by entry. -/
theorem pay6_apply (x0 : FVec Ideal S2048x512 .f32) (x1 : Vec Ideal S2048x1 .i32) (r : Fin 2048) (j : Fin 512) :
    k0_pay6 (F := Ideal) x0 x1 (ix2 r j) = tK (blkMat x0 r) (blkLab x1 r) j := by
  unfold k0_pay6
  rw [mulf_apply, absf_apply, subf_apply, pay5_apply, pay4_apply, broadcast_apply]
  rfl

/-- A row's cross-entropy. -/
theorem pay7_apply (x0 : FVec Ideal S2048x512 .f32) (x1 : Vec Ideal S2048x1 .i32) (r : Fin 2048) (u : Fin 1) :
    k0_pay7 (F := Ideal) x0 x1 (ix2 r u) = ceK (blkMat x0 r) (blkLab x1 r) := by
  unfold k0_pay7
  rw [subf_apply, log_apply, rowSumC_apply, rowSumC_apply,
    Finset.sum_congr rfl fun k _ => (exp_apply (k0_pay5 (F := Ideal) x0) (ix2 r k)).trans (congrArg Ideal.exp (pay5_apply x0 r k)),
    Finset.sum_congr rfl fun k _ => (mulf_apply (k0_pay5 (F := Ideal) x0) (k0_pay4 (F := Ideal) x1) (ix2 r k)).trans
      (congrArg₂ (· * ·) (pay5_apply x0 r k) (pay4_apply x1 r k))]
  rfl

/-- How many entries of a row reach the threshold whose word is `w`: the comparison widened, read as a float,
    summed along the row and kept as a column. -/
theorem count_apply (t : FVec Ideal S2048x512 .f32) (v : Fin 512 → EReal) (g : BitVec 32) (r : Fin 2048)
    (ht : ∀ k, t (ix2 r k) = tK v g k) (b : Fin 10) (w : BitVec 32) (hw : thrBits b = w) (u : Fin 1) :
    shapeCast S2048x1 (multiReduction (F := Ideal) .add [1] S2048
        (sitofp .f32 (extui 32 (cmpf .oge t (broadcast S2048x512 (Scalar.ofBits .f32 w))) natLt_1_32)) 0x00000000#32
        reduces_S2048x512_S2048 (.inl rfl) rfl) shapeCasts_S2048_S2048x1 (ix2 r u)
      = rK v g b := by
  rw [rowSumC_apply]
  unfold rK
  refine Finset.sum_congr rfl fun k _ => ?_
  rw [sitofp_apply, extui_apply, cmpf_apply, broadcast_apply, ht k]
  subst hw
  rfl

/-! ## The body's row quantities -/

variable (x0 : Vec Ideal S2048x512 .f32) (x1 : Vec Ideal S2048x1 .i32)

theorem tt_apply (r : Fin 2048) (j : Fin 512) :
    (tt (F := Ideal) x0 x1 (ix2 r j) : EReal) = tK (blkMat x0 r) (blkLab x1 r) j :=
  pay6_apply x0 x1 r j

theorem ce_apply (r : Fin 2048) :
    (ce (F := Ideal) x0 x1 (ix2 r (0 : Fin 1)) : EReal) = ceK (blkMat x0 r) (blkLab x1 r) :=
  pay7_apply x0 x1 r 0

theorem r1_apply (r : Fin 2048) : (r1 (F := Ideal) x0 x1 (ix2 r (0 : Fin 1)) : EReal) = rK (blkMat x0 r) (blkLab x1 r) 1 :=
  count_apply (k0_pay6 (F := Ideal) x0 x1) _ _ r (fun k => pay6_apply x0 x1 r k) 1 0x3F800000#32 rfl 0
theorem r2_apply (r : Fin 2048) : (r2 (F := Ideal) x0 x1 (ix2 r (0 : Fin 1)) : EReal) = rK (blkMat x0 r) (blkLab x1 r) 2 :=
  count_apply (k0_pay6 (F := Ideal) x0 x1) _ _ r (fun k => pay6_apply x0 x1 r k) 2 0x40000000#32 rfl 0
theorem r3_apply (r : Fin 2048) : (r3 (F := Ideal) x0 x1 (ix2 r (0 : Fin 1)) : EReal) = rK (blkMat x0 r) (blkLab x1 r) 3 :=
  count_apply (tt (F := Ideal) x0 x1) _ _ r (fun k => tt_apply x0 x1 r k) 3 0x40400000#32 rfl 0
theorem r4_apply (r : Fin 2048) : (r4 (F := Ideal) x0 x1 (ix2 r (0 : Fin 1)) : EReal) = rK (blkMat x0 r) (blkLab x1 r) 4 :=
  count_apply (tt (F := Ideal) x0 x1) _ _ r (fun k => tt_apply x0 x1 r k) 4 0x40800000#32 rfl 0
theorem r5_apply (r : Fin 2048) : (r5 (F := Ideal) x0 x1 (ix2 r (0 : Fin 1)) : EReal) = rK (blkMat x0 r) (blkLab x1 r) 5 :=
  count_apply (tt (F := Ideal) x0 x1) _ _ r (fun k => tt_apply x0 x1 r k) 5 0x40A00000#32 rfl 0
theorem r6_apply (r : Fin 2048) : (r6 (F := Ideal) x0 x1 (ix2 r (0 : Fin 1)) : EReal) = rK (blkMat x0 r) (blkLab x1 r) 6 :=
  count_apply (tt (F := Ideal) x0 x1) _ _ r (fun k => tt_apply x0 x1 r k) 6 0x40C00000#32 rfl 0
theorem r7_apply (r : Fin 2048) : (r7 (F := Ideal) x0 x1 (ix2 r (0 : Fin 1)) : EReal) = rK (blkMat x0 r) (blkLab x1 r) 7 :=
  count_apply (tt (F := Ideal) x0 x1) _ _ r (fun k => tt_apply x0 x1 r k) 7 0x40E00000#32 rfl 0
theorem r8_apply (r : Fin 2048) : (r8 (F := Ideal) x0 x1 (ix2 r (0 : Fin 1)) : EReal) = rK (blkMat x0 r) (blkLab x1 r) 8 :=
  count_apply (tt (F := Ideal) x0 x1) _ _ r (fun k => tt_apply x0 x1 r k) 8 0x41000000#32 rfl 0
theorem r9_apply (r : Fin 2048) : (r9 (F := Ideal) x0 x1 (ix2 r (0 : Fin 1)) : EReal) = rK (blkMat x0 r) (blkLab x1 r) 9 :=
  count_apply (tt (F := Ideal) x0 x1) _ _ r (fun k => tt_apply x0 x1 r k) 9 0x41100000#32 rfl 0

end Cert.KernelIdeal.BodyRow

end
-- ==== Proof.BodyVal.lean ====
/-
  The body's two functions read lane by lane at the extended reals.  Lane b < 10 of the integer row gains the
  block's population of bin b (the row sums of the cumulative-count differences, truncated to a word); lane b < 10
  of the float row gains the block's count-weighted cross-entropy of bin b; the lanes from 10 on gain nothing,
  since every bin's contribution is masked to its own lane.

  The road: a column summed over the 2048 rows and kept as a 1 × 1 array reads the Fin-indexed sum (tot_apply);
  a bin's term is that 1 × 1 array spread over the lanes and multiplied by the mask "lane = bin", so at lane l it is
  the array's entry when l is the bin and zero otherwise (iTerm_lane, fTerm_lane); the ten difference columns read
  the row's bin populations (dcol_apply), so their sums are the block's populations and weighted sums (tot_dcol,
  tot_dcol_ce); both rows are, by unfolding alone, the previous row plus the ten terms added in turn from zero
  (outC_eq, outS_eq); and of ten terms each present only at its own lane the sum at lane l is the term of l (pick10).
-/
import proofs.«428589_j7164005449994_3_alg».proof.Proof.Body
import proofs.«428589_j7164005449994_3_alg».proof.Proof.BodyRow
import proofs.«428589_j7164005449994_3_alg».proof.Proof.Args
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyVal

open Cert.KernelIdeal Cert.KernelIdeal.Gen Cert.KernelIdeal.Body Cert.KernelIdeal.BodyRow Idealize.ShloMosaic Idealize.ShloMosaic.TcCoe
open Idealize.ShloMosaic.ValueIdx Cert.Ghmc

/-- the sum of a column over the 2048 rows, kept as a 1 × 1 array -/
def tot (d : FVec Ideal S2048x1 .f32) : FVec Ideal S1x1 .f32 :=
  shapeCast S1x1 (multiReduction .add [0] S1 d 0x00000000#32 Facts₀.reduces_S2048x1_S1 (.inl rfl) rfl) Facts₀.shapeCasts_S1_S1x1

theorem tot_apply (d : FVec Ideal S2048x1 .f32) :
    (tot d (ix2 (0 : Fin 1) (0 : Fin 1)) : EReal) = ∑ r : Fin 2048, d (ix2 r (0 : Fin 1)) := by
  unfold tot
  rw [shapeCast_a_1a_apply]
  refine (Ideal.multiReduction_add_total d 0x00000000#32 Facts₀.reduces_S2048x1_S1 (fun b => by fin_cases b; rfl) (.inl rfl) rfl (ix1 (0 : Fin 1))).trans ?_
  rw [sum_idx2]
  refine Finset.sum_congr rfl fun r _ => ?_
  rw [Fin.sum_univ_one]

/-- a 1 × 1 array spread over the 128 lanes reads its one entry at every lane -/
theorem bcast11_apply {α : Type} (v : S1x1.Idx → α) (l : Fin 128) :
    broadcastTo S1x128 v Facts₀.broadcasts_S1x1_S1x128 (ix2 (0 : Fin 1) l) = v (ix2 (0 : Fin 1) (0 : Fin 1)) := by
  refine broadcastTo_apply v _ (ix2 (0 : Fin 1) l) (ix2 (0 : Fin 1) (0 : Fin 1)) fun ax => ?_
  match ax with
  | ⟨0, _⟩ => rfl
  | ⟨1, _⟩ => rfl

/-- the lane numbers: lane l holds the word of l -/
theorem lanes_apply (l : Fin 128) : lanes (ix2 (0 : Fin 1) l) = BitVec.ofNat 32 l.val := by
  unfold lanes
  rw [iota_single_apply]

/-- the mask word of bin k at lane l: one at lane k, zero elsewhere -/
theorem mask_word (k : Nat) (hk : k < 128) (l : Fin 128) :
    (IntOp.cmpi .eq (BitVec.ofNat 32 l.val) (BitVec.ofNat 32 k)).setWidth 32 = if l.val = k then 1#32 else 0#32 := by
  have hl := l.isLt
  by_cases h : l.val = k
  · rw [if_pos h, h]; simp [IntOp.cmpi]
  · rw [if_neg h]
    have : BitVec.ofNat 32 l.val ≠ BitVec.ofNat 32 k := by
      intro he
      have := congrArg BitVec.toNat he
      simp only [BitVec.toNat_ofNat] at this
      omega
    have hb : (BitVec.ofNat 32 l.val == BitVec.ofNat 32 k) = false := beq_false_of_ne this
    simp [IntOp.cmpi, hb]

/-- an integer bin term: the block's count, masked to the bin's lane -/
def iTerm (v88 : IVec S1x128 32) (k : BitVec 32) (T : FVec Ideal S1x1 .f32) : IVec S1x128 32 :=
  muli (extui 32 (cmpi .eq v88 (broadcast S1x128 k)) Facts₀.natLt_1_32)
    (broadcastTo S1x128 (fptosi 32 T) Facts₀.broadcasts_S1x1_S1x128)

theorem iTerm_lane (k : Nat) (hk : k < 128) (T : FVec Ideal S1x1 .f32) (l : Fin 128) :
    iTerm lanes (BitVec.ofNat 32 k) T (ix2 (0 : Fin 1) l)
      = if l.val = k then Ideal.fptosi 32 (T (ix2 (0 : Fin 1) (0 : Fin 1))) else 0#32 := by
  show IntOp.muli ((IntOp.cmpi .eq (lanes (ix2 (0 : Fin 1) l)) (BitVec.ofNat 32 k)).setWidth 32)
      (broadcastTo S1x128 (fptosi 32 T) Facts₀.broadcasts_S1x1_S1x128 (ix2 (0 : Fin 1) l)) = _
  rw [bcast11_apply, lanes_apply, mask_word k hk l]
  show (if l.val = k then 1#32 else 0#32) * Ideal.fptosi 32 (T (ix2 (0 : Fin 1) (0 : Fin 1))) = _
  split <;> simp

/-- a float bin term: the block's weighted sum, masked to the bin's lane -/
def fTerm (v88 : IVec S1x128 32) (k : BitVec 32) (T : FVec Ideal S1x1 .f32) : FVec Ideal S1x128 .f32 :=
  mulf (sitofp .f32 (extui 32 (cmpi .eq v88 (broadcast S1x128 k)) Facts₀.natLt_1_32))
    (broadcastTo S1x128 T Facts₀.broadcasts_S1x1_S1x128)

theorem fTerm_lane (k : Nat) (hk : k < 128) (T : FVec Ideal S1x1 .f32) (l : Fin 128) :
    (fTerm lanes (BitVec.ofNat 32 k) T (ix2 (0 : Fin 1) l) : EReal)
      = if l.val = k then (T (ix2 (0 : Fin 1) (0 : Fin 1)) : EReal) else 0 := by
  show ((((IntOp.cmpi .eq (lanes (ix2 (0 : Fin 1) l)) (BitVec.ofNat 32 k)).setWidth 32).toInt : ℝ) : EReal)
      * (broadcastTo S1x128 T Facts₀.broadcasts_S1x1_S1x128 (ix2 (0 : Fin 1) l)) = _
  rw [bcast11_apply, lanes_apply, mask_word k hk l]
  split
  · simp
  · simp

/-- of ten terms, each present only when n is its number, the sum is the term of n (nothing from 10 on) -/
theorem pick10 {M : Type} [AddMonoid M] (c : Fin 10 → M) (n : Nat) :
    0 + (if n = 0 then c 0 else 0) + (if n = 1 then c 1 else 0) + (if n = 2 then c 2 else 0)
      + (if n = 3 then c 3 else 0) + (if n = 4 then c 4 else 0) + (if n = 5 then c 5 else 0) + (if n = 6 then c 6 else 0)
      + (if n = 7 then c 7 else 0) + (if n = 8 then c 8 else 0) + (if n = 9 then c 9 else 0)
      = if h : n < 10 then c ⟨n, h⟩ else 0 := by
  by_cases h : n < 10
  · rw [dif_pos h]
    interval_cases n <;> simp <;> rfl
  · rw [dif_neg h, if_neg (by omega), if_neg (by omega), if_neg (by omega), if_neg (by omega), if_neg (by omega),
      if_neg (by omega), if_neg (by omega), if_neg (by omega), if_neg (by omega), if_neg (by omega)]
    simp

section Block
variable (x0 : Vec Ideal S2048x512 .f32) (x1 : Vec Ideal S2048x1 .i32)

/-- the ten columns of bin populations of the rows, as the body forms them -/
def dcol : Fin 10 → FVec Ideal S2048x1 .f32 :=
  ![k0_pay19 (r1 (F := Ideal) x0 x1), k0_pay21 (r1 (F := Ideal) x0 x1) (r2 (F := Ideal) x0 x1),
    k0_pay25 (r2 (F := Ideal) x0 x1) (r3 (F := Ideal) x0 x1), k0_pay30 (r3 (F := Ideal) x0 x1) (r4 (F := Ideal) x0 x1),
    k0_pay32 (r4 (F := Ideal) x0 x1) (r5 (F := Ideal) x0 x1), k0_pay36 (r5 (F := Ideal) x0 x1) (r6 (F := Ideal) x0 x1),
    k0_pay40 (r6 (F := Ideal) x0 x1) (r7 (F := Ideal) x0 x1), k0_pay42 (r7 (F := Ideal) x0 x1) (r8 (F := Ideal) x0 x1),
    k0_pay46 (r8 (F := Ideal) x0 x1) (r9 (F := Ideal) x0 x1), k0_pay49 (r9 (F := Ideal) x0 x1)]

theorem dcol_apply (b : Fin 10) (r : Fin 2048) :
    (dcol x0 x1 b (ix2 r (0 : Fin 1)) : EReal) = cntRowK (blkMat x0 r) (blkLab x1 r) b := by
  have h1 := r1_apply x0 x1 r
  have h2 := r2_apply x0 x1 r
  have h3 := r3_apply x0 x1 r
  have h4 := r4_apply x0 x1 r
  have h5 := r5_apply x0 x1 r
  have h6 := r6_apply x0 x1 r
  have h7 := r7_apply x0 x1 r
  have h8 := r8_apply x0 x1 r
  have h9 := r9_apply x0 x1 r
  fin_cases b
  · show (Ideal.ofBits .f32 0x44000000#32 : EReal) - r1 (F := Ideal) x0 x1 (ix2 r (0 : Fin 1)) = _
    rw [h1]; rfl
  · show (r1 (F := Ideal) x0 x1 (ix2 r (0 : Fin 1)) : EReal) - r2 (F := Ideal) x0 x1 (ix2 r (0 : Fin 1)) = _
    rw [h1, h2]; rfl
  · show (r2 (F := Ideal) x0 x1 (ix2 r (0 : Fin 1)) : EReal) - r3 (F := Ideal) x0 x1 (ix2 r (0 : Fin 1)) = _
    rw [h2, h3]; rfl
  · show (r3 (F := Ideal) x0 x1 (ix2 r (0 : Fin 1)) : EReal) - r4 (F := Ideal) x0 x1 (ix2 r (0 : Fin 1)) = _
    rw [h3, h4]; rfl
  · show (r4 (F := Ideal) x0 x1 (ix2 r (0 : Fin 1)) : EReal) - r5 (F := Ideal) x0 x1 (ix2 r (0 : Fin 1)) = _
    rw [h4, h5]; rfl
  · show (r5 (F := Ideal) x0 x1 (ix2 r (0 : Fin 1)) : EReal) - r6 (F := Ideal) x0 x1 (ix2 r (0 : Fin 1)) = _
    rw [h5, h6]; rfl
  · show (r6 (F := Ideal) x0 x1 (ix2 r (0 : Fin 1)) : EReal) - r7 (F := Ideal) x0 x1 (ix2 r (0 : Fin 1)) = _
    rw [h6, h7]; rfl
  · show (r7 (F := Ideal) x0 x1 (ix2 r (0 : Fin 1)) : EReal) - r8 (F := Ideal) x0 x1 (ix2 r (0 : Fin 1)) = _
    rw [h7, h8]; rfl
  · show (r8 (F := Ideal) x0 x1 (ix2 r (0 : Fin 1)) : EReal) - r9 (F := Ideal) x0 x1 (ix2 r (0 : Fin 1)) = _
    rw [h8, h9]; rfl
  · show (r9 (F := Ideal) x0 x1 (ix2 r (0 : Fin 1)) : EReal) - Ideal.ofBits .f32 0x00000000#32 = _
    rw [h9]; rfl

/-- the block's population of bin b, before truncation -/
theorem tot_dcol (b : Fin 10) :
    (tot (dcol x0 x1 b) (ix2 (0 : Fin 1) (0 : Fin 1)) : EReal) = totBlk (blkMat x0) (blkLab x1) b := by
  rw [tot_apply]
  exact Finset.sum_congr rfl fun r _ => dcol_apply x0 x1 b r

/-- the block's count-weighted cross-entropy of bin b -/
theorem tot_dcol_ce (b : Fin 10) :
    (tot (mulf (dcol x0 x1 b) (ce (F := Ideal) x0 x1)) (ix2 (0 : Fin 1) (0 : Fin 1)) : EReal)
      = sBlk (blkMat x0) (blkLab x1) b := by
  rw [tot_apply]
  refine Finset.sum_congr rfl fun r _ => ?_
  show (dcol x0 x1 b (ix2 r (0 : Fin 1)) : EReal) * ce (F := Ideal) x0 x1 (ix2 r (0 : Fin 1)) = _
  rw [dcol_apply, ce_apply]

end Block

section Lanes
variable (x0 : Vec Ideal S2048x512 .f32) (x1 : Vec Ideal S2048x1 .i32)

/-- the ten masked integer terms added in turn from the zero row -/
def cAll : IVec S1x128 32 :=
  addi (addi (addi (addi (addi (addi (addi (addi (addi (addi (broadcast S1x128 0#32)
    (iTerm lanes 0#32 (tot (dcol x0 x1 0)))) (iTerm lanes 1#32 (tot (dcol x0 x1 1))))
    (iTerm lanes 2#32 (tot (dcol x0 x1 2)))) (iTerm lanes 3#32 (tot (dcol x0 x1 3))))
    (iTerm lanes 4#32 (tot (dcol x0 x1 4)))) (iTerm lanes 5#32 (tot (dcol x0 x1 5))))
    (iTerm lanes 6#32 (tot (dcol x0 x1 6)))) (iTerm lanes 7#32 (tot (dcol x0 x1 7))))
    (iTerm lanes 8#32 (tot (dcol x0 x1 8)))) (iTerm lanes 9#32 (tot (dcol x0 x1 9)))

theorem outC_eq (prev : Vec Ideal S1x1x128 .i32) :
    outC (F := Ideal) x0 x1 prev
      = shapeCast S1x1x128 (addi (shapeCast S1x128 prev Facts₀.shapeCasts_S1x1x128_S1x128) (cAll x0 x1))
          Facts₀.shapeCasts_S1x128_S1x1x128 := rfl

/-- the ten masked float terms added in turn from the zero row -/
def sAll : FVec Ideal S1x128 .f32 :=
  addf (addf (addf (addf (addf (addf (addf (addf (addf (addf (broadcast S1x128 (Scalar.ofBits .f32 0x00000000#32))
    (fTerm lanes 0#32 (tot (mulf (dcol x0 x1 0) (ce (F := Ideal) x0 x1)))))
    (fTerm lanes 1#32 (tot (mulf (dcol x0 x1 1) (ce (F := Ideal) x0 x1)))))
    (fTerm lanes 2#32 (tot (mulf (dcol x0 x1 2) (ce (F := Ideal) x0 x1)))))
    (fTerm lanes 3#32 (tot (mulf (dcol x0 x1 3) (ce (F := Ideal) x0 x1)))))
    (fTerm lanes 4#32 (tot (mulf (dcol x0 x1 4) (ce (F := Ideal) x0 x1)))))
    (fTerm lanes 5#32 (tot (mulf (dcol x0 x1 5) (ce (F := Ideal) x0 x1)))))
    (fTerm lanes 6#32 (tot (mulf (dcol x0 x1 6) (ce (F := Ideal) x0 x1)))))
    (fTerm lanes 7#32 (tot (mulf (dcol x0 x1 7) (ce (F := Ideal) x0 x1)))))
    (fTerm lanes 8#32 (tot (mulf (dcol x0 x1 8) (ce (F := Ideal) x0 x1)))))
    (fTerm lanes 9#32 (tot (mulf (dcol x0 x1 9) (ce (F := Ideal) x0 x1))))

theorem outS_eq (prev : Vec Ideal S1x1x128 .f32) :
    outS (F := Ideal) x0 x1 prev
      = shapeCast S1x1x128 (addf (shapeCast S1x128 prev Facts₀.shapeCasts_S1x1x128_S1x128) (sAll x0 x1))
          Facts₀.shapeCasts_S1x128_S1x1x128 := rfl

end Lanes

section Final
variable (x0 : Vec Ideal S2048x512 .f32) (x1 : Vec Ideal S2048x1 .i32)

theorem addi_apply {s : Shape} {w : Nat} (a b : IVec s w) (i : s.Idx) : addi a b i = a i + b i := rfl

theorem iTermK (b : Fin 10) (l : Fin 128) :
    iTerm lanes (BitVec.ofNat 32 b.val) (tot (dcol x0 x1 b)) (ix2 (0 : Fin 1) l)
      = if l.val = b.val then cBlk (blkMat x0) (blkLab x1) b else 0#32 := by
  rw [iTerm_lane b.val (by have := b.isLt; omega), tot_dcol]; rfl

theorem fTermK (b : Fin 10) (l : Fin 128) :
    (fTerm lanes (BitVec.ofNat 32 b.val) (tot (mulf (dcol x0 x1 b) (ce (F := Ideal) x0 x1))) (ix2 (0 : Fin 1) l) : EReal)
      = if l.val = b.val then sBlk (blkMat x0) (blkLab x1) b else 0 := by
  rw [fTerm_lane b.val (by have := b.isLt; omega), tot_dcol_ce]

theorem cAll_lane (l : Fin 128) :
    cAll x0 x1 (ix2 (0 : Fin 1) l)
      = if h : l.val < 10 then cBlk (blkMat x0) (blkLab x1) ⟨l.val, h⟩ else 0#32 := by
  have e0 : iTerm lanes 0#32 (tot (dcol x0 x1 0)) (ix2 (0 : Fin 1) l)
      = if l.val = 0 then cBlk (blkMat x0) (blkLab x1) 0 else 0#32 := iTermK x0 x1 0 l
  have e1 : iTerm lanes 1#32 (tot (dcol x0 x1 1)) (ix2 (0 : Fin 1) l)
      = if l.val = 1 then cBlk (blkMat x0) (blkLab x1) 1 else 0#32 := iTermK x0 x1 1 l
  have e2 : iTerm lanes 2#32 (tot (dcol x0 x1 2)) (ix2 (0 : Fin 1) l)
      = if l.val = 2 then cBlk (blkMat x0) (blkLab x1) 2 else 0#32 := iTermK x0 x1 2 l
  have e3 : iTerm lanes 3#32 (tot (dcol x0 x1 3)) (ix2 (0 : Fin 1) l)
      = if l.val = 3 then cBlk (blkMat x0) (blkLab x1) 3 else 0#32 := iTermK x0 x1 3 l
  have e4 : iTerm lanes 4#32 (tot (dcol x0 x1 4)) (ix2 (0 : Fin 1) l)
      = if l.val = 4 then cBlk (blkMat x0) (blkLab x1) 4 else 0#32 := iTermK x0 x1 4 l
  have e5 : iTerm lanes 5#32 (tot (dcol x0 x1 5)) (ix2 (0 : Fin 1) l)
      = if l.val = 5 then cBlk (blkMat x0) (blkLab x1) 5 else 0#32 := iTermK x0 x1 5 l
  have e6 : iTerm lanes 6#32 (tot (dcol x0 x1 6)) (ix2 (0 : Fin 1) l)
      = if l.val = 6 then cBlk (blkMat x0) (blkLab x1) 6 else 0#32 := iTermK x0 x1 6 l
  have e7 : iTerm lanes 7#32 (tot (dcol x0 x1 7)) (ix2 (0 : Fin 1) l)
      = if l.val = 7 then cBlk (blkMat x0) (blkLab x1) 7 else 0#32 := iTermK x0 x1 7 l
  have e8 : iTerm lanes 8#32 (tot (dcol x0 x1 8)) (ix2 (0 : Fin 1) l)
      = if l.val = 8 then cBlk (blkMat x0) (blkLab x1) 8 else 0#32 := iTermK x0 x1 8 l
  have e9 : iTerm lanes 9#32 (tot (dcol x0 x1 9)) (ix2 (0 : Fin 1) l)
      = if l.val = 9 then cBlk (blkMat x0) (blkLab x1) 9 else 0#32 := iTermK x0 x1 9 l
  simp only [cAll, addi_apply, broadcast_apply]
  rw [e0, e1, e2, e3, e4, e5, e6, e7, e8, e9]
  exact pick10 (cBlk (blkMat x0) (blkLab x1)) l.val

theorem sAll_lane (l : Fin 128) :
    (sAll x0 x1 (ix2 (0 : Fin 1) l) : EReal)
      = if h : l.val < 10 then sBlk (blkMat x0) (blkLab x1) ⟨l.val, h⟩ else 0 := by
  have e0 : (fTerm lanes 0#32 (tot (mulf (dcol x0 x1 0) (ce (F := Ideal) x0 x1))) (ix2 (0 : Fin 1) l) : EReal)
      = if l.val = 0 then sBlk (blkMat x0) (blkLab x1) 0 else 0 := fTermK x0 x1 0 l
  have e1 : (fTerm lanes 1#32 (tot (mulf (dcol x0 x1 1) (ce (F := Ideal) x0 x1))) (ix2 (0 : Fin 1) l) : EReal)
      = if l.val = 1 then sBlk (blkMat x0) (blkLab x1) 1 else 0 := fTermK x0 x1 1 l
  have e2 : (fTerm lanes 2#32 (tot (mulf (dcol x0 x1 2) (ce (F := Ideal) x0 x1))) (ix2 (0 : Fin 1) l) : EReal)
      = if l.val = 2 then sBlk (blkMat x0) (blkLab x1) 2 else 0 := fTermK x0 x1 2 l
  have e3 : (fTerm lanes 3#32 (tot (mulf (dcol x0 x1 3) (ce (F := Ideal) x0 x1))) (ix2 (0 : Fin 1) l) : EReal)
      = if l.val = 3 then sBlk (blkMat x0) (blkLab x1) 3 else 0 := fTermK x0 x1 3 l
  have e4 : (fTerm lanes 4#32 (tot (mulf (dcol x0 x1 4) (ce (F := Ideal) x0 x1))) (ix2 (0 : Fin 1) l) : EReal)
      = if l.val = 4 then sBlk (blkMat x0) (blkLab x1) 4 else 0 := fTermK x0 x1 4 l
  have e5 : (fTerm lanes 5#32 (tot (mulf (dcol x0 x1 5) (ce (F := Ideal) x0 x1))) (ix2 (0 : Fin 1) l) : EReal)
      = if l.val = 5 then sBlk (blkMat x0) (blkLab x1) 5 else 0 := fTermK x0 x1 5 l
  have e6 : (fTerm lanes 6#32 (tot (mulf (dcol x0 x1 6) (ce (F := Ideal) x0 x1))) (ix2 (0 : Fin 1) l) : EReal)
      = if l.val = 6 then sBlk (blkMat x0) (blkLab x1) 6 else 0 := fTermK x0 x1 6 l
  have e7 : (fTerm lanes 7#32 (tot (mulf (dcol x0 x1 7) (ce (F := Ideal) x0 x1))) (ix2 (0 : Fin 1) l) : EReal)
      = if l.val = 7 then sBlk (blkMat x0) (blkLab x1) 7 else 0 := fTermK x0 x1 7 l
  have e8 : (fTerm lanes 8#32 (tot (mulf (dcol x0 x1 8) (ce (F := Ideal) x0 x1))) (ix2 (0 : Fin 1) l) : EReal)
      = if l.val = 8 then sBlk (blkMat x0) (blkLab x1) 8 else 0 := fTermK x0 x1 8 l
  have e9 : (fTerm lanes 9#32 (tot (mulf (dcol x0 x1 9) (ce (F := Ideal) x0 x1))) (ix2 (0 : Fin 1) l) : EReal)
      = if l.val = 9 then sBlk (blkMat x0) (blkLab x1) 9 else 0 := fTermK x0 x1 9 l
  have hz : (Scalar.ofBits (F := Ideal) .f32 0x00000000#32 : EReal) = 0 := Ideal.ofBits_zero_f32
  rw [sAll, addf_apply, addf_apply, addf_apply, addf_apply, addf_apply, addf_apply, addf_apply, addf_apply, addf_apply,
    addf_apply, broadcast_apply]
  rw [e0, e1, e2, e3, e4, e5, e6, e7, e8, e9, hz]
  exact pick10 (sBlk (blkMat x0) (blkLab x1)) l.val

end Final

theorem outC_lane (x0 : Vec Ideal S2048x512 .f32) (x1 : Vec Ideal S2048x1 .i32) (prev : Vec Ideal S1x1x128 .i32)
    (l : Fin 128) :
    outC (F := Ideal) x0 x1 prev (ix3 (0 : Fin 1) (0 : Fin 1) l)
      = prev (ix3 (0 : Fin 1) (0 : Fin 1) l)
        + (if h : l.val < 10 then cBlk (blkMat x0) (blkLab x1) ⟨l.val, h⟩ else 0#32) := by
  rw [outC_eq, shapeCast_ab_1ab_apply, addi_apply, shapeCast_1ab_ab_apply, cAll_lane]

theorem outS_lane (x0 : Vec Ideal S2048x512 .f32) (x1 : Vec Ideal S2048x1 .i32) (prev : Vec Ideal S1x1x128 .f32)
    (l : Fin 128) :
    outS (F := Ideal) x0 x1 prev (ix3 (0 : Fin 1) (0 : Fin 1) l)
      = (prev (ix3 (0 : Fin 1) (0 : Fin 1) l) : EReal)
        + (if h : l.val < 10 then sBlk (blkMat x0) (blkLab x1) ⟨l.val, h⟩ else 0) := by
  rw [outS_eq, shapeCast_ab_1ab_apply, addf_apply, shapeCast_1ab_ab_apply, sAll_lane]

/-- the zero rows the first step of a half starts from -/
theorem pay2_lane (l : Fin 128) : (k0_pay2 : IVec S1x1x128 32) (ix3 (0 : Fin 1) (0 : Fin 1) l) = 0#32 := by
  unfold k0_pay2
  rw [shapeCast_ab_1ab_apply]; rfl

theorem pay3_lane (l : Fin 128) : (k0_pay3 (F := Ideal) (ix3 (0 : Fin 1) (0 : Fin 1) l) : EReal) = 0 := by
  unfold k0_pay3
  rw [shapeCast_ab_1ab_apply]
  exact Ideal.ofBits_zero_f32

end Cert.KernelIdeal.BodyVal

end
-- ==== Proof.KAcc.lean ====
/-
  What the pipelined call leaves in its two output arrays.  The grid has 2 × 32 points; point t works on block t
  (rows 2048·t … 2048·t + 2047) and accumulates into row ⌊t / 32⌋ of each output, zeroing it at the first of that
  half's 32 steps; the row is written back when the half ends.  By induction over the points the accumulator after
  step k of a half holds, lane by lane, the word sum (for the float row, the sum) of the first k + 1 blocks'
  contributions, so after the call row c of the integer output holds in lane b < 10 the half's population of bin b and
  row c of the float output the half's count-weighted cross-entropy of bin b, the other lanes zero.
-/
import proofs.«428589_j7164005449994_3_alg».proof.Proof.Body
import proofs.«428589_j7164005449994_3_alg».proof.Proof.BodyVal
import proofs.«428589_j7164005449994_3_alg».proof.Proof.Args
import Idealize.ShloMosaic.Lib.ValueIdx
import Idealize.ShloMosaic.Lib.Pipeline.Value
import Idealize.ShloMosaic.Lib.Tactic

noncomputable section

namespace Cert.KernelIdeal.KAcc

open Cert.KernelIdeal Cert.KernelIdeal.Gen Cert.KernelIdeal.Body Cert.KernelIdeal.BodyVal Idealize.ShloMosaic Idealize.ShloMosaic.TcCoe
open Idealize.ShloMosaic.ValueIdx Idealize.SL.Sem Cert.Ghmc
open Idealize.ShloMosaic.Pipeline (Dat)

variable (m : (ℓ : Loc nD τ sig) → Buf (Elt Ideal) ℓ)

/-- the input as rows, and the labels, of core `c`'s memory -/
abbrev Xof (c : Dev nD) : Fin 131072 → Fin 512 → EReal := matOf (m ((c.tc : Thread nD τ).loc main_arg0))
abbrev Gof (c : Dev nD) : Fin 131072 → BitVec 32 := labOf (m ((c.tc : Thread nD τ).loc main_arg1))

/-! ## The blocks a point reads -/

/-- the two input blocks of point `t`: 2048 rows of values, and their 2048 labels as a column -/
abbrev xblk (c : Dev nD) (t : Fin cfg0.N) : Vec Ideal S2048x512 .f32 := iblk m c 0 t
abbrev gblk (c : Dev nD) (t : Fin cfg0.N) : Vec Ideal S2048x1 .i32 := iblk m c 1 t

/-- point `t` reads block `t` of the rows of both inputs -/
theorem in_block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- point `t` works on row `t / 32` of both outputs -/
theorem out_block_index : ∀ t : Fin cfg0.N, win0_2.index t (0 : Fin 3) = t.val / 32 ∧ win0_2.index t (1 : Fin 3) = 0
    ∧ win0_2.index t (2 : Fin 3) = 0 ∧ win0_3.index t (0 : Fin 3) = t.val / 32 ∧ win0_3.index t (1 : Fin 3) = 0
    ∧ win0_3.index t (2 : Fin 3) = 0 :=
  (by decide +kernel : ∀ t : Fin grid0.N, _)

/-- entry (r, j) of the value block of point `t` is entry (2048·t + r, j) of the input -/
theorem xblk_apply (c : Dev nD) (t : Fin cfg0.N) (r : Fin 2048) (j : Fin 512) (i : Fin 131072)
    (hi : i.val = 2048 * t.val + r.val) :
    xblk m c t (ix2 r j) = Xof m c i j := by
  obtain ⟨e0, e1, -, -⟩ := in_block_index t
  unfold xblk iblk
  rw [View.read_apply]
  show V m c main_arg0 _ = m (c.tc.loc main_arg0) _
  rw [V_main_arg0]
  congr 1
  funext a
  apply Fin.ext
  match a with
  | ⟨0, _⟩ => show win0_0.index t 0 * 2048 + 1 * r.val = i.val; rw [e0, hi]; omega
  | ⟨1, _⟩ => show win0_0.index t 1 * 512 + 1 * j.val = j.val; rw [e1]; omega

/-- the label column the call reads is the label vector, reshaped to 131072 × 1 -/
theorem labels_column (c : Dev nD) : (V m c main_v0 : S131072x1.Idx → BitVec 32)
    = shapeCast S131072x1 (m ((c.tc : Thread nD τ).loc main_arg1)) shapeCasts_S131072_S131072x1 := by
  show StableHlo.after hostOps0 (fun b => m (c, b)) (Proc.devRef .tc main_v0) = _
  after_results; rfl

/-- entry r of the label block of point `t` is label 2048·t + r -/
theorem gblk_apply (c : Dev nD) (t : Fin cfg0.N) (r : Fin 2048) (i : Fin 131072)
    (hi : i.val = 2048 * t.val + r.val) :
    gblk m c t (ix2 r (0 : Fin 1)) = Gof m c i := by
  obtain ⟨-, -, e0, e1⟩ := in_block_index t
  unfold gblk iblk
  rw [View.read_apply]
  show V m c main_v0 _ = _
  rw [labels_column]
  refine (shapeCast_apply _ _ _ (ix1 i) ?_).trans rfl
  rw [Shape.rowMajor_val_one, Shape.rowMajor_val_two]
  show i.val = (win0_1.index t 0 * 2048 + 1 * r.val) * 1 + (win0_1.index t 1 * 1 + 1 * 0)
  rw [e0, e1, hi]; omega

/-! ## One step of a half -/

/-- what block `t` adds to lane `l` of each accumulator row -/
def cAdd (c : Dev nD) (t : Fin cfg0.N) (l : Fin 128) : BitVec 32 :=
  if h : l.val < 10 then cBlk (blkMat (xblk m c t)) (blkLab (gblk m c t)) ⟨l.val, h⟩ else 0#32
def sAdd (c : Dev nD) (t : Fin cfg0.N) (l : Fin 128) : EReal :=
  if h : l.val < 10 then sBlk (blkMat (xblk m c t)) (blkLab (gblk m c t)) ⟨l.val, h⟩ else 0

/-- the first step of a half leaves the block's addend in the integer row -/
theorem counts_first_step (c : Dev nD) (t : Fin cfg0.N) (h0 : t.val % 32 = 0) (l : Fin 128) :
    (outsAt0 m c t.val t.isLt).1 (ix3 (0 : Fin 1) (0 : Fin 1) l) = cAdd m c t l := by
  rw [outsAt0_A m c t h0]; dsimp only
  refine (congrFun (out0_A_2_eq (F := Ideal) c (grid0.coords t) (ms0_0 t) (hs0_0 t) (ms0_1 t) (hs0_1 t) (ms0_2 t) (hs0_2 t)
    (ms0_3 t) (hs0_3 t) ((hcond0_0 t).mpr h0) (iblk m c 0 t) (iblk m c 1 t)) (ix3 (0 : Fin 1) (0 : Fin 1) l)).trans ?_
  refine (outC_lane (iblk m c 0 t) (iblk m c 1 t) k0_pay2 l).trans ?_
  rw [pay2_lane, BitVec.zero_add]
  rfl

/-- the first step of a half leaves the block's addend in the float row -/
theorem s_first_step (c : Dev nD) (t : Fin cfg0.N) (h0 : t.val % 32 = 0) (l : Fin 128) :
    ((outsAt0 m c t.val t.isLt).2 (ix3 (0 : Fin 1) (0 : Fin 1) l) : EReal) = sAdd m c t l := by
  rw [outsAt0_A m c t h0]; dsimp only
  refine (congrFun (out0_A_3_eq (F := Ideal) c (grid0.coords t) (ms0_0 t) (hs0_0 t) (ms0_1 t) (hs0_1 t) (ms0_2 t) (hs0_2 t)
    (ms0_3 t) (hs0_3 t) ((hcond0_0 t).mpr h0) (iblk m c 0 t) (iblk m c 1 t)) (ix3 (0 : Fin 1) (0 : Fin 1) l)).trans ?_
  refine (outS_lane (iblk m c 0 t) (iblk m c 1 t) (k0_pay3 (F := Ideal)) l).trans ?_
  rw [pay3_lane, zero_add]
  rfl

/-- a later step adds the block's addend to what the step before left in the integer row -/
theorem counts_later_step (c : Dev nD) (t : Fin cfg0.N) (h0 : ¬t.val % 32 = 0) (l : Fin 128) :
    (outsAt0 m c t.val t.isLt).1 (ix3 (0 : Fin 1) (0 : Fin 1) l)
      = (outsAt0 m c (t.val - 1) (Nat.lt_of_le_of_lt (Nat.sub_le _ _) t.isLt)).1 (ix3 (0 : Fin 1) (0 : Fin 1) l) + cAdd m c t l := by
  rw [outsAt0_B m c t h0]; dsimp only
  refine (congrFun (out0_B_2_eq (F := Ideal) c (grid0.coords t) (ms0_0 t) (hs0_0 t) (ms0_1 t) (hs0_1 t) (ms0_2 t) (hs0_2 t)
    (ms0_3 t) (hs0_3 t) (fun h => h0 ((hcond0_0 t).mp h)) (iblk m c 0 t) (iblk m c 1 t)
    (outsAt0 m c (t.val - 1) (Nat.lt_of_le_of_lt (Nat.sub_le _ _) t.isLt)).1
    (outsAt0 m c (t.val - 1) (Nat.lt_of_le_of_lt (Nat.sub_le _ _) t.isLt)).2) (ix3 (0 : Fin 1) (0 : Fin 1) l)).trans ?_
  exact outC_lane (iblk m c 0 t) (iblk m c 1 t) (outsAt0 m c (t.val - 1) (Nat.lt_of_le_of_lt (Nat.sub_le _ _) t.isLt)).1 l

/-- a later step adds the block's addend to what the step before left in the float row -/
theorem s_later_step (c : Dev nD) (t : Fin cfg0.N) (h0 : ¬t.val % 32 = 0) (l : Fin 128) :
    ((outsAt0 m c t.val t.isLt).2 (ix3 (0 : Fin 1) (0 : Fin 1) l) : EReal)
      = ((outsAt0 m c (t.val - 1) (Nat.lt_of_le_of_lt (Nat.sub_le _ _) t.isLt)).2 (ix3 (0 : Fin 1) (0 : Fin 1) l) : EReal) + sAdd m c t l := by
  rw [outsAt0_B m c t h0]; dsimp only
  refine (congrFun (out0_B_3_eq (F := Ideal) c (grid0.coords t) (ms0_0 t) (hs0_0 t) (ms0_1 t) (hs0_1 t) (ms0_2 t) (hs0_2 t)
    (ms0_3 t) (hs0_3 t) (fun h => h0 ((hcond0_0 t).mp h)) (iblk m c 0 t) (iblk m c 1 t)
    (outsAt0 m c (t.val - 1) (Nat.lt_of_le_of_lt (Nat.sub_le _ _) t.isLt)).1
    (outsAt0 m c (t.val - 1) (Nat.lt_of_le_of_lt (Nat.sub_le _ _) t.isLt)).2) (ix3 (0 : Fin 1) (0 : Fin 1) l)).trans ?_
  exact outS_lane (iblk m c 0 t) (iblk m c 1 t) (outsAt0 m c (t.val - 1) (Nat.lt_of_le_of_lt (Nat.sub_le _ _) t.isLt)).2 l

/-! ## The running sums of a half -/

/-- the addends as functions of a natural point number, zero past the grid -/
def cAddN (c : Dev nD) (n : ℕ) (l : Fin 128) : BitVec 32 := if h : n < cfg0.N then cAdd m c ⟨n, h⟩ l else 0#32
def sAddN (c : Dev nD) (n : ℕ) (l : Fin 128) : EReal := if h : n < cfg0.N then sAdd m c ⟨n, h⟩ l else 0

/-- after step `n % 32` of half `n / 32` the integer row holds the word sum of the half's first `n % 32 + 1` blocks' addends -/
theorem counts_running (c : Dev nD) : ∀ (n : ℕ) (h : n < cfg0.N) (l : Fin 128),
    (outsAt0 m c n h).1 (ix3 (0 : Fin 1) (0 : Fin 1) l)
      = ∑ s ∈ Finset.range (n % 32 + 1), cAddN m c (32 * (n / 32) + s) l
  | 0, h, l => by
    refine (counts_first_step m c ⟨0, h⟩ rfl l).trans ?_
    rw [Nat.zero_mod, Nat.zero_div, Finset.sum_range_one]
    unfold cAddN; rw [dif_pos h]
  | n + 1, h, l => by
    by_cases h0 : (n + 1) % 32 = 0
    · refine (counts_first_step m c ⟨n + 1, h⟩ h0 l).trans ?_
      have e : 32 * ((n + 1) / 32) + 0 = n + 1 := by omega
      rw [h0, Finset.sum_range_one, e]
      unfold cAddN; rw [dif_pos h]
    · refine (counts_later_step m c ⟨n + 1, h⟩ h0 l).trans ?_
      show (outsAt0 m c n _).1 _ + _ = _
      rw [counts_running c n (Nat.lt_of_succ_lt h) l]
      have e1 : (n + 1) % 32 = n % 32 + 1 := by omega
      have e2 : (n + 1) / 32 = n / 32 := by omega
      have e3 : 32 * (n / 32) + (n % 32 + 1) = n + 1 := by omega
      rw [e1, e2, Finset.sum_range_succ _ (n % 32 + 1), e3]
      congr 1
      unfold cAddN; rw [dif_pos h]

/-- and the float row the sum of the same blocks' addends -/
theorem s_running (c : Dev nD) : ∀ (n : ℕ) (h : n < cfg0.N) (l : Fin 128),
    ((outsAt0 m c n h).2 (ix3 (0 : Fin 1) (0 : Fin 1) l) : EReal)
      = ∑ s ∈ Finset.range (n % 32 + 1), sAddN m c (32 * (n / 32) + s) l
  | 0, h, l => by
    refine (s_first_step m c ⟨0, h⟩ rfl l).trans ?_
    rw [Nat.zero_mod, Nat.zero_div, Finset.sum_range_one]
    unfold sAddN; rw [dif_pos h]
  | n + 1, h, l => by
    by_cases h0 : (n + 1) % 32 = 0
    · refine (s_first_step m c ⟨n + 1, h⟩ h0 l).trans ?_
      have e : 32 * ((n + 1) / 32) + 0 = n + 1 := by omega
      rw [h0, Finset.sum_range_one, e]
      unfold sAddN; rw [dif_pos h]
    · refine (s_later_step m c ⟨n + 1, h⟩ h0 l).trans ?_
      show ((outsAt0 m c n _).2 _ : EReal) + _ = _
      rw [s_running c n (Nat.lt_of_succ_lt h) l]
      have e1 : (n + 1) % 32 = n % 32 + 1 := by omega
      have e2 : (n + 1) / 32 = n / 32 := by omega
      have e3 : 32 * (n / 32) + (n % 32 + 1) = n + 1 := by omega
      rw [e1, e2, Finset.sum_range_succ _ (n % 32 + 1), e3]
      congr 1
      unfold sAddN; rw [dif_pos h]

/-! ## A whole half -/

/-- the blocks of half `a` are the rows the specification's sums run over -/
theorem blk_rows (c : Dev nD) (a : Fin 2) (k : Fin 32) (h : 32 * a.val + k.val < cfg0.N) :
    blkMat (xblk m c ⟨32 * a.val + k.val, h⟩) = (fun r => Xof m c (rowOf a k r))
    ∧ blkLab (gblk m c ⟨32 * a.val + k.val, h⟩) = (fun r => Gof m c (rowOf a k r)) := by
  constructor
  · funext r j
    exact xblk_apply m c ⟨32 * a.val + k.val, h⟩ r j (rowOf a k r)
      (by show (a.val * 32 + k.val) * 2048 + r.val = 2048 * (32 * a.val + k.val) + r.val; omega)
  · funext r
    exact gblk_apply m c ⟨32 * a.val + k.val, h⟩ r (rowOf a k r)
      (by show (a.val * 32 + k.val) * 2048 + r.val = 2048 * (32 * a.val + k.val) + r.val; omega)

/-- a half's thirty-two addends sum to the specification's count of the half -/
theorem half_counts (c : Dev nD) (a : Fin 2) (l : Fin 128) :
    ∑ s ∈ Finset.range 32, cAddN m c (32 * a.val + s) l
      = (if h : l.val < 10 then cntCore (Xof m c) (Gof m c) a ⟨l.val, h⟩ else 0#32) := by
  have hN : cfg0.N = 64 := N_0
  rw [Finset.sum_range]
  by_cases hl : l.val < 10
  · rw [dif_pos hl]
    unfold cntCore
    refine Finset.sum_congr rfl fun k _ => ?_
    have hk : 32 * a.val + k.val < cfg0.N := by have := a.isLt; have := k.isLt; omega
    unfold cAddN; rw [dif_pos hk]
    unfold cAdd; rw [dif_pos hl]
    obtain ⟨e1, e2⟩ := blk_rows m c a k hk
    rw [e1, e2]
  · rw [dif_neg hl]
    refine Finset.sum_eq_zero fun k _ => ?_
    unfold cAddN
    split
    · unfold cAdd; rw [dif_neg hl]; rfl
    · rfl

/-- and to the specification's weighted cross-entropy of the half -/
theorem half_s (c : Dev nD) (a : Fin 2) (l : Fin 128) :
    ∑ s ∈ Finset.range 32, sAddN m c (32 * a.val + s) l
      = (if h : l.val < 10 then sCore (Xof m c) (Gof m c) a ⟨l.val, h⟩ else 0) := by
  have hN : cfg0.N = 64 := N_0
  rw [Finset.sum_range]
  by_cases hl : l.val < 10
  · rw [dif_pos hl]
    unfold sCore
    refine Finset.sum_congr rfl fun k _ => ?_
    have hk : 32 * a.val + k.val < cfg0.N := by have := a.isLt; have := k.isLt; omega
    unfold sAddN; rw [dif_pos hk]
    unfold sAdd; rw [dif_pos hl]
    obtain ⟨e1, e2⟩ := blk_rows m c a k hk
    rw [e1, e2]
  · rw [dif_neg hl]
    refine Finset.sum_eq_zero fun k _ => ?_
    unfold sAddN
    split
    · unfold sAdd; rw [dif_neg hl]
    · rfl

/-! ## The arrays after the call -/

/-- the two arrays the call leaves, as functions of the whole input -/
abbrev cntArr (c : Dev nD) : S2x1x128.Idx → BitVec 32 := fun i =>
  if h : (i 2).val < 10 then cntCore (Xof m c) (Gof m c) (i 0) ⟨(i 2).val, h⟩ else 0#32
abbrev sArr (c : Dev nD) : S2x1x128.Idx → EReal := fun i =>
  if h : (i 2).val < 10 then sCore (Xof m c) (Gof m c) (i 0) ⟨(i 2).val, h⟩ else 0

/-- a one-row block whose lanes are row `a`'s of an array is that array read at row `a` -/
theorem row_of_array {α : Type} (X : S1x1x128.Idx → α) (Gf : S2x1x128.Idx → α) (a : Fin 2)
    (h : ∀ l : Fin 128, X (ix3 (0 : Fin 1) (0 : Fin 1) l) = Gf (ix3 a (0 : Fin 1) l))
    (y : S1x1x128.Idx) (i : S2x1x128.Idx) (h0 : (i 0).val = a.val) (h2 : (i 2).val = (y 2).val) : X y = Gf i := by
  have ey : y = ix3 (0 : Fin 1) (0 : Fin 1) (y 2) := by
    funext d
    match d with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl
  have ei : i = ix3 a (0 : Fin 1) (y 2) := by
    funext d
    match d with
    | ⟨0, _⟩ => exact Fin.ext h0
    | ⟨1, _⟩ => exact Fin.ext (by have h : (i 1).val < 1 := (i 1).isLt; show (i 1).val = 0; omega)
    | ⟨2, _⟩ => exact Fin.ext h2
  calc X y = X (ix3 (0 : Fin 1) (0 : Fin 1) (y 2)) := congrArg X ey
    _ = Gf (ix3 a (0 : Fin 1) (y 2)) := h (y 2)
    _ = Gf i := (congrArg Gf ei).symm

/-- what the last point of a half writes back is the half's row of the counts -/
theorem counts_written_back (c : Dev nD) (t : Fin cfg0.N) (hf : (cfg0.win 2).flush t = true) :
    (dats m 0 c).flushed 2 t = ((cfg0.win 2).blk t).view.read (Elt Ideal) (cntArr m c) := by
  have hN : cfg0.N = 64 := N_0
  have h31 : t.val % 32 = 31 := (flush0_2 t).mp hf
  have ht : t.val < 64 := lt_of_lt_of_eq t.isLt hN
  obtain ⟨e0, e1, e2, -, -, -⟩ := out_block_index t
  show (cfg0.win 2).cut (grid0.coords t) ((dats m 0 c).after 2 t) = _
  rw [after0_2]
  funext y
  rw [View.read_apply]
  refine row_of_array (outsAt0 m c t.val t.isLt).1 (cntArr m c) ⟨t.val / 32, by omega⟩ (fun l => ?_) y _ ?_ ?_
  · rw [counts_running m c t.val t.isLt l, h31]
    exact half_counts m c ⟨t.val / 32, by omega⟩ l
  · show win0_2.index t 0 * 1 + 1 * (y 0).val = t.val / 32
    have : (y 0).val < 1 := (y 0).isLt
    rw [e0]; omega
  · show win0_2.index t 2 * 128 + 1 * (y 2).val = (y 2).val
    rw [e2]; omega

/-- what the last point of a half writes back is the half's row of the weighted cross-entropies -/
theorem s_written_back (c : Dev nD) (t : Fin cfg0.N) (hf : (cfg0.win 3).flush t = true) :
    (dats m 0 c).flushed 3 t = ((cfg0.win 3).blk t).view.read (Elt Ideal) (sArr m c) := by
  have hN : cfg0.N = 64 := N_0
  have h31 : t.val % 32 = 31 := (flush0_3 t).mp hf
  have ht : t.val < 64 := lt_of_lt_of_eq t.isLt hN
  obtain ⟨-, -, -, e0, e1, e2⟩ := out_block_index t
  show (cfg0.win 3).cut (grid0.coords t) ((dats m 0 c).after 3 t) = _
  rw [after0_3]
  funext y
  rw [View.read_apply]
  refine row_of_array (α := EReal) (outsAt0 m c t.val t.isLt).2 (sArr m c) ⟨t.val / 32, by omega⟩ (fun l => ?_) y _ ?_ ?_
  · rw [s_running m c t.val t.isLt l, h31]
    exact half_s m c ⟨t.val / 32, by omega⟩ l
  · show win0_3.index t 0 * 1 + 1 * (y 0).val = t.val / 32
    have : (y 0).val < 1 := (y 0).isLt
    rw [e0]; omega
  · show win0_3.index t 2 * 128 + 1 * (y 2).val = (y 2).val
    rw [e2]; omega

/-- the integer output after the call: row `a`, lane `l` -/
theorem final_counts (c : Dev nD) (a : Fin 2) (z : Fin 1) (l : Fin 128) :
    (dats (F := Ideal) m 0 c).arrAt 2 cfg0.N (ix3 a z l)
      = (if h : l.val < 10 then cntCore (Xof m c) (Gof m c) a ⟨l.val, h⟩ else 0#32) := by
  have hN : cfg0.N = 64 := N_0
  have ha := a.isLt
  have hl := l.isLt
  have hz : z.val = 0 := by have := z.isLt; omega
  have ht : 32 * a.val + 31 < cfg0.N := by omega
  obtain ⟨e0, e1, e2, -, -, -⟩ := out_block_index ⟨32 * a.val + 31, ht⟩
  refine ((dats m 0 c).arrAt_apply_of_mem 2 (cntArr m c) (counts_written_back m c) cfg0.N ⟨32 * a.val + 31, ht⟩ (ix3 a z l) ht
    ((flush0_2 _).mpr (by show (32 * a.val + 31) % 32 = 31; omega)) ?_).trans rfl
  show ix3 a z l ∈ ((View.whole main_v1_0).slice (win0_2.rect ⟨32 * a.val + 31, ht⟩)).set
  rw [View.set_slice_whole, Rect.mem_set_unit]
  intro d
  match d with
  | ⟨0, _⟩ =>
    show win0_2.index ⟨32 * a.val + 31, ht⟩ 0 * 1 ≤ a.val ∧ a.val < win0_2.index ⟨32 * a.val + 31, ht⟩ 0 * 1 + 1
    rw [e0]; dsimp only; omega
  | ⟨1, _⟩ =>
    show win0_2.index ⟨32 * a.val + 31, ht⟩ 1 * 1 ≤ z.val ∧ z.val < win0_2.index ⟨32 * a.val + 31, ht⟩ 1 * 1 + 1
    rw [e1]; omega
  | ⟨2, _⟩ =>
    show win0_2.index ⟨32 * a.val + 31, ht⟩ 2 * 128 ≤ l.val ∧ l.val < win0_2.index ⟨32 * a.val + 31, ht⟩ 2 * 128 + 128
    rw [e2]; omega

/-- the float output after the call: row `a`, lane `l` -/
theorem final_s (c : Dev nD) (a : Fin 2) (z : Fin 1) (l : Fin 128) :
    ((dats (F := Ideal) m 0 c).arrAt 3 cfg0.N (ix3 a z l) : EReal)
      = (if h : l.val < 10 then sCore (Xof m c) (Gof m c) a ⟨l.val, h⟩ else 0) := by
  have hN : cfg0.N = 64 := N_0
  have ha := a.isLt
  have hl := l.isLt
  have hz : z.val = 0 := by have := z.isLt; omega
  have ht : 32 * a.val + 31 < cfg0.N := by omega
  obtain ⟨-, -, -, e0, e1, e2⟩ := out_block_index ⟨32 * a.val + 31, ht⟩
  refine ((dats m 0 c).arrAt_apply_of_mem 3 (sArr m c) (s_written_back m c) cfg0.N ⟨32 * a.val + 31, ht⟩ (ix3 a z l) ht
    ((flush0_3 _).mpr (by show (32 * a.val + 31) % 32 = 31; omega)) ?_).trans rfl
  show ix3 a z l ∈ ((View.whole main_v1_1).slice (win0_3.rect ⟨32 * a.val + 31, ht⟩)).set
  rw [View.set_slice_whole, Rect.mem_set_unit]
  intro d
  match d with
  | ⟨0, _⟩ =>
    show win0_3.index ⟨32 * a.val + 31, ht⟩ 0 * 1 ≤ a.val ∧ a.val < win0_3.index ⟨32 * a.val + 31, ht⟩ 0 * 1 + 1
    rw [e0]; dsimp only; omega
  | ⟨1, _⟩ =>
    show win0_3.index ⟨32 * a.val + 31, ht⟩ 1 * 1 ≤ z.val ∧ z.val < win0_3.index ⟨32 * a.val + 31, ht⟩ 1 * 1 + 1
    rw [e1]; omega
  | ⟨2, _⟩ =>
    show win0_3.index ⟨32 * a.val + 31, ht⟩ 2 * 128 ≤ l.val ∧ l.val < win0_3.index ⟨32 * a.val + 31, ht⟩ 2 * 128 + 128
    rw [e2]; omega

end Cert.KernelIdeal.KAcc

end
-- ==== Proof.KTail.lean ====
/-
  The kernel program's run and result.  After the pipelined call the host sums the two halves' rows (the integer row
  as words, then read as signed integers; the float row from zero), keeps lanes 0 … 9, derives the ten weights from
  the populations and returns the weighted sum of the ten count-weighted cross-entropies over 2²⁶.  Read off the
  frame run, with the output arrays as the accumulation lemmas give them, that is `lossK` of the input.

  The tail is first written as one function `tailK` of the two output arrays (2 × 1 × 128 words, 2 × 1 × 128 extended
  reals), built from the same array operations as the program.  It is then read lane by lane: lane b of the summed
  integer rows is the word sum over the two halves of the entries (a, 0, b), read signed; lane b of the summed float
  rows is zero plus the sum over the two halves; every later step acts lane by lane (a comparison, a product, a
  choice between two values, a power) or sums the ten lanes from zero, and a scalar spread over the lanes is that
  scalar in every lane.  Lane by lane these are the definitions of the specification's weights, so with the two
  arrays holding each half's populations and count-weighted cross-entropies in lanes 0 … 9 the tail is `lossK`.
-/
import proofs.«428589_j7164005449994_3_alg».proof.Proof.KAcc
import Idealize.ShloMosaic.Lib.StableHlo.Run
import Idealize.ShloMosaic.Lib.ValueIdx
import Idealize.ShloMosaic.Lib.Pipeline.Value
import Idealize.ShloMosaic.PureOps.Reduce
import Idealize.ShloMosaic.PureOps.Ideal.Laws

noncomputable section

namespace Cert.KernelIdeal.KTail

open Cert.KernelIdeal Cert.KernelIdeal.Gen Cert.KernelIdeal.KAcc Idealize.ShloMosaic Idealize.ShloMosaic.TcCoe
open Idealize.ShloMosaic.ValueIdx Idealize.SL.Sem Cert.Ghmc

/-! ## The host tail as one function of the two output arrays -/

section Tail

/-- a float word as a rank-0 array, and a rank-0 array spread over the ten lanes -/
abbrev kc (b : BitVec 32) : FVec Ideal S_ .f32 := constant (F := Ideal) S_ .f32 b
abbrev bc (x : FVec Ideal S_ .f32) : FVec Ideal S10 .f32 := broadcastInDim S10 ![] bcast_S_S10 x

/-- lanes 0 … 9 of the word sum of the two rows of the integer output, read as signed integers -/
def cntV (C : IVec S2x1x128 32) : FVec Ideal S10 .f32 :=
  extractStridedSlice S10 ![0]
    (sitofp (F := Ideal) .f32
      (Host.reduce IntOp.addi (shapeCast S2x128 C shapeCasts_S2x1x128_S2x128) (constantI S_ 32 0#32) reducesTo_S2x128_S128_d0 h_S_))
    slices_S128_S10_0

/-- lanes 0 … 9 of the sum, from zero, of the two rows of the float output -/
def sV (S : FVec Ideal S2x1x128 .f32) : FVec Ideal S10 .f32 :=
  extractStridedSlice S10 ![0]
    (Host.reduceAdd (F := Ideal) (shapeCast S2x128 S shapeCasts_S2x1x128_S2x128) (kc 0x00000000#32) reducesTo_S2x128_S128_d0 h_S_)
    slices_S128_S10_0

variable (cnt : FVec Ideal S10 .f32)

/-- which lanes are populated -/
def popV : IVec S10 1 := cmpf .ogt cnt (bc (kc 0x00000000#32))
/-- how many -/
def nvV : FVec Ideal S_ .f32 := Host.reduceAdd (F := Ideal) (uitofp (F := Ideal) .f32 (popV cnt)) (kc 0x00000000#32) reducesTo_S10_S_d0 h_S_
def accV : FVec Ideal S10 .f32 := select (popV cnt) (mulf (bc (kc 0x3DCCCCCD#32)) cnt) (bc (kc 0x00000000#32))
def posV : IVec S10 1 := cmpf .ogt (accV cnt) (bc (kc 0x00000000#32))
def denV : FVec Ideal S10 .f32 :=
  mulf (bc (maximumf (nvV cnt) (kc 0x3F800000#32))) (select (posV cnt) (accV cnt) (bc (kc 0x3F800000#32)))
def binV : FVec Ideal S10 .f32 := select (posV cnt) (Host.divf (bc (kc 0x4C800000#32)) (denV cnt)) (bc (kc 0x00000000#32))
def wV : FVec Ideal S10 .f32 :=
  Host.powf (select (broadcastInDim S10 ![] bcast_S_S10 (cmpf .ogt (nvV cnt) (kc 0x00000000#32))) (binV cnt) (bc (kc 0x3F800000#32)))
    (bc (kc 0x3F400000#32))

/-- the whole tail -/
def tailK (C : IVec S2x1x128 32) (S : FVec Ideal S2x1x128 .f32) : FVec Ideal S_ .f32 :=
  Host.divf (Host.reduceAdd (F := Ideal) (mulf (wV (cntV C)) (sV S)) (kc 0x00000000#32) reducesTo_S10_S_d0 h_S_) (kc 0x4C800000#32)

end Tail

/-! ## The tail read lane by lane -/

section Read

/-- the same lane of a 128-lane row -/
abbrev lane (b : Fin 10) : Fin 128 := ⟨b.val, by have := b.isLt; omega⟩

theorem reshape_apply {α : Type} (x : S2x1x128.Idx → α) (a : Fin 2) (l : Fin 128) :
    shapeCast S2x128 x shapeCasts_S2x1x128_S2x128 (ix2 a l) = x (ix3 a (0 : Fin 1) l) :=
  shapeCast_apply x shapeCasts_S2x1x128_S2x128 (ix2 a l) (ix3 a (0 : Fin 1) l)
    (by rewrite [Shape.rowMajor_val_three, Shape.rowMajor_val_two]
        show (a.val * 1 + 0) * 128 + l.val = a.val * 128 + l.val
        omega)

theorem lift_rows (h : S2x128.Reduces [0] S128) (l : Fin 128) (a : Fin 2) : h.lift (ix1 l) a = ix2 a l :=
  funext fun d => Fin.ext (by match d with | ⟨0, _⟩ => rfl | ⟨1, _⟩ => rfl)

theorem cntV_apply (C : IVec S2x1x128 32) (b : Fin 10) :
    cntV C (ix1 b) = ((((∑ a : Fin 2, C (ix3 a (0 : Fin 1) (lane b)) : BitVec 32)).toInt : ℝ) : EReal) := by
  unfold cntV
  refine (extractStridedSlice_apply ![0] _ slices_S128_S10_0 (ix1 b) (ix1 (lane b))
    (fun d => match d with | ⟨0, _⟩ => by show b.val = 0 + b.val; omega)).trans ?_
  show (((Host.reduce IntOp.addi (shapeCast S2x128 C shapeCasts_S2x1x128_S2x128) (constantI S_ 32 0#32)
    reducesTo_S2x128_S128_d0 h_S_ (ix1 (lane b))).toInt : ℝ) : EReal) = _
  have hr : S2x128.Reduces [0] S128 := by decide
  rw [Host.reduce_eq_fold_single IntOp.addi _ _ reducesTo_S2x128_S128_d0 hr h_S_ (ix1 (lane b))]
  refine congrArg (fun w : BitVec 32 => ((w.toInt : ℝ) : EReal)) ?_
  refine (Finset.sum_eq_fold _ _).symm.trans (Finset.sum_congr rfl fun a _ => ?_)
  show shapeCast S2x128 C shapeCasts_S2x1x128_S2x128 (hr.lift (ix1 (lane b)) a) = _
  rw [lift_rows hr (lane b) a]
  exact reshape_apply C a (lane b)

theorem sV_apply (S : FVec Ideal S2x1x128 .f32) (b : Fin 10) :
    sV S (ix1 b) = kZero + ∑ a : Fin 2, S (ix3 a (0 : Fin 1) (lane b)) := by
  unfold sV
  refine (extractStridedSlice_apply ![0] _ slices_S128_S10_0 (ix1 b) (ix1 (lane b))
    (fun d => match d with | ⟨0, _⟩ => by show b.val = 0 + b.val; omega)).trans ?_
  have hr : S2x128.Reduces [0] S128 := by decide
  simp only [Host.reduceAdd, Ideal.hostReduceAdd_def]
  rw [Ideal.hostReduceAdd_single reducesTo_S2x128_S128_d0 hr]
  refine congrArg (kZero + ·) (Finset.sum_congr rfl fun a _ => ?_)
  rw [lift_rows hr (lane b) a]
  exact reshape_apply S a (lane b)

end Read

/-! ## The weights read lane by lane -/

section Weights
variable (cnt : FVec Ideal S10 .f32)

/-- ten lanes as a function of the bin -/
abbrev lanes : Fin 10 → EReal := fun b => cnt (ix1 b)

/-- how many bins are populated, from the ten populations -/
def nvW (c : Fin 10 → EReal) : EReal := kZero + ∑ b : Fin 10, ((((popd c b).toNat : ℝ)) : EReal)

theorem bcast_apply {α : Type} (x : S_.Idx → α) (i : S10.Idx) : broadcastInDim S10 ![] bcast_S_S10 x i = x ix0 :=
  broadcastInDim_apply _ bcast_S_S10 x i ix0 (fun a => a.elim0)

theorem bc_apply (x : FVec Ideal S_ .f32) (i : S10.Idx) : bc x i = x ix0 := bcast_apply x i

/-- a ten-lane index is its one coordinate … -/
def idxEquiv1 : S10.Idx ≃ Fin 10 where
  toFun i := i 0
  invFun := ix1
  left_inv i := (eq_ix1 i).symm
  right_inv _ := rfl

/-- … so a sum over the lanes is a sum over the ten bins -/
theorem sum_lanes (x : S10.Idx → EReal) : ∑ i : S10.Idx, x i = ∑ b : Fin 10, x (ix1 b) :=
  (Equiv.sum_comp idxEquiv1.symm x).symm

/-- a sum over the ten lanes from zero -/
theorem reduce10_apply (x : FVec Ideal S10 .f32) (k : S_.Idx) :
    Host.reduceAdd (F := Ideal) x (kc 0x00000000#32) reducesTo_S10_S_d0 h_S_ k = kZero + ∑ b : Fin 10, x (ix1 b) := by
  simp only [Host.reduceAdd, Ideal.hostReduceAdd_def]
  rw [Ideal.hostReduceAdd_total reducesTo_S10_S_d0 (fun d => d.elim0), sum_lanes]
  rfl

theorem nvV_apply (k : S_.Idx) : nvV cnt k = nvW (lanes cnt) := by
  unfold nvV
  rw [reduce10_apply]
  rfl

theorem accV_apply (b : Fin 10) : accV cnt (ix1 b) = accW (lanes cnt) b := rfl

theorem posV_apply (b : Fin 10) : posV cnt (ix1 b) = posW (lanes cnt) b := rfl

theorem denV_apply (b : Fin 10) : denV cnt (ix1 b) = denW (lanes cnt) (nvW (lanes cnt)) b := by
  unfold denV
  show bc (maximumf (nvV cnt) (kc 0x3F800000#32)) (ix1 b)
      * Scalar.select (posV cnt (ix1 b)) (accV cnt (ix1 b)) (bc (kc 0x3F800000#32) (ix1 b)) = _
  rw [bc_apply]
  show max (nvV cnt ix0) kOne * _ = _
  rw [nvV_apply]
  rfl

theorem binV_apply (b : Fin 10) : binV cnt (ix1 b) = binW (lanes cnt) (nvW (lanes cnt)) b := by
  unfold binV
  show Scalar.select (posV cnt (ix1 b)) (Ideal.div kTot (denV cnt (ix1 b))) kZero = _
  rw [denV_apply]
  rfl

theorem wV_apply (b : Fin 10) :
    wV cnt (ix1 b)
      = Ideal.pow (Scalar.select (Ideal.cmp .ogt (nvW (lanes cnt)) kZero) (binW (lanes cnt) (nvW (lanes cnt)) b) kOne) kAlpha := by
  unfold wV
  show Ideal.pow (Scalar.select (broadcastInDim S10 ![] bcast_S_S10 (cmpf .ogt (nvV cnt) (kc 0x00000000#32)) (ix1 b))
    (binV cnt (ix1 b)) kOne) kAlpha = _
  rw [bcast_apply, binV_apply]
  show Ideal.pow (Scalar.select (Ideal.cmp .ogt (nvV cnt ix0) kZero) _ kOne) kAlpha = _
  rw [nvV_apply]

end Weights

/-! ## The tail of the two arrays the accumulation leaves is the loss -/

theorem tailK_apply (C : IVec S2x1x128 32) (S : FVec Ideal S2x1x128 .f32) (k : S_.Idx) :
    tailK C S k = Ideal.div (kZero + ∑ b : Fin 10, wV (cntV C) (ix1 b) * sV S (ix1 b)) kTot := by
  unfold tailK
  show Ideal.div (Host.reduceAdd (F := Ideal) (mulf (wV (cntV C)) (sV S)) (kc 0x00000000#32) reducesTo_S10_S_d0 h_S_ k) kTot = _
  rw [reduce10_apply]
  rfl

theorem tailK_eq (X : Fin 131072 → Fin 512 → EReal) (G : Fin 131072 → BitVec 32)
    (C : IVec S2x1x128 32) (S : FVec Ideal S2x1x128 .f32)
    (hC : ∀ (a : Fin 2) (z : Fin 1) (l : Fin 128),
      C (ix3 a z l) = if h : l.val < 10 then cntCore X G a ⟨l.val, h⟩ else 0#32)
    (hS : ∀ (a : Fin 2) (z : Fin 1) (l : Fin 128),
      S (ix3 a z l) = if h : l.val < 10 then sCore X G a ⟨l.val, h⟩ else 0) :
    tailK C S = fun _ => lossK X G := by
  funext k
  have hc : lanes (cntV C) = cntK X G := funext fun b => by
    show cntV C (ix1 b) = _
    rw [cntV_apply]
    exact congrArg (fun w : BitVec 32 => ((w.toInt : ℝ) : EReal))
      (Finset.sum_congr rfl fun a _ => (hC a 0 (lane b)).trans (dif_pos b.isLt))
  have hs : ∀ b : Fin 10, sV S (ix1 b) = sK X G b := fun b => by
    rw [sV_apply]
    exact congrArg (kZero + ·) (Finset.sum_congr rfl fun a _ => (hS a 0 (lane b)).trans (dif_pos b.isLt))
  rw [tailK_apply]
  unfold lossK
  refine congrArg (fun x => Ideal.div (kZero + x) kTot) (Finset.sum_congr rfl fun b _ => ?_)
  rw [wV_apply, hc, hs b]
  rfl

/-! ## The run -/

section Run
variable (m : (ℓ : Loc nD τ sig) → Buf (Elt Ideal) ℓ)

/-- The host operations after the call, from any contents: the result is the tail of the two output arrays. -/
theorem tail_after (W : Valuation τ sig (Elt Ideal)) :
    StableHlo.after (List.flatten [hostOps1, hostOps1_1, hostOps1_2, hostOps1_3, hostOps1_4, hostOps1_5, hostOps1_6, hostOps1_7, hostOps1_8]) W (Proc.devRef .tc main_v33)
      = tailK (W (Proc.devRef .tc main_v1_0)) (W (Proc.devRef .tc main_v1_1)) := by
  simp only [hostOps1, hostOps1_1, hostOps1_2, hostOps1_3, hostOps1_4, hostOps1_5, hostOps1_6, hostOps1_7, hostOps1_8, List.flatten_cons, List.flatten_nil, List.append_nil, List.cons_append, List.nil_append]
  after_results_simp
  rfl

/-- The result buffer after the whole program: the loss of the core's input. -/
theorem tail_value (c : Dev nD) :
    Pipeline.afterTail₀ cfgs (dats (F := Ideal) m) 0 (V0 m) [hostOps1, hostOps1_1, hostOps1_2, hostOps1_3, hostOps1_4, hostOps1_5, hostOps1_6, hostOps1_7, hostOps1_8] c main_v33
      = fun _ => lossK (Xof m c) (Gof m c) := by
  unfold Pipeline.afterTail₀
  refine (tail_after _).trans ?_
  refine tailK_eq (Xof m c) (Gof m c) _ _ (fun a z l => ?_) (fun a z l => ?_)
  · exact (congrFun (Pipeline.withArrays_arr spec0 launch0.win.arr_inj c (V0 m c)
      (fun w => (dats (F := Ideal) m 0 c).arrAt w cfg0.N) 2) (ix3 a z l)).trans (final_counts m c a z l)
  · exact (congrFun (Pipeline.withArrays_arr spec0 launch0.win.arr_inj c (V0 m c)
      (fun w => (dats (F := Ideal) m 0 c).arrAt w cfg0.N) 3) (ix3 a z l)).trans (final_s m c a z l)

end Run

theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v33) = (fun _ => lossK (Xof m c) (Gof m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v33 (Pipeline.mem_restRefs_of main_v33 (by decide) (by decide))).trans (tail_value m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.KTail

end
-- ==== Proof.RefSoft.lean ====
/-
  The reference's soft-max and bins, entry by entry: stage `val_main_v11` (the exponentials of a row shifted by its
  maximum, over their sum) at (i, j) is `pR` of row i at column j; stage `val_main_v17` (ten times the distance to the
  one-hot label, truncated to a word and clipped to 0 … 9) is `binR`.  The row's maximum is a fold of `max` from −∞ over
  the row's 512 entries; every other operation reads one element of each operand, a broadcast at the coordinates it
  keeps.
-/
import proofs.«428589_j7164005449994_3_alg».proof.Proof.RefRead
import proofs.«428589_j7164005449994_3_alg».proof.Proof.Args
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefSoft

open Cert.ReferenceIdeal Cert.ReferenceIdeal.Gen Cert.ReferenceIdeal.PRead Idealize.ShloMosaic Idealize.ShloMosaic.TcCoe
open Idealize.ShloMosaic.ValueIdx Idealize.SL.Sem Cert.Ghmc

variable (x0 : (⟨S131072x512, .f32⟩ : BufTy).Contents (Elt Ideal)) (x1 : (⟨S131072, .i32⟩ : BufTy).Contents (Elt Ideal))

/-! ## The soft-max of a row -/

/-- A row's maximum: the fold of `max` from the initial value over the row's 512 entries. -/
theorem row_max_fold (x : S131072x512.Idx → EReal) (init : S_.Idx → EReal) (i : Fin 131072) :
    Host.reduce (FloatOps.maximumf (F := Ideal) (φ := .f32)) x init reducesTo_S131072x512_S131072_d1 h_S_ (ix1 i)
      = (Finset.univ : Finset (Fin 512)).fold max (init (Shape.Idx.first h_S_)) (fun j => x (ix2 i j)) := by
  have hR : S131072x512.Reduces [1] S131072 := by decide
  rw [Host.reduce_eq_fold_single (FloatOps.maximumf (F := Ideal) (φ := .f32)) x init reducesTo_S131072x512_S131072_d1
    hR h_S_ (ix1 i)]
  refine congrArg (fun f => (Finset.univ : Finset (Fin 512)).fold max (init (Shape.Idx.first h_S_)) f) ?_
  funext k
  exact congrArg x (funext fun a => Fin.ext (by match a with | ⟨0, _⟩ => rfl | ⟨1, _⟩ => rfl))

/-- The row's maximum from −∞. -/
theorem v1_at (i : Fin 131072) : val_main_v1 (F := Ideal) x0 (ix1 i) = rmax (matOf x0 i) :=
  (row_max_fold x0 (val_main_cst (F := Ideal)) i).trans rfl

/-- The shift: the maximum of −∞ and the row's maximum. -/
theorem v3_at (i : Fin 131072) : val_main_v3 (F := Ideal) x0 (ix1 i) = shR (matOf x0 i) := by
  rw [val_main_v3_apply, val_main_v2_apply, val_main_cst_0_apply, v1_at]
  rfl

/-- The shift, broadcast along the row. -/
theorem v5_at (i : Fin 131072) (j : Fin 512) : val_main_v5 (F := Ideal) x0 (ix2 i j) = shR (matOf x0 i) := by
  rw [val_main_v5_apply, val_main_v4_apply,
    show idx_main_v4 (idx_main_v5 (ix2 i j)) = ix1 i from funext fun a => Fin.ext (by match a with | ⟨0, _⟩ => rfl), v3_at]

/-- The exponential of the shifted entry. -/
theorem v7_at (i : Fin 131072) (j : Fin 512) : val_main_v7 (F := Ideal) x0 (ix2 i j) = exR (matOf x0 i) j := by
  rw [val_main_v7_apply, val_main_v6_apply, v5_at]
  rfl

/-- The row's sum of exponentials, from zero. -/
theorem v8_at (i : Fin 131072) : val_main_v8 (F := Ideal) x0 (ix1 i) = smR (matOf x0 i) := by
  rw [val_main_v8_apply, val_main_cst_1_apply]
  refine congrArg (FloatOps.ofBits (F := Ideal) .f32 0x00000000#32 + ·) (Finset.sum_congr rfl fun k _ => ?_)
  rw [show idx_main_v8 (ix1 i) k = ix2 i k from
    funext fun a => Fin.ext (by match a with | ⟨0, _⟩ => rfl | ⟨1, _⟩ => rfl), v7_at]

/-- The sum, broadcast along the row. -/
theorem v10_at (i : Fin 131072) (j : Fin 512) : val_main_v10 (F := Ideal) x0 (ix2 i j) = smR (matOf x0 i) := by
  rw [val_main_v10_apply, val_main_v9_apply,
    show idx_main_v9 (idx_main_v10 (ix2 i j)) = ix1 i from funext fun a => Fin.ext (by match a with | ⟨0, _⟩ => rfl), v8_at]

theorem v11_apply (i : Fin 131072) (j : Fin 512) :
    (val_main_v11 (F := Ideal) x0 (ix2 i j) : EReal) = pR (matOf x0 i) j := by
  rw [val_main_v11_apply, v7_at, v10_at]
  rfl

/-! ## The one-hot of the label, the distance, the bin -/

/-- The one-hot: the label of row i compared with the column's number, read unsigned. -/
theorem v0_at (i : Fin 131072) (j : Fin 512) : val_main_v0 (F := Ideal) x1 (ix2 i j) = ohR (labOf x1 i) j := by
  rw [val_main_v0_apply, val_main_call0_v4_apply, val_main_call0_v2_apply, val_main_call0_v0_apply,
    show idx_main_call0_v0 (idx_main_call0_v2 (ix2 i j)) = ix1 i from
      funext fun a => Fin.ext (by match a with | ⟨0, _⟩ => rfl),
    val_main_call0_v3_apply, val_main_call0_v1_apply]
  rfl

/-- Ten times the distance between the probability and the one-hot. -/
theorem v15_at (i : Fin 131072) (j : Fin 512) :
    val_main_v15 (F := Ideal) x0 x1 (ix2 i j) = tR (matOf x0 i) (labOf x1 i) j := by
  rw [val_main_v15_apply, val_main_v13_apply, val_main_v12_apply, v11_apply, v0_at, val_main_v14_apply,
    val_main_cst_2_apply]
  rfl

theorem v17_apply (i : Fin 131072) (j : Fin 512) :
    val_main_v17 (F := Ideal) x0 x1 (ix2 i j) = binR (matOf x0 i) (labOf x1 i) j := by
  rw [val_main_v17_apply, val_main_call1_v4_apply, val_main_call1_v3_apply, val_main_c_3_apply, val_main_call1_v2_apply,
    val_main_call1_v1_apply, val_main_call1_v0_apply, val_main_c_apply, val_main_v16_apply, v15_at]
  rfl

end Cert.ReferenceIdeal.RefSoft

end
-- ==== Proof.RefParts.lean ====
/-
  The operations of the reference program that are not read element by element, each read at an index over
  variables of the program's literal shapes: a row's maximum as a fold of `max` over the row, the sum of ten words,
  the conjunction over an axis of length one, the scatter that counts the bins as a double sum over rows and
  columns, the two gathers (a table of ten entries at a clamped slot; a row at a clamped column), and a select whose
  predicate is one broadcast bit.
-/
import Idealize.ShloMosaic.Lib.ValueIdx
import Idealize.ShloMosaic.Lib.Pipeline.Value
import Idealize.ShloMosaic.PureOps.Ideal.Laws
import Idealize.ShloMosaic.PureOps.Reduce
import Mathlib.Algebra.BigOperators.Group.Finset.Basic
import proofs.«428589_j7164005449994_3_alg».proof.Proof.Gen.ReferenceIdeal
import proofs.«428589_j7164005449994_3_alg».proof.Proof.Spec
import proofs.«428589_j7164005449994_3_alg».proof.Proof.Args

noncomputable section

namespace Cert.ReferenceIdeal.RefParts

open Cert.ReferenceIdeal Cert.ReferenceIdeal.Gen Idealize.ShloMosaic Idealize.ShloMosaic.ValueIdx Cert.Ghmc
open scoped BigOperators

/-! ## Two indices with the same coordinates are equal: by rank -/

/-- Closes an equation between two rank-1 indices whose coordinates agree by computation. -/
macro "idx_eq1" : tactic => `(tactic| exact funext fun a => Fin.ext (by match a with | ⟨0, _⟩ => rfl))
/-- The same at rank 2. -/
macro "idx_eq2" : tactic => `(tactic| exact funext fun a => Fin.ext (by match a with | ⟨0, _⟩ => rfl | ⟨1, _⟩ => rfl))
/-- The same at rank 3. -/
macro "idx_eq3" : tactic =>
  `(tactic| exact funext fun a => Fin.ext (by match a with | ⟨0, _⟩ => rfl | ⟨1, _⟩ => rfl | ⟨2, _⟩ => rfl))

/-! ## Indices of rank one and the flat index of the 131072 × 512 array -/

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The flat position of entry (i, k) of the 131072 × 512 array, rows first. -/
def flat (i : Fin 131072) (k : Fin 512) : Fin 67108864 :=
  ⟨i.val * 512 + k.val, by have := i.isLt; have := k.isLt; omega⟩

/-- The flat positions are the pairs (row, column). -/
def flatEquiv : (⟨1, ![67108864]⟩ : Shape).Idx ≃ Fin 131072 × Fin 512 where
  toFun j := (⟨(j 0).val / 512, by have h : (j 0).val < 67108864 := (j 0).isLt; omega⟩,
    ⟨(j 0).val % 512, Nat.mod_lt _ (by decide)⟩)
  invFun p := ix1 (flat p.1 p.2)
  left_inv j := by
    funext a
    match a with
    | ⟨0, _⟩ =>
      refine Fin.ext ?_
      show (j 0).val / 512 * 512 + (j 0).val % 512 = (j 0).val
      omega
  right_inv p := by
    obtain ⟨i, k⟩ := p
    have hi := i.isLt
    have hk := k.isLt
    refine Prod.ext (Fin.ext ?_) (Fin.ext ?_)
    · show (i.val * 512 + k.val) / 512 = i.val
      omega
    · show (i.val * 512 + k.val) % 512 = k.val
      omega

/-- A sum over the flat positions is the double sum over rows and columns. -/
theorem sum_flat {M : Type*} [AddCommMonoid M] (f : (⟨1, ![67108864]⟩ : Shape).Idx → M) :
    ∑ j, f j = ∑ i : Fin 131072, ∑ k : Fin 512, f (ix1 (flat i k)) := by
  rw [← Equiv.sum_comp flatEquiv.symm f, Fintype.sum_prod_type]
  rfl

/-! ## Reductions that are folds -/

/-- A row's maximum: the fold of `max` from the initial value over the row's 512 entries. -/
theorem rowmax_apply (x : S131072x512.Idx → EReal) (init : S_.Idx → EReal) (i : Fin 131072) :
    Host.reduce (FloatOps.maximumf (F := Ideal) (φ := .f32)) x init reducesTo_S131072x512_S131072_d1 h_S_ (ix1 i)
      = (Finset.univ : Finset (Fin 512)).fold max (init (Shape.Idx.first h_S_)) (fun j => x (ix2 i j)) := by
  rw [Host.reduce_eq_fold_single (FloatOps.maximumf (F := Ideal) (φ := .f32)) x init reducesTo_S131072x512_S131072_d1
    (by decide) h_S_ (ix1 i)]
  refine congrArg (fun f => (Finset.univ : Finset (Fin 512)).fold max (init (Shape.Idx.first h_S_)) f) ?_
  funext k
  exact congrArg x (funext fun a => Fin.ext (by match a with | ⟨0, _⟩ => rfl | ⟨1, _⟩ => rfl))

/-- A fold of word addition from `b` is `b` plus the sum. -/
theorem fold_addi_eq {ι : Type*} (s : Finset ι) (b : BitVec 32) (f : ι → BitVec 32) :
    s.fold (IntOp.addi (w := 32)) b f = b + ∑ i ∈ s, f i := by
  classical
  induction s using Finset.induction_on with
  | empty => rw [Finset.fold_empty, Finset.sum_empty, add_zero]
  | insert a s ha ih =>
    rw [Finset.fold_insert ha, Finset.sum_insert ha, ih]
    show f a + (b + ∑ i ∈ s, f i) = b + (f a + ∑ i ∈ s, f i)
    exact add_left_comm _ _ _

/-- The sum of ten words from the initial word. -/
theorem sumwords_apply (x : S10.Idx → BitVec 32) (init : S_.Idx → BitVec 32) (j : S_.Idx) :
    Host.reduce (IntOp.addi (w := 32)) x init reducesTo_S10_S_d0 h_S_ j
      = init (Shape.Idx.first h_S_) + ∑ b : Fin 10, x (ix1 b) := by
  rw [Host.reduce_eq_fold (IntOp.addi (w := 32)) x init reducesTo_S10_S_d0 h_S_ j,
    Finset.filter_true_of_mem (fun i _ => funext fun b => b.elim0), fold_addi_eq]
  exact congrArg (init (Shape.Idx.first h_S_) + ·) (sum_idx1 x)

/-- A conjunction over an axis of length one, from the bit 1: the one conjunct. -/
theorem andall_apply (x : S131072x1x1.Idx → BitVec 1) (init : S_.Idx → BitVec 1) (hinit : init (Shape.Idx.first h_S_) = 1#1)
    (i : Fin 131072) :
    Host.reduce (IntOp.andi (w := 1)) x init reducesTo_S131072x1x1_S131072x1_d2 h_S_ (ix2 i (0 : Fin 1))
      = x (ix3 i (0 : Fin 1) (0 : Fin 1)) := by
  have hR : S131072x1x1.Reduces [2] S131072x1 := by decide
  have hx : ∀ a : BitVec 1, IntOp.andi a 1#1 = a := by decide
  have hl : hR.lift (ix2 i (0 : Fin 1)) (0 : Fin 1) = ix3 i (0 : Fin 1) (0 : Fin 1) :=
    funext fun a => Fin.ext (by match a with | ⟨0, _⟩ => rfl | ⟨1, _⟩ => rfl | ⟨2, _⟩ => rfl)
  rw [Host.reduce_eq_fold_single (IntOp.andi (w := 1)) x init reducesTo_S131072x1x1_S131072x1_d2 hR h_S_
    (ix2 i (0 : Fin 1)), hinit]
  refine (congrArg (fun s : Finset (Fin 1) => s.fold (IntOp.andi (w := 1)) 1#1 (x ∘ hR.lift (ix2 i (0 : Fin 1))))
    (Finset.univ_unique (α := Fin 1))).trans ?_
  refine (Finset.fold_singleton (op := IntOp.andi (w := 1)) (f := x ∘ hR.lift (ix2 i (0 : Fin 1))) (b := 1#1)
    (a := (default : Fin 1))).trans ?_
  rw [hx]
  exact congrArg x hl

/-! ## The scatter that counts -/

/-- The program's dimension numbers of the counting scatter, by a short name. -/
abbrev cntDims : ScatterDims S10 S67108864x1 S67108864 := scatter_S10_S67108864x1_S67108864_n_0_0_1

/-- Update `j` starts at its own entry of the index column, read signed; its window coordinate is zero. -/
theorem count_start (idx : IVec S67108864x1 32) (j : S67108864.Idx) (a : Fin S10.rank) :
    cntDims.start j idx a + (cntDims.window j a : ℤ) = (idx (ix2 (j 0) (0 : Fin 1))).toInt := by
  obtain rfl : a = 0 := Subsingleton.elim _ _
  unfold ScatterDims.start ScatterDims.window
  rw [dif_pos (show (0 : Fin 1) ∈ cntDims.scatterDimsToOperandDims from List.mem_singleton.mpr rfl),
    dif_neg (show ¬ (0 : Fin 1) ∈ cntDims.sKept from by decide)]
  have hsi : cntDims.siIdx j ⟨List.idxOf (0 : Fin 1) cntDims.scatterDimsToOperandDims,
      List.idxOf_lt_length_iff.2 (List.mem_singleton.mpr rfl)⟩ = ix2 (j 0) (0 : Fin 1) := by
    funext c; refine Fin.ext ?_
    match c with
    | ⟨0, _⟩ => rfl
    | ⟨1, _⟩ => rfl
  rw [hsi]
  exact add_zero _

/-- Update `j` lands on slot `b` exactly when its start, read signed, is `b`. -/
theorem count_resultIdx (idx : IVec S67108864x1 32) (j : S67108864.Idx) (b : Fin 10) :
    cntDims.resultIdx? j idx = some (ix1 b) ↔ (idx (ix2 (j 0) (0 : Fin 1))).toInt = (b.val : ℤ) := by
  have hb := b.isLt
  unfold ScatterDims.resultIdx?
  split
  · next h =>
    have h0 := h 0
    rw [count_start idx j 0] at h0
    have h1 : (idx (ix2 (j 0) (0 : Fin 1))).toInt < 10 := h0.2
    rw [Option.some.injEq]
    constructor
    · intro e
      have e0 : ((cntDims.start j idx 0 + (cntDims.window j 0 : ℤ)).toNat) = b.val := congrArg (fun f => (f 0).val) e
      rw [count_start idx j 0] at e0
      omega
    · intro e
      funext a
      obtain rfl : a = 0 := Subsingleton.elim _ _
      refine Fin.ext ?_
      show ((cntDims.start j idx 0 + (cntDims.window j 0 : ℤ)).toNat) = b.val
      rw [count_start idx j 0]
      omega
  · next h =>
    constructor
    · intro e; exact absurd e (by simp)
    · intro e
      refine absurd (fun a => ?_) h
      rw [count_start idx j a, e]
      obtain rfl : a = 0 := Subsingleton.elim _ _
      refine ⟨by omega, ?_⟩
      show (b.val : ℤ) < 10
      omega

/-- THE COUNT: slot `b` of the scatter is the operand's entry plus, over all rows and columns, the update of every
    entry whose start, read signed, is `b`. -/
theorem count_apply (x : FVec Ideal S10 .f32) (idx : IVec S67108864x1 32) (upd : FVec Ideal S67108864 .f32) (b : Fin 10) :
    Host.scatterAdd (F := Ideal) scatter_S10_S67108864x1_S67108864_n_0_0_1 x idx upd (ix1 b)
      = x (ix1 b) + ∑ i : Fin 131072, ∑ k : Fin 512,
          if (idx (ix2 (flat i k) (0 : Fin 1))).toInt = (b.val : ℤ) then upd (ix1 (flat i k)) else 0 := by
  show Ideal.hostScatterAdd cntDims x idx upd (ix1 b) = _
  unfold Ideal.hostScatterAdd
  refine congrArg (x (ix1 b) + ·) ?_
  rw [Finset.sum_filter, sum_flat]
  refine Finset.sum_congr rfl fun i _ => Finset.sum_congr rfl fun k _ => ?_
  exact if_congr (count_resultIdx idx (ix1 (flat i k)) b) rfl rfl

/-! ## The two gathers -/

/-- The table of ten entries read at a start index: the start, read signed, clamped into 0 … 9. -/
theorem table_apply {α : Type} (x : S10.Idx → α) (idx : IVec S131072x512x1 32) (i : Fin 131072) (j : Fin 512) :
    Host.gather gather_S10_S131072x512x1_S131072x512_n_0_n_n_0_2_1 x idx (ix2 i j)
      = x (ix1 ⟨min (idx (ix3 i j (0 : Fin 1))).toInt.toNat 9, by omega⟩) := by
  have e : gather_S10_S131072x512x1_S131072x512_n_0_n_n_0_2_1
      = takeDims 10 131072 512 gather_S10_S131072x512x1_S131072x512_n_0_n_n_0_2_1_wf := rfl
  have ht : takeIdx (ix2 i j) = ix3 i j (0 : Fin 1) :=
    funext fun a => Fin.ext (by match a with | ⟨0, _⟩ => rfl | ⟨1, _⟩ => rfl | ⟨2, _⟩ => rfl)
  rw [e]
  refine (gather_take_apply (by decide) _ x idx (ix2 i j)).trans ?_
  refine congrArg x (congrArg ix1 (Fin.ext ?_))
  show min (idx (takeIdx (ix2 i j))).toInt.toNat (10 - 1) = min (idx (ix3 i j (0 : Fin 1))).toInt.toNat 9
  rw [ht]

/-- The program's dimension numbers of the gather along a row, by a short name. -/
abbrev colDims : GatherDims S131072x512 S131072x1x1 S131072x1 := gather_S131072x512_S131072x1x1_S131072x1_n_1_0_0_1_2_11

/-- A row read at a start column: row `i` of the operand at the start of row `i`, read signed, clamped into 0 … 511. -/
theorem column_apply {α : Type} (x : S131072x512.Idx → α) (idx : IVec S131072x1x1 32) (i : Fin 131072) :
    Host.gather gather_S131072x512_S131072x1x1_S131072x1_n_1_0_0_1_2_11 x idx (ix2 i (0 : Fin 1))
      = x (ix2 i ⟨min (idx (ix3 i (0 : Fin 1) (0 : Fin 1))).toInt.toNat 511, by omega⟩) := by
  unfold Host.gather
  refine congrArg x (funext fun a => Fin.ext ?_)
  match a with
  | ⟨0, _⟩ =>
    show colDims.start (ix2 i (0 : Fin 1)) idx 0 + colDims.batchCoord (ix2 i (0 : Fin 1)) 0
      + colDims.offCoord (ix2 i (0 : Fin 1)) 0 = i.val
    rw [colDims.start_batching _ _ _ (List.mem_singleton.mpr rfl), GatherDims.offCoord_eq_zero _ _ _ (by decide)]
    unfold GatherDims.batchCoord
    rw [dif_pos (show (0 : Fin 2) ∈ colDims.operandBatchingDims from List.mem_singleton.mpr rfl), Nat.zero_add,
      Nat.add_zero]
    rfl
  | ⟨1, _⟩ =>
    show colDims.start (ix2 i (0 : Fin 1)) idx 1 + colDims.batchCoord (ix2 i (0 : Fin 1)) 1
      + colDims.offCoord (ix2 i (0 : Fin 1)) 1 = min (idx (ix3 i (0 : Fin 1) (0 : Fin 1))).toInt.toNat 511
    rw [GatherDims.batchCoord_eq_zero _ _ _ (by decide), GatherDims.offCoord_eq_zero _ _ _ (by decide)]
    unfold GatherDims.start
    rw [dif_pos (show (1 : Fin 2) ∈ colDims.startIndexMap from List.mem_singleton.mpr rfl)]
    have hsi : colDims.siIdx (ix2 i (0 : Fin 1)) ⟨List.idxOf (1 : Fin 2) colDims.startIndexMap,
        List.idxOf_lt_length_iff.2 (List.mem_singleton.mpr rfl)⟩ = ix3 i (0 : Fin 1) (0 : Fin 1) := by
      funext c; refine Fin.ext ?_
      match c with
      | ⟨0, _⟩ => rfl
      | ⟨1, _⟩ => rfl
      | ⟨2, _⟩ => rfl
    rw [hsi]
    rfl

/-! ## A select whose predicate is one broadcast bit -/

/-- Every entry of the select reads the one bit. -/
theorem select_scalar_apply {α : Type} (p : S_.Idx → BitVec 1) (a b : S131072x512.Idx → α) (y : S131072x512.Idx) :
    select (broadcastInDim S131072x512 ![] bcast_S_S131072x512 p) a b y = Scalar.select (p ix0) (a y) (b y) := by
  show Scalar.select (broadcastInDim S131072x512 ![] bcast_S_S131072x512 p y) (a y) (b y) = _
  rw [broadcastInDim_apply _ bcast_S_S131072x512 p y ix0 (fun c => c.elim0)]

end Cert.ReferenceIdeal.RefParts

end
-- ==== Proof.RefCounts.lean ====
/-
  The reference's bin populations: the scatter of ones at every entry's slot of a ten-entry table of zeros holds at
  entry b the number of entries whose slot, read signed, is b — the flat index of the 67108864 updates re-read as
  (row, column).
-/
import proofs.«428589_j7164005449994_3_alg».proof.Proof.RefSoft
import proofs.«428589_j7164005449994_3_alg».proof.Proof.RefParts
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefCounts

open Cert.ReferenceIdeal Cert.ReferenceIdeal.Gen Cert.ReferenceIdeal.PRead Idealize.ShloMosaic Idealize.ShloMosaic.TcCoe
open Idealize.ShloMosaic.ValueIdx Idealize.SL.Sem Cert.Ghmc Cert.ReferenceIdeal.RefSoft

variable (x0 : (⟨S131072x512, .f32⟩ : BufTy).Contents (Elt Ideal)) (x1 : (⟨S131072, .i32⟩ : BufTy).Contents (Elt Ideal))

/-- the index column at the flat position of entry (i, k) holds that entry's slot: the bin, counted from the end of the
    ten-entry table if negative -/
theorem slot_apply (i : Fin 131072) (k : Fin 512) :
    val_main_v25 (F := Ideal) x0 x1 (ix2 (RefParts.flat i k) (0 : Fin 1)) = slotR (matOf x0) (labOf x1) i k := by
  have hi := i.isLt
  have hk := k.isLt
  have e25 : idx_main_v25 (ix2 (RefParts.flat i k) (0 : Fin 1)) = ix1 (RefParts.flat i k) :=
    funext fun a => Fin.ext (by match a with | ⟨0, _⟩ => rfl)
  have e19 : idx_main_v19 (ix1 (RefParts.flat i k)) = ix2 i k :=
    funext fun a => Fin.ext (by
      match a with
      | ⟨0, _⟩ => show (i.val * 512 + k.val) / 512 = i.val; omega
      | ⟨1, _⟩ => show (i.val * 512 + k.val) % 512 = k.val; omega)
  have h19 : val_main_v19 (F := Ideal) x0 x1 (ix1 (RefParts.flat i k)) = binR (matOf x0 i) (labOf x1 i) k := by
    rw [val_main_v19_apply, e19, v17_apply]
  rw [val_main_v25_apply, e25, val_main_v24_apply, val_main_v21_apply, val_main_v23_apply, h19, val_main_v20_apply,
    val_main_c_5_apply, val_main_v22_apply, val_main_c_6_apply]
  rfl

theorem v27_apply (b : Fin 10) :
    (val_main_v27 (F := Ideal) x0 x1 (ix1 b) : EReal) = cntR (matOf x0) (labOf x1) b := by
  unfold val_main_v27
  refine (RefParts.count_apply _ _ _ b).trans ?_
  unfold cntR
  have h18 : (val_main_v18 (F := Ideal) (ix1 b) : EReal) = kZero := by
    rw [val_main_v18_apply, val_main_cst_4_apply]; rfl
  rw [h18]
  refine congrArg (kZero + ·) ?_
  refine Finset.sum_congr rfl fun i _ => Finset.sum_congr rfl fun k _ => ?_
  have h26 : (val_main_v26 (F := Ideal) (ix1 (RefParts.flat i k)) : EReal) = kOne := by
    rw [val_main_v26_apply, val_main_cst_7_apply]; rfl
  rw [slot_apply x0 x1 i k, h26]

end Cert.ReferenceIdeal.RefCounts

end
-- ==== Proof.RefWeights.lean ====
/-
  The reference's row sums of weights: from the ten populations the ten bin weights, gathered at every entry's slot
  (read signed, clamped into the table), replaced by one when no bin is populated, raised to the power 3/4 and summed
  along each row from zero.
-/
import proofs.«428589_j7164005449994_3_alg».proof.Proof.RefCounts
import proofs.«428589_j7164005449994_3_alg».proof.Proof.RefParts
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefWeights

open Cert.ReferenceIdeal Cert.ReferenceIdeal.Gen Cert.ReferenceIdeal.PRead Idealize.ShloMosaic Idealize.ShloMosaic.TcCoe
open Idealize.ShloMosaic.ValueIdx Idealize.SL.Sem Cert.Ghmc Cert.ReferenceIdeal.RefSoft Cert.ReferenceIdeal.RefCounts
open Cert.ReferenceIdeal.RefParts

variable (x0 : (⟨S131072x512, .f32⟩ : BufTy).Contents (Elt Ideal)) (x1 : (⟨S131072, .i32⟩ : BufTy).Contents (Elt Ideal))

/-- a bin is populated: its population exceeds zero -/
theorem v29_apply (b : Fin 10) :
    val_main_v29 (F := Ideal) x0 x1 (ix1 b) = popd (cntR (matOf x0) (labOf x1)) b := by
  rw [val_main_v29_apply, val_main_v28_apply, val_main_cst_8_apply, v27_apply]
  generalize cntR (matOf x0) (labOf x1) = cnt
  rfl

/-- the number of populated bins, as a word -/
theorem v31_apply (j : S_.Idx) :
    val_main_v31 (F := Ideal) x0 x1 j = ∑ b : Fin 10, (popd (cntR (matOf x0) (labOf x1)) b).setWidth 32 := by
  unfold val_main_v31
  rw [sumwords_apply, val_main_c_9_apply]
  simp only [val_main_v30_apply, v29_apply]
  exact BitVec.zero_add _

/-- the number of populated bins, as a float -/
theorem v32_apply (j : S_.Idx) :
    (val_main_v32 (F := Ideal) x0 x1 j : EReal) = nvR (matOf x0) (labOf x1) := by
  rw [val_main_v32_apply, v31_apply]
  rfl

/-- a tenth of a populated bin's population, zero for an empty bin -/
theorem v35_apply (b : Fin 10) :
    (val_main_v35 (F := Ideal) x0 x1 (ix1 b) : EReal) = accW (cntR (matOf x0) (labOf x1)) b := by
  rw [val_main_v35_apply, v29_apply, val_main_v34_apply, val_main_v33_apply, val_main_cst_10_apply, v27_apply,
    val_main_call2_v1_apply, val_main_call2_v0_apply, val_main_cst_11_apply]
  generalize cntR (matOf x0) (labOf x1) = cnt
  rfl

/-- that tenth exceeds zero; the same comparison is made at two stages -/
theorem v38_apply (b : Fin 10) :
    val_main_v38 (F := Ideal) x0 x1 (ix1 b) = posW (cntR (matOf x0) (labOf x1)) b := by
  rw [val_main_v38_apply, v35_apply, val_main_v37_apply, val_main_cst_13_apply]
  generalize cntR (matOf x0) (labOf x1) = cnt
  rfl

theorem v43_apply (b : Fin 10) :
    val_main_v43 (F := Ideal) x0 x1 (ix1 b) = posW (cntR (matOf x0) (labOf x1)) b := by
  rw [val_main_v43_apply, v35_apply, val_main_v42_apply, val_main_cst_15_apply]
  generalize cntR (matOf x0) (labOf x1) = cnt
  rfl

/-- the denominator of a bin's weight -/
theorem v41_apply (b : Fin 10) :
    (val_main_v41 (F := Ideal) x0 x1 (ix1 b) : EReal)
      = denW (cntR (matOf x0) (labOf x1)) (nvR (matOf x0) (labOf x1)) b := by
  rw [val_main_v41_apply, val_main_v40_apply, val_main_v36_apply, v32_apply, val_main_cst_12_apply,
    val_main_v39_apply, v38_apply, v35_apply, val_main_call3_v1_apply, val_main_call3_v0_apply, val_main_cst_14_apply]
  generalize cntR (matOf x0) (labOf x1) = cnt
  generalize nvR (matOf x0) (labOf x1) = nv
  rfl

/-- a bin's weight -/
theorem v46_apply (b : Fin 10) :
    (val_main_v46 (F := Ideal) x0 x1 (ix1 b) : EReal)
      = binW (cntR (matOf x0) (labOf x1)) (nvR (matOf x0) (labOf x1)) b := by
  rw [val_main_v46_apply, v43_apply, val_main_v45_apply, val_main_v44_apply, val_main_cst_16_apply, v41_apply,
    val_main_call4_v1_apply, val_main_call4_v0_apply, val_main_cst_17_apply]
  generalize cntR (matOf x0) (labOf x1) = cnt
  generalize nvR (matOf x0) (labOf x1) = nv
  rfl

/-- some bin is populated -/
theorem v47_apply (j : S_.Idx) :
    val_main_v47 (F := Ideal) x0 x1 j = Ideal.cmp .ogt (nvR (matOf x0) (labOf x1)) kZero := by
  rw [val_main_v47_apply, v32_apply, val_main_cst_18_apply]
  generalize nvR (matOf x0) (labOf x1) = nv
  rfl

/-- an entry's slot of the table -/
theorem v52_apply (i : Fin 131072) (j : Fin 512) :
    val_main_v52 (F := Ideal) x0 x1 (ix2 i j) = slotR (matOf x0) (labOf x1) i j := by
  rw [val_main_v52_apply, val_main_v49_apply, val_main_v51_apply, val_main_v48_apply, val_main_c_19_apply,
    val_main_v50_apply, val_main_c_20_apply, v17_apply]
  rfl

/-- the weight an entry gathers from the table: its slot read signed and clamped into 0 … 9 -/
theorem v54_apply (i : Fin 131072) (j : Fin 512) :
    (val_main_v54 (F := Ideal) x0 x1 (ix2 i j) : EReal)
      = binW (cntR (matOf x0) (labOf x1)) (nvR (matOf x0) (labOf x1))
          ⟨min (slotR (matOf x0) (labOf x1) i j).toInt.toNat 9, by omega⟩ := by
  have key : val_main_v53 (F := Ideal) x0 x1 (ix3 i j (0 : Fin 1)) = slotR (matOf x0) (labOf x1) i j := by
    rw [val_main_v53_apply, show idx_main_v53 (ix3 i j (0 : Fin 1)) = ix2 i j from by idx_eq2, v52_apply]
  unfold val_main_v54
  rw [table_apply]
  refine (congrArg (fun w : BitVec 32 => val_main_v46 (F := Ideal) x0 x1 (ix1 (⟨min w.toInt.toNat 9, by omega⟩ : Fin 10))) key).trans ?_
  exact v46_apply x0 x1 _

/-- that weight, or one when no bin is populated -/
theorem v55_apply (i : Fin 131072) (j : Fin 512) :
    (val_main_v55 (F := Ideal) x0 x1 (ix2 i j) : EReal)
      = Scalar.select (Ideal.cmp .ogt (nvR (matOf x0) (labOf x1)) kZero)
          (binW (cntR (matOf x0) (labOf x1)) (nvR (matOf x0) (labOf x1))
            ⟨min (slotR (matOf x0) (labOf x1) i j).toInt.toNat 9, by omega⟩) kOne := by
  unfold val_main_v55
  rw [select_scalar_apply, v47_apply, v54_apply, val_main_call5_v1_apply, val_main_call5_v0_apply, val_main_cst_21_apply]
  rfl

/-- raised to the power 3/4 -/
theorem v57_apply (i : Fin 131072) (j : Fin 512) :
    (val_main_v57 (F := Ideal) x0 x1 (ix2 i j) : EReal) = wR (matOf x0) (labOf x1) i j := by
  rw [val_main_v57_apply, v55_apply, val_main_v56_apply, val_main_cst_22_apply]
  rfl

/-- the row sums of the weights, from zero -/
theorem v63_apply (i : Fin 131072) :
    (val_main_v63 (F := Ideal) x0 x1 (ix1 i) : EReal) = kZero + ∑ j : Fin 512, wR (matOf x0) (labOf x1) i j := by
  rw [val_main_v63_apply, val_main_cst_23_apply]
  refine congrArg₂ (· + ·) rfl (Finset.sum_congr rfl fun k _ => ?_)
  rw [show idx_main_v63 (ix1 i) k = ix2 i k from by idx_eq2]
  exact v57_apply x0 x1 i k

end Cert.ReferenceIdeal.RefWeights

end
-- ==== Proof.RefCe.lean ====
/-
  The reference's cross-entropy of a row: the soft-maxed row soft-maxed again in logarithms (shifted by its maximum),
  read at the label's column (counted from the end if negative, clamped into the row, and replaced by the not-a-number
  word when outside it), negated.
-/
import proofs.«428589_j7164005449994_3_alg».proof.Proof.RefSoft
import proofs.«428589_j7164005449994_3_alg».proof.Proof.RefParts
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefCe

open Cert.ReferenceIdeal Cert.ReferenceIdeal.Gen Cert.ReferenceIdeal.PRead Idealize.ShloMosaic Idealize.ShloMosaic.TcCoe
open Idealize.ShloMosaic.ValueIdx Idealize.SL.Sem Cert.Ghmc Cert.ReferenceIdeal.RefSoft Cert.ReferenceIdeal.RefParts

variable (x0 : (⟨S131072x512, .f32⟩ : BufTy).Contents (Elt Ideal)) (x1 : (⟨S131072, .i32⟩ : BufTy).Contents (Elt Ideal))

/-! ## The soft-maxed row, soft-maxed again in logarithms -/

/-- the maximum of the soft-maxed row i, from −∞ -/
theorem rowmax_eq (i : Fin 131072) :
    (val_main_call6_v0 (F := Ideal) x0 (ix1 i) : EReal) = rmax (pR (matOf x0 i)) := by
  unfold val_main_call6_v0
  refine (rowmax_apply _ _ i).trans ?_
  have hf : (fun j => (val_main_v11 (F := Ideal) x0 (ix2 i j) : EReal)) = pR (matOf x0 i) :=
    funext fun j => v11_apply x0 i j
  rw [hf]
  rfl

/-- the shift of row i: the larger of −∞ and the row's maximum -/
theorem shift_eq (i : Fin 131072) :
    (val_main_call6_v2 (F := Ideal) x0 (ix1 i) : EReal) = max kNegInf (rmax (pR (matOf x0 i))) := by
  rw [val_main_call6_v2_apply, val_main_call6_v1_apply, val_main_call6_cst_0_apply, rowmax_eq]
  rfl

/-- the shifted entry (i, j) -/
theorem shifted_eq (i : Fin 131072) (j : Fin 512) :
    (val_main_call6_v5 (F := Ideal) x0 (ix2 i j) : EReal)
      = pR (matOf x0 i) j - max kNegInf (rmax (pR (matOf x0 i))) := by
  have e : idx_main_call6_v3 (idx_main_call6_v4 (ix2 i j)) = ix1 i := by idx_eq1
  rw [val_main_call6_v5_apply, val_main_call6_v4_apply, val_main_call6_v3_apply, v11_apply, e, shift_eq]
  rfl

/-- the sum of the exponentials of the shifted row i, from 0 -/
theorem expsum_eq (i : Fin 131072) :
    (val_main_call6_v7 (F := Ideal) x0 (ix1 i) : EReal)
      = kZero + ∑ k, Ideal.exp (pR (matOf x0 i) k - max kNegInf (rmax (pR (matOf x0 i)))) := by
  rw [val_main_call6_v7_apply]
  refine congrArg₂ (· + ·) rfl (Finset.sum_congr rfl fun k _ => ?_)
  have e : idx_main_call6_v7 (ix1 i) k = ix2 i k := by idx_eq2
  rw [e, val_main_call6_v6_apply, shifted_eq]
  rfl

/-- entry (i, j) of the logarithmic soft-max -/
theorem lsm_eq (i : Fin 131072) (j : Fin 512) :
    (val_main_v58 (F := Ideal) x0 (ix2 i j) : EReal) = lsmR (matOf x0 i) j := by
  have e : idx_main_call6_v8 (idx_main_call6_v10 (ix2 i j)) = ix1 i := by idx_eq1
  rw [val_main_v58_apply, shifted_eq, val_main_call6_v10_apply, val_main_call6_v9_apply, val_main_call6_v8_apply, e,
    expsum_eq]
  rfl

/-! ## The label's column -/

/-- the label of row i, as the one entry of row i of the label column -/
theorem lab_eq (i : Fin 131072) : val_main_v59 (F := Ideal) x1 (ix2 i (0 : Fin 1)) = labOf x1 i := by
  have e : idx_main_v59 (ix2 i (0 : Fin 1)) = ix1 i := by idx_eq1
  rw [val_main_v59_apply, e]
  rfl

/-- the label counted from the end of the row when negative -/
theorem nrm_eq (i : Fin 131072) :
    val_main_call7_v4 (F := Ideal) x1 (ix2 i (0 : Fin 1)) = nrm 512#32 (labOf x1 i) := by
  rw [val_main_call7_v4_apply, val_main_call7_v1_apply, val_main_call7_v3_apply, val_main_call7_v0_apply,
    val_main_call7_v2_apply, val_main_call7_c_apply, val_main_call7_c_0_apply, lab_eq]
  rfl

/-- the same, as the start index of row i -/
theorem start_eq (i : Fin 131072) :
    val_main_call7_v5 (F := Ideal) x1 (ix3 i (0 : Fin 1) (0 : Fin 1)) = nrm 512#32 (labOf x1 i) := by
  have e : idx_main_call7_v5 (ix3 i (0 : Fin 1) (0 : Fin 1)) = ix2 i (0 : Fin 1) :=
    funext fun a => Fin.ext (by
      match a with
      | ⟨0, _⟩ => show ((i.val * 1 + 0) * 1 + 0) / 1 = i.val; omega
      | ⟨1, _⟩ => rfl)
  rw [val_main_call7_v5_apply, e, nrm_eq]

/-- the in-range bit of row i: the conjunction over an axis of length one of 0 ≤ start and start ≤ 511 -/
theorem ok_eq (i : Fin 131072) :
    val_main_call7_v12 (F := Ideal) x1 (ix2 i (0 : Fin 1)) = okR (labOf x1 i) := by
  unfold val_main_call7_v12
  refine (andall_apply _ _ rfl i).trans ?_
  rw [val_main_call7_v11_apply, val_main_call7_v7_apply, val_main_call7_v10_apply, start_eq, val_main_call7_v6_apply,
    val_main_call7_c_2_apply, val_main_call7_v9_apply, val_main_call7_v8_apply, val_main_call7_c_1_apply]
  rfl

/-- the gathered entry of row i: the logarithmic soft-max at the clamped column -/
theorem gathered_eq (i : Fin 131072) :
    (val_main_call7_v13 (F := Ideal) x0 x1 (ix2 i (0 : Fin 1)) : EReal) = lsmR (matOf x0 i) (colR (labOf x1 i)) := by
  unfold val_main_call7_v13
  refine (column_apply _ _ i).trans ?_
  rw [lsm_eq]
  refine congrArg (lsmR (matOf x0 i)) (Fin.ext ?_)
  show min (val_main_call7_v5 (F := Ideal) x1 (ix3 i (0 : Fin 1) (0 : Fin 1))).toInt.toNat 511
    = min (nrm 512#32 (labOf x1 i)).toInt.toNat 511
  rw [start_eq]

/-! ## The cross-entropy of row i -/

theorem v62_apply (i : Fin 131072) :
    (val_main_v62 (F := Ideal) x0 x1 (ix1 i) : EReal) = ceR (matOf x0 i) (labOf x1 i) := by
  have e : idx_main_v61 (ix1 i) = ix2 i (0 : Fin 1) :=
    funext fun a => Fin.ext (by
      match a with
      | ⟨0, _⟩ => show i.val / 1 = i.val; omega
      | ⟨1, _⟩ => rfl)
  rw [val_main_v62_apply, val_main_v61_apply, e, val_main_v60_apply, ok_eq, gathered_eq, val_main_call7_v14_apply,
    val_main_call7_cst_apply]
  rfl

end Cert.ReferenceIdeal.RefCe

end
-- ==== Proof.RefValue.lean ====
/-
  The reference program's result.  Stage by stage its 151 host operations compose to one function of the two
  arguments (the last stage, `val_main_v68`).  With each row's cross-entropy and each row's sum of weights read as
  the specification's (RefCe, RefWeights), the last five stages — their product, over 512, summed over the rows from
  zero, over 131072 — are `lossR` of the input.
-/
import proofs.«428589_j7164005449994_3_alg».proof.Proof.RefWeights
import proofs.«428589_j7164005449994_3_alg».proof.Proof.RefCe
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.PRead Idealize.ShloMosaic Idealize.ShloMosaic.TcCoe
open Idealize.ShloMosaic.ValueIdx Idealize.SL.Sem Cert.Ghmc Cert.ReferenceIdeal.RefWeights Cert.ReferenceIdeal.RefCe

/-- The rows of the input, numbered: a rank-one index is its one coordinate. -/
def rowEquiv : S131072.Idx ≃ Fin 131072 where
  toFun j := j 0
  invFun i := ix1 i
  left_inv j := (eq_ix1 j).symm
  right_inv _ := rfl

/-- A row's cross-entropy times its sum of weights, over 512, is the row's loss. -/
theorem v66_apply (x0 : (⟨S131072x512, .f32⟩ : BufTy).Contents (Elt Ideal)) (x1 : (⟨S131072, .i32⟩ : BufTy).Contents (Elt Ideal))
    (i : Fin 131072) :
    (val_main_v66 (F := Ideal) x0 x1 (ix1 i) : EReal) = lossRow (matOf x0) (labOf x1) i := by
  rw [val_main_v66_apply, val_main_v64_apply, val_main_v65_apply, val_main_cst_24_apply, v62_apply, v63_apply]
  rfl

/-- The sum over the rows, indexed by the row number. -/
theorem sum_v66 (x0 : (⟨S131072x512, .f32⟩ : BufTy).Contents (Elt Ideal)) (x1 : (⟨S131072, .i32⟩ : BufTy).Contents (Elt Ideal)) :
    ∑ j : S131072.Idx, (val_main_v66 (F := Ideal) x0 x1 j : EReal) = ∑ i : Fin 131072, lossRow (matOf x0) (labOf x1) i :=
  Fintype.sum_equiv rowEquiv _ _ fun j =>
    (congrArg (val_main_v66 (F := Ideal) x0 x1) (eq_ix1 j)).trans (v66_apply x0 x1 (j 0))

theorem ref_val (x0 : (⟨S131072x512, .f32⟩ : BufTy).Contents (Elt Ideal)) (x1 : (⟨S131072, .i32⟩ : BufTy).Contents (Elt Ideal)) :
    Cert.ReferenceIdeal.PRead.val_main_v68 (F := Ideal) x0 x1 = (fun _ => lossR (matOf x0) (labOf x1)) := by
  funext i
  rw [val_main_v68_apply, val_main_v67_apply, val_main_cst_25_apply, val_main_cst_26_apply, sum_v66]
  rfl

end Cert.ReferenceIdeal.RefValue

end
-- ==== Proof.MathRow.lean ====
/-
  One row: the two sides compute the same quantities when the row's entries are real numbers and the label is a
  column of the row.  The soft-max as a product with the reciprocal is the quotient; the two one-hots are the same
  0/1 function; the cross-entropy without a shift is the log-soft-max read at the label (log Σ exp is shift
  invariant); and a row's population of bin b counted by cumulative thresholds is the number of entries whose
  truncated, clipped scaled distance is b, because for 0 ≤ t ≤ 10 and 1 ≤ b ≤ 9: min 9 ⌊t⌋ ≥ b ⇔ t ≥ b.

  The road: every quantity of a row of reals is named as a real number (the entries, the maximum, the shifted
  exponentials e_j, their sum s > 0, the soft-max p_j = e_j / s in (0, 1], the one-hot, the scaled distance
  t_j = 10 |p_j − oh_j| in [0, 10]), each side's term is read as the extended real of that number, and the words
  (the truncation ⌊t_j⌋ in 0 … 10, its clip min 9 ⌊t_j⌋, the slot) are read as integers.
-/
import proofs.«428589_j7164005449994_3_alg».proof.Proof.Spec
import Mathlib.Analysis.SpecialFunctions.Log.Basic
import Mathlib.Analysis.SpecialFunctions.Pow.Real

noncomputable section

namespace Cert.Ghmc

open Idealize.ShloMosaic

/-- the row's entries are real numbers -/
def RowFin (v : Fin 512 → EReal) : Prop := ∀ j, ∃ r : ℝ, v j = (r : EReal)
/-- the label is a column of the row -/
def LabOk (g : BitVec 32) : Prop := 0 ≤ g.toInt ∧ g.toInt < 512

/-- the slot of the ten-entry table an entry's bin addresses, as a number below ten -/
def slotNat (v : Fin 512 → EReal) (g : BitVec 32) (j : Fin 512) : ℕ := (nrm 10#32 (binR v g j)).toInt.toNat

namespace Row

/-! ## The words at their values -/

theorem kZero_eq : kZero = 0 := by simp [kZero]
theorem kOne_eq : kOne = 1 := by
  simp [kOne, Ideal.ofBits, Ideal.ieee]
  norm_cast
  norm_num
theorem kTen_eq : kTen = ((10 : ℝ) : EReal) := by
  simp [kTen, Ideal.ofBits, Ideal.ieee]
  rw [← EReal.coe_mul]; norm_num
theorem k512_eq : k512 = ((512 : ℝ) : EReal) := by
  simp [k512, Ideal.ofBits, Ideal.ieee]
  rw [← EReal.coe_mul]; norm_num
theorem kNegInf_eq : kNegInf = ⊥ := by
  simp [kNegInf, Ideal.ofBits, Ideal.ieee]
theorem thr_eq (b : Fin 10) (hb : 1 ≤ b.val) : thr b = ((b.val : ℝ) : EReal) := by
  fin_cases b <;> simp [thr, thrBits, Ideal.ofBits, Ideal.ieee] at hb ⊢ <;> (rw [← EReal.coe_mul]; norm_num)

/-! ## Sums of real terms -/

theorem coe_sum_real {ι : Type} (s : Finset ι) (f : ι → ℝ) :
    ∑ j ∈ s, ((f j : ℝ) : EReal) = ((∑ j ∈ s, f j : ℝ) : EReal) := by
  classical
  refine Finset.induction_on s ?_ ?_
  · simp
  · intro a s ha ih
    rw [Finset.sum_insert ha, Finset.sum_insert ha, ih, EReal.coe_add]

/-! ## The row as real numbers -/

/-- the entries as reals -/
def vr (v : Fin 512 → EReal) (j : Fin 512) : ℝ := (v j).toReal
/-- the row maximum as a real -/
def Mx (v : Fin 512 → EReal) : ℝ := (rmax v).toReal
/-- the shifted exponentials -/
def er (v : Fin 512 → EReal) (j : Fin 512) : ℝ := Real.exp (vr v j - Mx v)
/-- their sum -/
def sr (v : Fin 512 → EReal) : ℝ := ∑ j, er v j
/-- the soft-max -/
def pr (v : Fin 512 → EReal) (j : Fin 512) : ℝ := er v j / sr v
/-- the one-hot of the label -/
def ohr (g : BitVec 32) (j : Fin 512) : ℝ := if g = BitVec.ofNat 32 j.val then 1 else 0
/-- ten times the distance of the soft-max to the one-hot -/
def tr (v : Fin 512 → EReal) (g : BitVec 32) (j : Fin 512) : ℝ := |pr v j - ohr g j| * 10

theorem v_eq {v : Fin 512 → EReal} (hv : RowFin v) (j : Fin 512) : v j = ((vr v j : ℝ) : EReal) := by
  obtain ⟨r, hr⟩ := hv j
  simp [vr, hr]

/-- the maximum of a row of reals is one of them, so a real -/
theorem rmax_eq {v : Fin 512 → EReal} (hv : RowFin v) : rmax v = ((Mx v : ℝ) : EReal) := by
  have h : rmax v = (Finset.univ : Finset (Fin 512)).sup v := by
    rw [rmax, kNegInf_eq]; rfl
  obtain ⟨i, -, hi⟩ := Finset.exists_mem_eq_sup (Finset.univ : Finset (Fin 512)) Finset.univ_nonempty v
  obtain ⟨r, hr⟩ := hv i
  have : rmax v = (r : EReal) := by rw [h, hi, hr]
  simp [Mx, this]

theorem exK_eq {v : Fin 512 → EReal} (hv : RowFin v) (j : Fin 512) : exK v j = ((er v j : ℝ) : EReal) := by
  rw [exK, v_eq hv j, rmax_eq hv, ← EReal.coe_sub, Ideal.exp_coe, er]

theorem smK_eq {v : Fin 512 → EReal} (hv : RowFin v) : smK v = ((sr v : ℝ) : EReal) := by
  rw [smK, sr, ← coe_sum_real]
  exact Finset.sum_congr rfl fun j _ => exK_eq hv j

theorem er_pos (v : Fin 512 → EReal) (j : Fin 512) : 0 < er v j := Real.exp_pos _

theorem sr_pos (v : Fin 512 → EReal) : 0 < sr v :=
  Finset.sum_pos (fun j _ => er_pos v j) Finset.univ_nonempty

theorem pr_pos (v : Fin 512 → EReal) (j : Fin 512) : 0 < pr v j := div_pos (er_pos v j) (sr_pos v)

theorem pr_le_one (v : Fin 512 → EReal) (j : Fin 512) : pr v j ≤ 1 := by
  rw [pr, div_le_one (sr_pos v)]
  exact Finset.single_le_sum (f := er v) (fun i _ => (er_pos v i).le) (Finset.mem_univ j)

theorem pK_eq {v : Fin 512 → EReal} (hv : RowFin v) (j : Fin 512) : pK v j = ((pr v j : ℝ) : EReal) := by
  rw [pK, exK_eq hv, smK_eq hv, kOne_eq, Ideal.div_coe (sr_pos v).ne', one_mul, ← EReal.coe_mul, pr, mul_one_div]

theorem pR_eq {v : Fin 512 → EReal} (hv : RowFin v) (j : Fin 512) : pR v j = ((pr v j : ℝ) : EReal) := by
  have hsh : shR v = rmax v := by rw [shR, kNegInf_eq]; exact max_bot_left _
  have hex : ∀ i, exR v i = exK v i := fun i => by rw [exR, exK, hsh]
  have hsm : smR v = smK v := by
    rw [smR, smK, kZero_eq, zero_add]
    exact Finset.sum_congr rfl fun i _ => hex i
  rw [pR, hex, hsm, exK_eq hv, smK_eq hv, Ideal.div_coe (sr_pos v).ne', ← EReal.coe_mul, pr, mul_one_div]

theorem ohK_eq (g : BitVec 32) (j : Fin 512) : ohK g j = ((ohr g j : ℝ) : EReal) := by
  by_cases h : g = BitVec.ofNat 32 j.val
  · simp [ohK, ohr, IntOp.cmpi, h]
  · have h' : (BitVec.ofNat 32 j.val == g) = false := by
      simpa using fun e : BitVec.ofNat 32 j.val = g => h e.symm
    simp [ohK, ohr, IntOp.cmpi, h, h']

theorem ohR_eq (g : BitVec 32) (j : Fin 512) : ohR g j = ((ohr g j : ℝ) : EReal) := by
  by_cases h : g = BitVec.ofNat 32 j.val
  · simp [ohR, ohr, IntOp.cmpi, h]
  · simp [ohR, ohr, IntOp.cmpi, h]

theorem absE_coe (x : ℝ) : absE (x : EReal) = ((|x| : ℝ) : EReal) := by
  rw [absE, ← EReal.coe_neg, abs_eq_max_neg]
  exact (EReal.coe_strictMono.monotone.map_max).symm

theorem tK_eq {v : Fin 512 → EReal} (hv : RowFin v) (g : BitVec 32) (j : Fin 512) :
    tK v g j = ((tr v g j : ℝ) : EReal) := by
  rw [tK, pK_eq hv, ohK_eq, ← EReal.coe_sub, absE_coe, kTen_eq, ← EReal.coe_mul, tr]

theorem ohr_cases (g : BitVec 32) (j : Fin 512) : ohr g j = 0 ∨ ohr g j = 1 := by
  unfold ohr; split_ifs <;> simp

theorem tr_nonneg (v : Fin 512 → EReal) (g : BitVec 32) (j : Fin 512) : 0 ≤ tr v g j :=
  mul_nonneg (abs_nonneg _) (by norm_num)

theorem tr_le_ten (v : Fin 512 → EReal) (g : BitVec 32) (j : Fin 512) : tr v g j ≤ 10 := by
  have h0 := pr_pos v j
  have h1 := pr_le_one v j
  have : |pr v j - ohr g j| ≤ 1 := by
    rw [abs_le]
    rcases ohr_cases g j with h | h <;> rw [h] <;> constructor <;> linarith
  unfold tr; linarith

theorem tR_eq {v : Fin 512 → EReal} (hv : RowFin v) (g : BitVec 32) (j : Fin 512) :
    tR v g j = ((tr v g j : ℝ) : EReal) := by
  rw [tR, pR_eq hv, ohR_eq, ← EReal.coe_sub, absE_coe, kTen_eq, ← EReal.coe_mul, tr]

/-! ## The label -/

theorem nrm_of_nonneg (n k : BitVec 32) (h : 0 ≤ k.toInt) : nrm n k = k := by
  have hs : k.slt 0#32 = false := by simpa [BitVec.slt] using h
  simp [nrm, Scalar.select, IntOp.cmpi, hs]

theorem lab_toNat {g : BitVec 32} (hg : LabOk g) : g.toNat < 512 ∧ g.toInt = (g.toNat : ℤ) := by
  obtain ⟨h0, h1⟩ := hg
  have h := BitVec.toInt_eq_toNat_cond g
  have := g.isLt
  split_ifs at h <;> omega

theorem colR_val {g : BitVec 32} (hg : LabOk g) : (colR g).val = g.toNat := by
  obtain ⟨hlt, hti⟩ := lab_toNat hg
  simp only [colR, nrm_of_nonneg _ _ hg.1, hti]
  omega

theorem okR_eq {g : BitVec 32} (hg : LabOk g) : okR g = 1#1 := by
  obtain ⟨h0, h1⟩ := hg
  have e : (511#32).toInt = 511 := by decide
  have a : (0#32).sle g = true := by simpa [BitVec.sle] using h0
  have b : g.sle 511#32 = true := by simp only [BitVec.sle, e, decide_eq_true_eq]; omega
  simp [okR, nrm_of_nonneg _ _ h0, IntOp.cmpi, IntOp.andi, a, b]

theorem ohr_lab {g : BitVec 32} (hg : LabOk g) (j : Fin 512) : ohr g j = if j = colR g then 1 else 0 := by
  have hc := colR_val hg
  have hj := j.isLt
  have : g = BitVec.ofNat 32 j.val ↔ j = colR g := by
    constructor
    · intro h
      apply Fin.ext
      rw [hc, h, BitVec.toNat_ofNat]
      omega
    · intro h
      rw [h, hc]; simp
  simp [ohr, this]

/-! ## The cross-entropy -/

/-- Σ exp of the soft-max -/
def Ar (v : Fin 512 → EReal) : ℝ := ∑ j, Real.exp (pr v j)

theorem Ar_pos (v : Fin 512 → EReal) : 0 < Ar v :=
  Finset.sum_pos (fun j _ => Real.exp_pos _) Finset.univ_nonempty

theorem ceK_eq_real {v : Fin 512 → EReal} (hv : RowFin v) {g : BitVec 32} (hg : LabOk g) :
    ceK v g = ((Real.log (Ar v) - pr v (colR g) : ℝ) : EReal) := by
  have h1 : ∑ j, Ideal.exp (pK v j) = ((Ar v : ℝ) : EReal) := by
    rw [Ar, ← coe_sum_real]
    exact Finset.sum_congr rfl fun j _ => by rw [pK_eq hv, Ideal.exp_coe]
  have h2 : ∑ j, pK v j * ohK g j = ((pr v (colR g) : ℝ) : EReal) := by
    have e : ∀ j, pK v j * ohK g j = (((if j = colR g then pr v j else 0 : ℝ)) : EReal) := by
      intro j
      rw [pK_eq hv, ohK_eq, ← EReal.coe_mul, ohr_lab hg]
      split_ifs <;> simp
    rw [Finset.sum_congr rfl fun j _ => e j, coe_sum_real, Finset.sum_ite_eq']
    simp
  rw [ceK, h1, h2, Ideal.log_coe, if_neg (not_le.mpr (Ar_pos v)), ← EReal.coe_sub]

theorem ceR_eq_real {v : Fin 512 → EReal} (hv : RowFin v) {g : BitVec 32} (hg : LabOk g) :
    ceR v g = ((Real.log (Ar v) - pr v (colR g) : ℝ) : EReal) := by
  have hp : RowFin (pR v) := fun j => ⟨pr v j, pR_eq hv j⟩
  have hM : max kNegInf (rmax (pR v)) = ((Mx (pR v) : ℝ) : EReal) := by
    rw [kNegInf_eq, max_bot_left, rmax_eq hp]
  have hs : ∑ k, Ideal.exp (pR v k - max kNegInf (rmax (pR v))) = ((Ar v / Real.exp (Mx (pR v)) : ℝ) : EReal) := by
    rw [Ar, Finset.sum_div, ← coe_sum_real]
    refine Finset.sum_congr rfl fun k _ => ?_
    rw [hM, pR_eq hv, ← EReal.coe_sub, Ideal.exp_coe, Real.exp_sub]
  have hpos : 0 < Ar v / Real.exp (Mx (pR v)) := div_pos (Ar_pos v) (Real.exp_pos _)
  have hsel : Scalar.select (okR g) (lsmR v (colR g)) kNaN = lsmR v (colR g) := by
    rw [okR_eq hg]; simp [Scalar.select]
  rw [ceR, hsel, lsmR, kZero_eq, zero_add, hs, hM, pR_eq hv, Ideal.log_coe, if_neg (not_le.mpr hpos),
    ← EReal.coe_sub, ← EReal.coe_sub, ← EReal.coe_neg, Real.log_div (Ar_pos v).ne' (Real.exp_pos _).ne', Real.log_exp]
  congr 1; ring

/-! ## The bins -/

/-- the truncated scaled distance -/
def fl (v : Fin 512 → EReal) (g : BitVec 32) (j : Fin 512) : ℤ := ⌊tr v g j⌋

theorem fl_nonneg (v : Fin 512 → EReal) (g : BitVec 32) (j : Fin 512) : 0 ≤ fl v g j :=
  Int.floor_nonneg.mpr (tr_nonneg v g j)

theorem fl_le_ten (v : Fin 512 → EReal) (g : BitVec 32) (j : Fin 512) : fl v g j ≤ 10 := by
  have h : fl v g j < 11 := Int.floor_lt.mpr (by have := tr_le_ten v g j; push_cast; linarith)
  omega

theorem fptosi_tr (v : Fin 512 → EReal) (g : BitVec 32) (j : Fin 512) :
    Ideal.fptosi 32 ((tr v g j : ℝ) : EReal) = BitVec.ofInt 32 (fl v g j) := by
  have h0 := fl_nonneg v g j
  have h1 := fl_le_ten v g j
  rw [Ideal.fptosi, Ideal.toIntClamped_coe, if_pos (tr_nonneg v g j)]
  congr 1
  have e : max (-((2 ^ (32 - 1) : ℕ) : ℤ)) (min (((2 ^ (32 - 1) : ℕ) : ℤ) - 1) (fl v g j)) = fl v g j := by
    norm_num
    omega
  exact e

/-- clipping a word of 0 … 10 to 0 … 9 -/
theorem clip_word (z : ℤ) (h0 : 0 ≤ z) (h1 : z ≤ 10) :
    IntOp.minsi 9#32 (IntOp.maxsi 0#32 (BitVec.ofInt 32 z)) = BitVec.ofInt 32 (min 9 z) := by
  interval_cases z <;> decide

/-- a word of 0 … 9 addresses the table from its start -/
theorem nrm_word (z : ℤ) (h0 : 0 ≤ z) (h1 : z ≤ 9) : (nrm 10#32 (BitVec.ofInt 32 z)).toInt = z := by
  interval_cases z <;> decide

theorem binR_eq {v : Fin 512 → EReal} (hv : RowFin v) (g : BitVec 32) (j : Fin 512) :
    binR v g j = BitVec.ofInt 32 (min 9 (fl v g j)) := by
  rw [binR, tR_eq hv, fptosi_tr, clip_word _ (fl_nonneg v g j) (fl_le_ten v g j)]

theorem slot_toInt {v : Fin 512 → EReal} (hv : RowFin v) (g : BitVec 32) (j : Fin 512) :
    (nrm 10#32 (binR v g j)).toInt = min 9 (fl v g j) := by
  have h0 := fl_nonneg v g j
  rw [binR_eq hv, nrm_word _ (by omega) (by omega)]

theorem slotNat_eq {v : Fin 512 → EReal} (hv : RowFin v) (g : BitVec 32) (j : Fin 512) :
    slotNat v g j = (min 9 (fl v g j)).toNat := by
  rw [slotNat, slot_toInt hv]

/-- for 1 ≤ b ≤ 9 the scaled distance reaches b exactly when its clipped truncation does -/
theorem ge_iff {v : Fin 512 → EReal} (hv : RowFin v) (g : BitVec 32) (b : Fin 10) (hb : 1 ≤ b.val) (j : Fin 512) :
    thr b ≤ tK v g j ↔ b.val ≤ slotNat v g j := by
  rw [thr_eq b hb, tK_eq hv, EReal.coe_le_coe_iff]
  have hs := slotNat_eq hv g j
  have h0 := fl_nonneg v g j
  have e : ((b.val : ℝ) ≤ tr v g j) ↔ ((b.val : ℤ) ≤ fl v g j) := by
    rw [fl, Int.le_floor]; norm_cast
  rw [e, hs]
  have := b.isLt
  omega

theorem geK_eq {v : Fin 512 → EReal} (hv : RowFin v) (g : BitVec 32) (b : Fin 10) (hb : 1 ≤ b.val) (j : Fin 512) :
    geK v g b j = (((if b.val ≤ slotNat v g j then 1 else 0 : ℝ)) : EReal) := by
  unfold geK
  by_cases h : thr b ≤ tK v g j
  · have h' := (ge_iff hv g b hb j).mp h
    simp [Ideal.cmp, h, h']
  · have h' := mt (ge_iff hv g b hb j).mpr h
    simp [Ideal.cmp, h, h']

/-- how many entries of the row have a slot at least b -/
def Ncum (v : Fin 512 → EReal) (g : BitVec 32) (b : ℕ) : ℕ :=
  (Finset.univ.filter fun j : Fin 512 => b ≤ slotNat v g j).card

theorem rK_eq {v : Fin 512 → EReal} (hv : RowFin v) (g : BitVec 32) (b : Fin 10) (hb : 1 ≤ b.val) :
    rK v g b = (((Ncum v g b.val : ℕ) : ℝ) : EReal) := by
  rw [rK, Ncum, Finset.card_filter, Nat.cast_sum, ← coe_sum_real]
  refine Finset.sum_congr rfl fun j _ => ?_
  rw [geK_eq hv g b hb j]
  split_ifs <;> simp

theorem Ncum_zero (v : Fin 512 → EReal) (g : BitVec 32) : Ncum v g 0 = 512 := by simp [Ncum]

theorem Ncum_ten {v : Fin 512 → EReal} (hv : RowFin v) (g : BitVec 32) : Ncum v g 10 = 0 := by
  rw [Ncum, Finset.card_eq_zero, Finset.filter_eq_empty_iff]
  intro j _
  have hs := slotNat_eq hv g j
  have h0 := fl_nonneg v g j
  omega

theorem Ncum_succ (v : Fin 512 → EReal) (g : BitVec 32) (b : ℕ) :
    Ncum v g b = (Finset.univ.filter fun j : Fin 512 => slotNat v g j = b).card + Ncum v g (b + 1) := by
  simp only [Ncum, Finset.card_filter, ← Finset.sum_add_distrib]
  refine Finset.sum_congr rfl fun j _ => ?_
  split_ifs <;> omega

/-! ## Further facts about a row -/

theorem pK_mem {v : Fin 512 → EReal} (hv : RowFin v) (j : Fin 512) :
    ∃ p : ℝ, 0 < p ∧ p ≤ 1 ∧ pK v j = (p : EReal) :=
  ⟨pr v j, pr_pos v j, pr_le_one v j, pK_eq hv j⟩

theorem geK_cases {v : Fin 512 → EReal} (hv : RowFin v) (g : BitVec 32) (b : Fin 10) (hb : 1 ≤ b.val) (j : Fin 512) :
    geK v g b j = 0 ∨ geK v g b j = 1 := by
  rw [geK_eq hv g b hb j]
  split_ifs
  · right; simp
  · left; simp

/-- the cross-entropy is not negative: Σ exp p ≥ exp p_c -/
theorem ce_nonneg (v : Fin 512 → EReal) (g : BitVec 32) : 0 ≤ Real.log (Ar v) - pr v (colR g) := by
  have h : Real.exp (pr v (colR g)) ≤ Ar v :=
    Finset.single_le_sum (f := fun j => Real.exp (pr v j)) (fun i _ => (Real.exp_pos _).le) (Finset.mem_univ (colR g))
  have := (Real.le_log_iff_exp_le (Ar_pos v)).mpr h
  linarith

theorem ceK_nonneg_real {v : Fin 512 → EReal} (hv : RowFin v) {g : BitVec 32} (hg : LabOk g) :
    ∃ r : ℝ, 0 ≤ r ∧ ceK v g = (r : EReal) :=
  ⟨_, ce_nonneg v g, ceK_eq_real hv hg⟩

end Row

open Row

/-! ## The seven statements -/

theorem ohK_eq_ohR (g : BitVec 32) (j : Fin 512) : ohK g j = ohR g j := by
  rw [ohK_eq, ohR_eq]

theorem pK_eq_pR (v : Fin 512 → EReal) (hv : RowFin v) (j : Fin 512) : pK v j = pR v j := by
  rw [pK_eq hv, pR_eq hv]

theorem tK_eq_tR (v : Fin 512 → EReal) (g : BitVec 32) (hv : RowFin v) (j : Fin 512) : tK v g j = tR v g j := by
  rw [tK, tR, pK_eq_pR v hv, ohK_eq_ohR]

theorem ceK_eq_ceR (v : Fin 512 → EReal) (g : BitVec 32) (hv : RowFin v) (hg : LabOk g) : ceK v g = ceR v g := by
  rw [ceK_eq_real hv hg, ceR_eq_real hv hg]

theorem ceK_real (v : Fin 512 → EReal) (g : BitVec 32) (hv : RowFin v) (hg : LabOk g) : ∃ r : ℝ, ceK v g = (r : EReal) :=
  ⟨_, ceK_eq_real hv hg⟩

/-- an entry's slot, read signed, is one of 0 … 9 -/
theorem slot_range (v : Fin 512 → EReal) (g : BitVec 32) (hv : RowFin v) (j : Fin 512) :
    (nrm 10#32 (binR v g j)).toInt = (slotNat v g j : ℤ) ∧ slotNat v g j < 10 := by
  have h0 := fl_nonneg v g j
  rw [slotNat_eq hv, slot_toInt hv]
  constructor <;> omega

/-- the cumulative-threshold count of bin `b` is the number of entries in slot `b` -/
theorem cntRowK_eq_card (v : Fin 512 → EReal) (g : BitVec 32) (hv : RowFin v) (b : Fin 10) :
    cntRowK v g b = (((Finset.univ.filter fun j : Fin 512 => slotNat v g j = b.val).card : ℝ) : EReal) := by
  have hN := Ncum_succ v g b.val
  have hb := b.isLt
  have hA : (if b.val = 0 then k512 else rK v g b) = (((Ncum v g b.val : ℕ) : ℝ) : EReal) := by
    split_ifs with h
    · rw [h, Ncum_zero, k512_eq]; norm_num
    · exact rK_eq hv g b (by omega)
  have hB : (if h : b.val = 9 then kZero else rK v g ⟨b.val + 1, by omega⟩)
      = (((Ncum v g (b.val + 1) : ℕ) : ℝ) : EReal) := by
    split_ifs with h
    · rw [h, Ncum_ten hv, kZero_eq]; simp
    · exact rK_eq hv g ⟨b.val + 1, by omega⟩ (by simp)
  rw [cntRowK, hA, hB, ← EReal.coe_sub, hN, Nat.cast_add, add_sub_cancel_right]

/-- a row's population of a bin is a natural number, at most the row's length -/
theorem Row.cntRowK_nat (v : Fin 512 → EReal) (g : BitVec 32) (hv : RowFin v) (b : Fin 10) :
    ∃ n : ℕ, n ≤ 512 ∧ cntRowK v g b = (((n : ℕ) : ℝ) : EReal) := by
  refine ⟨_, ?_, cntRowK_eq_card v g hv b⟩
  have h := Finset.card_filter_le (Finset.univ : Finset (Fin 512)) (fun j : Fin 512 => slotNat v g j = b.val)
  simpa using h

end Cert.Ghmc

end
-- ==== Proof.MathCounts.lean ====
/-
  The populations and the weights, whole input.  A row's population of bin b is a natural number (MathRow), so a
  block's is at most 2048 · 512 = 2²⁰: its truncation to a word is exact, the word sums over 32 blocks and over the
  two halves stay at most 2²⁶ < 2³¹, and read as a signed integer the total is the number of entries of the whole
  input in slot b.  The scatter of ones counts the same number.  The two ways of counting the populated bins (ten
  0/1 terms, summed as reals or as words) agree, so both sides derive the same ten weights, which are real numbers.
-/
import proofs.«428589_j7164005449994_3_alg».proof.Proof.MathRow

noncomputable section

namespace Cert.Ghmc

open Idealize.ShloMosaic

/-! ## Sums of reals, of naturals and of words -/

/-- a finite sum of reals, read in the extended reals -/
theorem Counts.coe_sum_real {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem Counts.coe_sum_nat {ι : Type} (s : Finset ι) (f : ι → ℕ) :
    ∑ i ∈ s, (((f i : ℕ) : ℝ) : EReal) = (((∑ i ∈ s, f i : ℕ) : ℝ) : EReal) := by
  rw [Counts.coe_sum_real, Nat.cast_sum]

theorem Counts.fptosi_nat (N : ℕ) (h : N < 2 ^ 31) : Ideal.fptosi 32 (((N : ℕ) : ℝ) : EReal) = BitVec.ofNat 32 N := by
  rw [Ideal.fptosi, Ideal.toIntClamped_coe, if_pos (Nat.cast_nonneg N), Int.floor_natCast]
  have : max (-((2 ^ (32 - 1) : ℕ) : ℤ)) (min (((2 ^ (32 - 1) : ℕ) : ℤ) - 1) (N : ℤ)) = (N : ℤ) := by
    norm_num <;> omega
  rw [this]; exact BitVec.ofInt_natCast ..

theorem Counts.sum_ofNat {ι : Type} (s : Finset ι) (f : ι → ℕ) :
    ∑ i ∈ s, BitVec.ofNat 32 (f i) = BitVec.ofNat 32 (∑ i ∈ s, f i) := by
  classical
  induction s using Finset.induction_on with
  | empty => simp
  | insert a s ha ih => rw [Finset.sum_insert ha, Finset.sum_insert ha, ih, BitVec.ofNat_add]

theorem Counts.toInt_ofNat_small (M : ℕ) (h : M < 2 ^ 31) : (BitVec.ofNat 32 M).toInt = (M : ℤ) := by
  rw [BitVec.toInt_eq_toNat_cond, BitVec.toNat_ofNat]
  have h2 : M % 2 ^ 32 = M := Nat.mod_eq_of_lt (by omega)
  rw [h2]
  split <;> omega

/-! ## The rows of the whole input, block by block -/

/-- the rows of the two halves of 32 blocks of 2048 rows are all the rows, once each -/
def Counts.rowEquiv : Fin 2 × Fin 32 × Fin 2048 ≃ Fin 131072 where
  toFun p := rowOf p.1 p.2.1 p.2.2
  invFun i := (⟨i.val / 65536, by have := i.isLt; omega⟩, ⟨i.val / 2048 % 32, by omega⟩, ⟨i.val % 2048, by omega⟩)
  left_inv := by
    rintro ⟨c, k, r⟩
    have := c.isLt; have := k.isLt; have := r.isLt
    simp only [rowOf, Prod.mk.injEq, Fin.ext_iff]
    refine ⟨?_, ?_, ?_⟩ <;> omega
  right_inv := by
    intro i
    have := i.isLt
    simp only [rowOf, Fin.ext_iff]
    omega

theorem Counts.sum_rowOf {M : Type} [AddCommMonoid M] (f : Fin 131072 → M) :
    ∑ c : Fin 2, ∑ k : Fin 32, ∑ r : Fin 2048, f (rowOf c k r) = ∑ i, f i := by
  rw [← Equiv.sum_comp Counts.rowEquiv f, Fintype.sum_prod_type]
  refine Finset.sum_congr rfl fun c _ => ?_
  rw [Fintype.sum_prod_type]
  rfl

/-! ## The populations -/

/-- the number of entries of the whole input in slot `b` -/
def cntNat (X : Fin 131072 → Fin 512 → EReal) (G : Fin 131072 → BitVec 32) (b : Fin 10) : ℕ :=
  ∑ i : Fin 131072, (Finset.univ.filter fun j : Fin 512 => slotNat (X i) (G i) j = b.val).card

/-- the number of entries of a row in slot `b` -/
def Counts.cardRow (v : Fin 512 → EReal) (g : BitVec 32) (b : Fin 10) : ℕ :=
  (Finset.univ.filter fun j : Fin 512 => slotNat v g j = b.val).card

theorem Counts.cardRow_le (v : Fin 512 → EReal) (g : BitVec 32) (b : Fin 10) : Counts.cardRow v g b ≤ 512 := by
  unfold Counts.cardRow
  calc _ ≤ (Finset.univ : Finset (Fin 512)).card := Finset.card_filter_le _ _
    _ = 512 := by simp

theorem Counts.cntNat_eq (X : Fin 131072 → Fin 512 → EReal) (G : Fin 131072 → BitVec 32) (b : Fin 10) :
    cntNat X G b = ∑ i, Counts.cardRow (X i) (G i) b := rfl

theorem Counts.totBlk_eq (V : Fin 2048 → Fin 512 → EReal) (Gb : Fin 2048 → BitVec 32) (hV : ∀ r, RowFin (V r)) (b : Fin 10) :
    totBlk V Gb b = (((∑ r, Counts.cardRow (V r) (Gb r) b : ℕ) : ℝ) : EReal) := by
  unfold totBlk
  rw [← Counts.coe_sum_nat]
  exact Finset.sum_congr rfl fun r _ => cntRowK_eq_card (V r) (Gb r) (hV r) b

theorem Counts.cBlk_eq (V : Fin 2048 → Fin 512 → EReal) (Gb : Fin 2048 → BitVec 32) (hV : ∀ r, RowFin (V r)) (b : Fin 10) :
    cBlk V Gb b = BitVec.ofNat 32 (∑ r, Counts.cardRow (V r) (Gb r) b) := by
  unfold cBlk
  rw [Counts.totBlk_eq V Gb hV b, Counts.fptosi_nat]
  calc ∑ r, Counts.cardRow (V r) (Gb r) b ≤ ∑ _r : Fin 2048, 512 := Finset.sum_le_sum fun r _ => Counts.cardRow_le _ _ _
    _ < 2 ^ 31 := by simp

theorem Counts.kZero_eq : kZero = 0 := Ideal.ofBits_zero_f32
theorem Counts.kOne_eq : kOne = 1 := by simp [kOne, Ideal.ofBits, Ideal.ieee, -EReal.coe_mul] <;> norm_num

variable (X : Fin 131072 → Fin 512 → EReal) (G : Fin 131072 → BitVec 32)

theorem Counts.cntNat_lt (b : Fin 10) : cntNat X G b < 2 ^ 31 := by
  rw [Counts.cntNat_eq]
  calc ∑ i, Counts.cardRow (X i) (G i) b ≤ ∑ _i : Fin 131072, 512 := Finset.sum_le_sum fun i _ => Counts.cardRow_le _ _ _
    _ < 2 ^ 31 := by simp

theorem cntK_eq_nat (hX : ∀ i, RowFin (X i)) (b : Fin 10) : cntK X G b = (((cntNat X G b : ℕ) : ℝ) : EReal) := by
  have hcore : ∀ c, cntCore X G c b
      = BitVec.ofNat 32 (∑ k : Fin 32, ∑ r : Fin 2048, Counts.cardRow (X (rowOf c k r)) (G (rowOf c k r)) b) := by
    intro c
    unfold cntCore
    rw [← Counts.sum_ofNat]
    exact Finset.sum_congr rfl fun k _ => Counts.cBlk_eq _ _ (fun r => hX _) b
  have hsum : (∑ c : Fin 2, cntCore X G c b) = BitVec.ofNat 32 (cntNat X G b) := by
    rw [Counts.cntNat_eq, ← Counts.sum_rowOf (fun i => Counts.cardRow (X i) (G i) b), ← Counts.sum_ofNat]
    exact Finset.sum_congr rfl fun c _ => hcore c
  unfold cntK
  rw [hsum, Counts.toInt_ofNat_small _ (Counts.cntNat_lt X G b), Int.cast_natCast]

theorem cntR_eq_nat (hX : ∀ i, RowFin (X i)) (b : Fin 10) : cntR X G b = (((cntNat X G b : ℕ) : ℝ) : EReal) := by
  unfold cntR
  rw [Counts.kZero_eq, zero_add, Counts.cntNat_eq, ← Counts.coe_sum_nat]
  refine Finset.sum_congr rfl fun i _ => ?_
  unfold Counts.cardRow
  rw [Finset.card_filter, ← Counts.coe_sum_nat]
  refine Finset.sum_congr rfl fun j _ => ?_
  have h := (slot_range (X i) (G i) (hX i) j).1
  unfold slotR
  rw [h, Counts.kOne_eq]
  by_cases hb : slotNat (X i) (G i) j = b.val
  · rw [if_pos (by exact_mod_cast hb), if_pos hb]; simp
  · rw [if_neg (by exact_mod_cast hb), if_neg hb]; simp

/-! ## The number of populated bins and the weights -/

/-- ten bits widened to words, summed as words and read signed: the number of set bits -/
theorem Counts.toInt_sum_bits (p : Fin 10 → BitVec 1) :
    ((∑ b : Fin 10, (p b).setWidth 32 : BitVec 32)).toInt = ((∑ b : Fin 10, (p b).toNat : ℕ) : ℤ) := by
  have h1 : ∀ b, (p b).setWidth 32 = BitVec.ofNat 32 (p b).toNat := by
    intro b
    apply BitVec.eq_of_toNat_eq
    simp [BitVec.toNat_setWidth, BitVec.toNat_ofNat]
  rw [Finset.sum_congr rfl fun b _ => h1 b, Counts.sum_ofNat, Counts.toInt_ofNat_small]
  calc ∑ b, (p b).toNat ≤ ∑ _b : Fin 10, 1 := Finset.sum_le_sum fun b _ => by have := (p b).isLt; omega
    _ < 2 ^ 31 := by simp

theorem Counts.cntK_eq_cntR (hX : ∀ i, RowFin (X i)) : cntK X G = cntR X G :=
  funext fun b => by rw [cntK_eq_nat X G hX b, cntR_eq_nat X G hX b]

theorem nvK_eq_nvR (hX : ∀ i, RowFin (X i)) : nvK X G = nvR X G := by
  unfold nvK nvR
  rw [Counts.cntK_eq_cntR X G hX, Counts.kZero_eq, zero_add, Counts.toInt_sum_bits, Int.cast_natCast, Counts.coe_sum_nat]

/-- the weight of bin `b` as the R side forms it from its own counts -/
def wRb (b : Fin 10) : EReal :=
  Ideal.pow (Scalar.select (Ideal.cmp .ogt (nvR X G) kZero) (binW (cntR X G) (nvR X G) b) kOne) kAlpha

theorem wK_eq_wRb (hX : ∀ i, RowFin (X i)) (b : Fin 10) : wK X G b = wRb X G b := by
  unfold wK wRb
  rw [nvK_eq_nvR X G hX, Counts.cntK_eq_cntR X G hX]

theorem Counts.kTot_eq : kTot = ((67108864 : ℝ) : EReal) := by
  simp [kTot, Ideal.ofBits, Ideal.ieee, -EReal.coe_mul] <;> norm_num

theorem Counts.kAlpha_eq : kAlpha = ((3 / 4 : ℝ) : EReal) := by
  simp [kAlpha, Ideal.ofBits, Ideal.ieee, -EReal.coe_mul] <;> norm_num

theorem Counts.kTenth_pos : ∃ t : ℝ, 0 < t ∧ kTenth = (t : EReal) := by
  refine ⟨13421773 / 134217728, by norm_num, ?_⟩
  simp [kTenth, Ideal.ofBits, Ideal.ieee, -EReal.coe_mul] <;> norm_num

/-- from real populations and a real number of populated bins, a bin's weight before the power is a real number -/
theorem Counts.binW_real (cnt : Fin 10 → EReal) (nv : EReal) (hc : ∀ b, ∃ r : ℝ, cnt b = (r : EReal))
    (hn : ∃ r : ℝ, nv = (r : EReal)) (b : Fin 10) : ∃ r : ℝ, binW cnt nv b = (r : EReal) := by
  obtain ⟨c, hc⟩ := hc b
  obtain ⟨n, hn⟩ := hn
  obtain ⟨t, _, hT⟩ := Counts.kTenth_pos
  have hacc : ∃ a : ℝ, accW cnt b = (a : EReal) := by
    unfold accW Scalar.select
    split
    · exact ⟨t * c, by rw [hc, hT, EReal.coe_mul]⟩
    · exact ⟨0, by rw [Counts.kZero_eq, EReal.coe_zero]⟩
  obtain ⟨a, ha⟩ := hacc
  unfold binW Scalar.select
  split
  · rename_i hp
    have hpos : (0 : ℝ) < a := by
      unfold posW at hp
      rw [ha, Counts.kZero_eq] at hp
      by_contra hna
      have : ¬ ((0 : EReal) < (a : EReal)) := by rwa [EReal.coe_pos]
      simp [Ideal.cmp, this] at hp
    have hden : denW cnt nv b = ((max n 1 * a : ℝ) : EReal) := by
      unfold denW Scalar.select
      rw [if_pos hp, ha, hn, Counts.kOne_eq, ← EReal.coe_one, ← EReal.coe_strictMono.monotone.map_max, ← EReal.coe_mul]
    rw [hden, Ideal.div_coe (ne_of_gt (mul_pos (lt_of_lt_of_le one_pos (le_max_right _ _)) hpos)), Counts.kTot_eq,
      ← EReal.coe_mul]
    exact ⟨_, rfl⟩
  · exact ⟨0, by rw [Counts.kZero_eq, EReal.coe_zero]⟩

theorem wK_real (hX : ∀ i, RowFin (X i)) (b : Fin 10) : ∃ r : ℝ, wK X G b = (r : EReal) := by
  have hn : ∃ r : ℝ, nvK X G = (r : EReal) :=
    ⟨((∑ b, (popd (cntK X G) b).toNat : ℕ) : ℝ), by unfold nvK; rw [Counts.kZero_eq, zero_add, Counts.coe_sum_nat]⟩
  have hc : ∀ b, ∃ r : ℝ, cntK X G b = (r : EReal) := fun b => ⟨_, cntK_eq_nat X G hX b⟩
  obtain ⟨w, hw⟩ := Counts.binW_real (cntK X G) (nvK X G) hc hn b
  unfold wK Scalar.select
  rw [Counts.kAlpha_eq]
  split
  · rw [hw, Ideal.pow_coe_coe]; exact ⟨_, rfl⟩
  · rw [Counts.kOne_eq, ← EReal.coe_one, Ideal.pow_coe_coe]; exact ⟨_, rfl⟩

end Cert.Ghmc

end
-- ==== Proof.MathWhole.lean ====
/-
  The whole input: `lossK = lossR` when every entry is a real number and every label a column.
  Populations: a block's population of bin b is a natural number at most 2048 · 512, so its truncation to a word is
  exact, the word sums over 32 blocks and 2 halves stay below 2³¹, and read as a signed integer the total is the
  number of entries of the whole input in slot b, which is what the scatter of ones counts.  So the ten weights agree
  (the two ways of counting populated bins agree on at most ten 0/1 terms).  The sums: with w the ten real weights
  and cnt i b the row populations, Σ_b w_b Σ_i cnt i b · ce_i = Σ_i ce_i Σ_b cnt i b · w_b = Σ_i ce_i Σ_j w (slot i j),
  all terms real, and dividing by 512 and then by 131072 is dividing by 2²⁶.
-/
import proofs.«428589_j7164005449994_3_alg».proof.Proof.MathCounts

noncomputable section

namespace Cert.Ghmc

open Idealize.ShloMosaic

/-! ## The values of the words -/

theorem Whole.kZero_eq : kZero = 0 := Ideal.ofBits_zero_f32

theorem Whole.kTot_eq : kTot = ((67108864 : ℝ) : EReal) := by
  simp only [kTot, Ideal.ofBits, Ideal.ieee, BitVec.reduceExtractLsb', BitVec.toNat_ofNat, Nat.reducePow,
    Nat.reduceMod, Nat.add_one_sub_one, Nat.reduceEqDiff, ↓reduceIte, OfNat.ofNat_ne_zero, Nat.reduceAdd,
    BitVec.reduceBEq, Bool.false_eq_true, Nat.zero_mod, add_zero, Nat.cast_ofNat, one_mul, Int.reducePow, Int.reduceSub,
    zpow_ofNat]
  norm_num

theorem Whole.k512_eq : k512 = ((512 : ℝ) : EReal) := by
  simp only [k512, Ideal.ofBits, Ideal.ieee, BitVec.reduceExtractLsb', BitVec.toNat_ofNat, Nat.reducePow,
    Nat.reduceMod, Nat.add_one_sub_one, Nat.reduceEqDiff, ↓reduceIte, OfNat.ofNat_ne_zero, Nat.reduceAdd,
    BitVec.reduceBEq, Bool.false_eq_true, Nat.zero_mod, add_zero, Nat.cast_ofNat, one_mul, Int.reducePow, Int.reduceSub,
    zpow_neg, zpow_ofNat]
  norm_num

theorem Whole.kRows_eq : kRows = ((131072 : ℝ) : EReal) := by
  simp only [kRows, Ideal.ofBits, Ideal.ieee, BitVec.reduceExtractLsb', BitVec.toNat_ofNat, Nat.reducePow,
    Nat.reduceMod, Nat.add_one_sub_one, Nat.reduceEqDiff, ↓reduceIte, OfNat.ofNat_ne_zero, Nat.reduceAdd,
    BitVec.reduceBEq, Bool.false_eq_true, Nat.zero_mod, add_zero, Nat.cast_ofNat, one_mul, Int.reducePow, Int.reduceSub,
    zpow_neg, zpow_ofNat]
  norm_num

/-- the coercion of a finite sum of reals is the sum of the coercions -/
theorem Whole.coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The rows as two halves of 32 blocks of 2048 -/

def Whole.rowEquiv : Fin 2 × Fin 32 × Fin 2048 ≃ Fin 131072 where
  toFun p := rowOf p.1 p.2.1 p.2.2
  invFun i := (⟨i.val / 65536, by have := i.isLt; omega⟩, ⟨i.val / 2048 % 32, by omega⟩, ⟨i.val % 2048, by omega⟩)
  left_inv := by
    rintro ⟨c, k, r⟩
    have := c.isLt; have := k.isLt; have := r.isLt
    simp only [rowOf, Prod.mk.injEq, Fin.ext_iff]
    refine ⟨?_, ?_, ?_⟩ <;> omega
  right_inv := by
    intro i
    have := i.isLt
    simp only [rowOf, Fin.ext_iff]
    omega

theorem Whole.sum_rowOf {M : Type*} [AddCommMonoid M] (f : Fin 131072 → M) :
    ∑ c : Fin 2, ∑ k : Fin 32, ∑ r : Fin 2048, f (rowOf c k r) = ∑ i, f i := by
  rw [← Equiv.sum_comp Whole.rowEquiv f, Fintype.sum_prod_type]
  refine Finset.sum_congr rfl fun c _ => ?_
  rw [Fintype.sum_prod_type]
  rfl

/-! ## The exchange of the two sums, over the reals -/

theorem Whole.sum_fiber (w : Fin 10 → ℝ) (σ : Fin 512 → ℕ) (hσ : ∀ j, σ j < 10) :
    ∑ j, w ⟨σ j, hσ j⟩ = ∑ b : Fin 10, ((Finset.univ.filter fun j => σ j = b.val).card : ℝ) * w b := by
  rw [← Finset.sum_fiberwise' Finset.univ (fun j => (⟨σ j, hσ j⟩ : Fin 10)) w]
  refine Finset.sum_congr rfl fun b _ => ?_
  rw [Finset.sum_const, nsmul_eq_mul]
  have e : (Finset.univ.filter fun j => (⟨σ j, hσ j⟩ : Fin 10) = b) = Finset.univ.filter fun j => σ j = b.val := by
    ext j
    simp [Fin.ext_iff]
  rw [e]

theorem Whole.real_exchange {ι : Type*} [Fintype ι] (w : Fin 10 → ℝ) (ce : ι → ℝ) (n : ι → Fin 10 → ℝ) (t : ι → ℝ)
    (ht : ∀ i, t i = ∑ b, n i b * w b) :
    (∑ b, w b * ∑ i, n i b * ce i) / 67108864 = (∑ i, (ce i * t i) / 512) / 131072 := by
  have h1 : ∀ b, w b * ∑ i, n i b * ce i = ∑ i, w b * (n i b * ce i) := fun b => Finset.mul_sum _ _ _
  have h2 : ∀ i, ce i * t i / 512 = (∑ b, ce i * (n i b * w b)) / 512 := fun i => by rw [ht i, Finset.mul_sum]
  rw [Finset.sum_congr rfl (fun b _ => h1 b), Finset.sum_congr rfl (fun i _ => h2 i)]
  rw [Finset.sum_comm, ← Finset.sum_div, div_div]
  have e : (512 : ℝ) * 131072 = 67108864 := by norm_num
  rw [e]
  congr 1
  exact Finset.sum_congr rfl fun i _ => Finset.sum_congr rfl fun b _ => by ring

/-! ## The two losses -/

/-- clamping a number below ten to at most nine changes nothing -/
theorem Whole.fin_min_eq (σ : ℕ) (h : σ < 10) (h' : min σ 9 < 10) : (⟨min σ 9, h'⟩ : Fin 10) = ⟨σ, h⟩ := by
  apply Fin.ext
  show min σ 9 = σ
  omega

theorem loss_eq (X : Fin 131072 → Fin 512 → EReal) (G : Fin 131072 → BitVec 32)
    (hX : ∀ i, RowFin (X i)) (hG : ∀ i, LabOk (G i)) : lossK X G = lossR X G := by
  -- the ten weights and the rows' cross-entropies are real numbers
  choose w hw using wK_real X G hX
  choose ce hce using fun i => ceK_real (X i) (G i) (hX i) (hG i)
  have hs : ∀ i j, slotNat (X i) (G i) j < 10 := fun i j => (slot_range (X i) (G i) (hX i) j).2
  -- n i b: the population of bin b in row i;  t i: the sum of the weights the entries of row i gather
  obtain ⟨n, hn⟩ : ∃ n : Fin 131072 → Fin 10 → ℝ, ∀ i b,
      n i b = ((Finset.univ.filter fun j : Fin 512 => slotNat (X i) (G i) j = b.val).card : ℝ) := ⟨_, fun _ _ => rfl⟩
  obtain ⟨t, ht0⟩ : ∃ t : Fin 131072 → ℝ, ∀ i, t i = ∑ j, w ⟨slotNat (X i) (G i) j, hs i j⟩ := ⟨_, fun _ => rfl⟩
  have ht : ∀ i, t i = ∑ b, n i b * w b := fun i => by
    rw [ht0 i, Whole.sum_fiber w (slotNat (X i) (G i)) (hs i)]
    exact Finset.sum_congr rfl fun b _ => by rw [hn i b]
  -- the K side: Σ_b w_b · Σ_i n i b · ce_i, over 2²⁶
  have hsK : ∀ b, sK X G b = ((∑ i, n i b * ce i : ℝ) : EReal) := by
    intro b
    have e : sK X G b = kZero + ∑ c, ∑ k, ∑ r,
        cntRowK (X (rowOf c k r)) (G (rowOf c k r)) b * ceK (X (rowOf c k r)) (G (rowOf c k r)) := rfl
    rw [e, Whole.sum_rowOf (fun i => cntRowK (X i) (G i) b * ceK (X i) (G i)), Whole.kZero_eq, zero_add, Whole.coe_sum]
    refine Finset.sum_congr rfl fun i _ => ?_
    rw [cntRowK_eq_card (X i) (G i) (hX i) b, hce i, hn i b, EReal.coe_mul]
  have hK : lossK X G = (((∑ b, w b * ∑ i, n i b * ce i) / 67108864 : ℝ) : EReal) := by
    have e : lossK X G = Ideal.div (kZero + ∑ b, wK X G b * sK X G b) kTot := rfl
    rw [e, Whole.kZero_eq, zero_add, Whole.kTot_eq, Ideal.div_coe (y := 67108864) (by norm_num)]
    rw [Finset.sum_congr rfl (fun b _ => by rw [hw b, hsK b, ← EReal.coe_mul] :
      ∀ b ∈ Finset.univ, wK X G b * sK X G b = ((w b * ∑ i, n i b * ce i : ℝ) : EReal))]
    rw [← Whole.coe_sum, ← EReal.coe_mul]
    congr 1
    ring
  -- the R side: Σ_i (ce_i · t_i) / 512, over 131072
  have hwR : ∀ i j, wR X G i j = ((w ⟨slotNat (X i) (G i) j, hs i j⟩ : ℝ) : EReal) := by
    intro i j
    have e : wR X G i j = wRb X G ⟨min (slotNat (X i) (G i) j) 9, by omega⟩ := rfl
    rw [e, Whole.fin_min_eq _ (hs i j), ← wK_eq_wRb X G hX, hw]
  have hrow : ∀ i, lossRow X G i = ((ce i * t i / 512 : ℝ) : EReal) := by
    intro i
    have e : lossRow X G i = Ideal.div (ceR (X i) (G i) * (kZero + ∑ j, wR X G i j)) k512 := rfl
    rw [e, ← ceK_eq_ceR (X i) (G i) (hX i) (hG i), hce i, Whole.kZero_eq, zero_add, Whole.k512_eq,
      Ideal.div_coe (y := 512) (by norm_num)]
    rw [Finset.sum_congr rfl (fun j _ => hwR i j), ← Whole.coe_sum, ← ht0 i, ← EReal.coe_mul, ← EReal.coe_mul]
    congr 1
    ring
  have hR : lossR X G = (((∑ i, ce i * t i / 512) / 131072 : ℝ) : EReal) := by
    have e : lossR X G = Ideal.div (kZero + ∑ i, lossRow X G i) kRows := rfl
    rw [e, Whole.kZero_eq, zero_add, Whole.kRows_eq, Ideal.div_coe (y := 131072) (by norm_num)]
    rw [Finset.sum_congr rfl (fun i _ => hrow i), ← Whole.coe_sum, ← EReal.coe_mul]
    congr 1
    ring
  rw [hK, hR, Whole.real_exchange w ce n t ht]

end Cert.Ghmc

end
-- ==== Proof.PreDecode.lean ====
/-
  What the precondition says of the arguments: the conjunction of "every entry of the input has absolute value below
  +∞" and "every label is at least 0 and below 512", each a reduction by `and` over the whole array, holds exactly
  when every entry is a real number and every label, read signed, lies in 0 … 511.
-/
import proofs.«428589_j7164005449994_3_alg».proof.Pre_finite_inputs
import proofs.«428589_j7164005449994_3_alg».proof.Proof.Gen.Pre_finite_inputs
import proofs.«428589_j7164005449994_3_alg».proof.Proof.Args
import proofs.«428589_j7164005449994_3_alg».proof.Proof.MathRow
import Idealize.ShloMosaic.Lib.ReduceAll
import Idealize.ShloMosaic.Lib.ValueIdx
import Idealize.ShloMosaic.PureOps.Ideal.Laws

noncomputable section

namespace Cert.Pre_finite_inputs.Decode

open Cert.Pre_finite_inputs Idealize.ShloMosaic Idealize.ShloMosaic.ValueIdx Cert.Ghmc

/-- the result of a reduction over every axis has a single index -/
local instance : Subsingleton S_.Idx := ⟨fun a b => funext fun d => d.elim0⟩

/-- an extended real whose absolute value, max a (-a), lies strictly below +∞ is a real number -/
theorem real_of_abs_lt_top (a : EReal) (ha : max a (-a) < ⊤) : ∃ r : ℝ, a = (r : EReal) := by
  induction a using EReal.rec with
  | bot => simp at ha
  | coe r => exact ⟨r, rfl⟩
  | top => simp at ha

/-- a one-bit word made from a truth value is 1 exactly when the value is true -/
theorem ofBool_eq_one (b : Bool) : BitVec.ofBool b = 1#1 ↔ b = true := by cases b <;> decide

/-- the word 0x7F800000 denotes +∞ -/
theorem inf_word : Ideal.ofBits .f32 0x7F800000#32 = (⊤ : EReal) := by simp [Ideal.ofBits, Ideal.ieee]

theorem pre_decode [Cert.Pre_finite_inputs.Facts] (x : FVec Ideal S131072x512 .f32) (t : IVec S131072 32)
    (h : Cert.Pre_finite_inputs.fn (F := Ideal) x t = fun _ => 1#1) :
    (∀ i, RowFin (matOf x i)) ∧ (∀ i, LabOk (labOf t i)) := by
  -- the one entry of the result, and the two conjuncts of its final `and`
  have h0 := congrFun h ValueIdx.ix0
  dsimp only [Cert.Pre_finite_inputs.fn] at h0
  obtain ⟨hx, ht⟩ := IntOp.andi_eq_one.1 h0
  constructor
  · -- every entry: |x i j| < +∞, so x i j is a real number
    intro i j
    have e := Host.reduce_andi_all _ _ _ _ _ hx (ix2 i j)
    change Ideal.cmp .olt (max (x (ix2 i j)) (-(x (ix2 i j)))) (Ideal.ofBits .f32 0x7F800000#32) = 1#1 at e
    rw [inf_word] at e
    simp only [Ideal.cmp, ofBool_eq_one, decide_eq_true_eq] at e
    exact real_of_abs_lt_top _ e
  · -- every label: 0 ≤ t i and t i < 512, compared signed
    intro i
    have e := Host.reduce_andi_all _ _ _ _ _ ht (ix1 i)
    change IntOp.andi (IntOp.cmpi .sge (t (ix1 i)) 0#32) (IntOp.cmpi .slt (t (ix1 i)) 512#32) = 1#1 at e
    obtain ⟨e1, e2⟩ := IntOp.andi_eq_one.1 e
    simp only [IntOp.cmpi, BitVec.sle, ofBool_eq_one, decide_eq_true_eq] at e1
    simp only [IntOp.cmpi, BitVec.slt, ofBool_eq_one, decide_eq_true_eq] at e2
    have z0 : (0#32 : BitVec 32).toInt = 0 := by decide
    have z512 : (512#32 : BitVec 32).toInt = 512 := by decide
    rw [z0] at e1
    rw [z512] at e2
    exact ⟨e1, e2⟩

end Cert.Pre_finite_inputs.Decode

end
-- ==== Proof.lean ====
/-
  The kernel computes a gradient-harmonised cross-entropy loss in one pass over a 131072 × 512 input, the reference in
  the textbook order; over the extended reals, for real inputs and labels that are columns, the two results are equal.

  Both soft-max every row and take g = |p − onehot(label)| ∈ [0, 1].  The reference bins every g by ⌊10 g⌋ clipped to
  0 … 9, counts the ten bins over the whole input, derives ten weights from the counts, and returns the mean over rows
  of  ce_i · (Σ_j w(bin_ij)^{3/4}) / 512,  with ce_i the cross-entropy of the soft-maxed row (soft-maxed once more)
  against the label.  The kernel never forms a weight per entry: for each row it counts the entries with 10 g ≥ b
  for b = 1 … 9, whose consecutive differences are the row's ten bin populations cnt_{i,b}; block by block it
  accumulates Σ_i cnt_{i,b} (the global counts) and S_b = Σ_i cnt_{i,b} · ce_i; afterwards it derives the same ten
  weights and returns (Σ_b w_b^{3/4} · S_b) / 2²⁶.  Since Σ_j w(bin_ij)^{3/4} = Σ_b cnt_{i,b} · w_b^{3/4}, the two are
  the same finite double sum in two orders, and 512 · 131072 = 2²⁶.

  The frames of the two kernel programs are the generated ones; the reference's frame is its run with the result
  dropped; there is no rewrite to preserve.  The value claim joins the kernel's run (its result read off the frame:
  KAcc, KTail over Body, BodyRow, BodyVal), the reference's run stage by stage (RefRunStages) and its last stage read
  as the loss (RefValue), the decoded precondition (PreDecode) and the equality of the two losses (MathRow, MathCounts,
  MathWhole).
-/
import proofs.«428589_j7164005449994_3_alg».proof.Defs
import proofs.«428589_j7164005449994_3_alg».proof.Proof.Gen.Kernel
import proofs.«428589_j7164005449994_3_alg».proof.Proof.Gen.Kernel.Skeleton
import proofs.«428589_j7164005449994_3_alg».proof.Proof.Gen.Kernel.Launch
import proofs.«428589_j7164005449994_3_alg».proof.Proof.Gen.Kernel.Points
import proofs.«428589_j7164005449994_3_alg».proof.Proof.Gen.Kernel.Frame
import proofs.«428589_j7164005449994_3_alg».proof.Proof.Gen.KernelIdeal
import proofs.«428589_j7164005449994_3_alg».proof.Proof.Gen.KernelIdeal.Skeleton
import proofs.«428589_j7164005449994_3_alg».proof.Proof.Gen.KernelIdeal.Launch
import proofs.«428589_j7164005449994_3_alg».proof.Proof.Gen.KernelIdeal.Points
import proofs.«428589_j7164005449994_3_alg».proof.Proof.Gen.KernelIdeal.Frame
import proofs.«428589_j7164005449994_3_alg».proof.Proof.Gen.ReferenceIdeal
import proofs.«428589_j7164005449994_3_alg».proof.Proof.Gen.Pre_finite_inputs
import proofs.«428589_j7164005449994_3_alg».proof.Proof.RefRunStages
import proofs.«428589_j7164005449994_3_alg».proof.Proof.KTail
import proofs.«428589_j7164005449994_3_alg».proof.Proof.RefValue
import proofs.«428589_j7164005449994_3_alg».proof.Proof.MathWhole
import proofs.«428589_j7164005449994_3_alg».proof.Proof.PreDecode
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- the reference's run, its result dropped -/
theorem frame_ri : Cert.frame_ReferenceIdeal := fun m ρ _ =>
  (θ_run Cert.ReferenceIdeal.defs _ _).mono (fun _ h c => (h c).2) (Cert.ReferenceIdeal.HRun.run (F := Ideal) m ρ)

/-- both programs end at the one loss of the input: the kernel's run at `lossK`, the reference's at `lossR` of
    arguments that agree, and the two are equal where the precondition holds -/
theorem algebraic : Cert.algebraic_KernelIdeal_ReferenceIdeal := by
  intro m ρ m' ρ' hpre hagree
  refine ⟨fun c => fun _ => Cert.Ghmc.lossK (Cert.KernelIdeal.KAcc.Xof m c) (Cert.KernelIdeal.KAcc.Gof m c),
    Cert.KernelIdeal.KTail.kernel_run m ρ, ?_⟩
  refine (θ_run Cert.ReferenceIdeal.defs _ _).mono (fun _ h c => ⟨(h c).1.trans ?_, (h c).2⟩)
    (Cert.ReferenceIdeal.HRun.run (F := Ideal) m' ρ')
  obtain ⟨hX, hG⟩ := Cert.Pre_finite_inputs.Decode.pre_decode _ _ (hpre c)
  rw [Cert.ReferenceIdeal.RefValue.ref_val, (hagree c).1, (hagree c).2]
  funext _
  exact (Cert.Ghmc.loss_eq _ _ hX hG).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
